-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel

variable [Facts]

def fn {F : FTy → Type} [FloatOps F] (main_arg0 : FVec F S262144x128 .f32) (main_arg1 : FVec F S262144x128 .f32) (main_arg2 : FVec F S262144x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  main_v13
-- ==== Kernel.lean ====
abbrev S262144x128 : Shape := ⟨2, ![262144, 128]⟩
abbrev S1x128 : Shape := ⟨2, ![1, 128]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S1x1 : Shape := ⟨2, ![1, 1]⟩
abbrev S1x10 : Shape := ⟨2, ![1, 10]⟩
abbrev S10 : Shape := ⟨1, ![10]⟩
abbrev S_ : Shape := ⟨0, ![]⟩
abbrev S2 : Shape := ⟨1, ![2]⟩

abbrev nBuf : Space → Nat
  | .hbm => 49
  | .vmem => 17
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S1x128, .f32⟩
  | .hbm, ⟨4, _⟩ => ⟨S1x10, .f32⟩
  | .hbm, ⟨5, _⟩ => ⟨S10, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S10, .f32⟩
  | .hbm, ⟨12, _⟩ => ⟨S10, .i1⟩
  | .hbm, ⟨13, _⟩ => ⟨S10, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S10, .f32⟩
  | .hbm, ⟨18, _⟩ => ⟨S10, .i1⟩
  | .hbm, ⟨19, _⟩ => ⟨S_, .f32⟩
  | .hbm, ⟨20, _⟩ => ⟨S10, .f32⟩
  | .hbm, ⟨21, _⟩ => ⟨S10, .f32⟩
  | .hbm, ⟨22, _⟩ => ⟨S10, .f32⟩
  | .hbm, ⟨23, _⟩ => ⟨S10, .f32⟩
  | .hbm, ⟨24, _⟩ => ⟨S_, .f32⟩
  | .hbm, ⟨25, _⟩ => ⟨S_, .f32⟩
  | .hbm, ⟨26, _⟩ => ⟨S10, .f32⟩
  | .hbm, ⟨27, _⟩ => ⟨S10, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S10, .f32⟩
  | .hbm, ⟨33, _⟩ => ⟨S10, .f32⟩
  | .hbm, ⟨34, _⟩ => ⟨S10, .f32⟩
  | .hbm, ⟨35, _⟩ => ⟨S_, .f32⟩
  | .hbm, ⟨36, _⟩ => ⟨S1x128, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S1x128, .f32⟩
  | .hbm, ⟨43, _⟩ => ⟨S1x128, .f32⟩
  | .hbm, ⟨44, _⟩ => ⟨S1x1, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S1x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_c : Ref sig .tc := ⟨.hbm, 37, rfl⟩
abbrev main_v23 : Ref sig .tc := ⟨.hbm, 38, rfl⟩
abbrev main_c_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v174 : BitVec 1 := Scalar.cmpi .eq arg0 c63_i32
  let v175 : BitVec 32 := Scalar.extui v174
  let c0_i32_46 : BitVec 32 := 0#32
  let v176 : BitVec 1 := Scalar.cmpi .ne v175 c0_i32_46
  v176

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![64], ![false]⟩

def k1_cond2 (i : grid1.Coords) : BitVec 1 :=
  let arg0 : BitVec 32 := BitVec.ofNat 32 (i 0).val
  let c63_i32 : BitVec 32 := 63#32
  let v107 : BitVec 1 := Scalar.cmpi .eq arg0 c63_i32
  let v108 : BitVec 32 := Scalar.extui v107
  let c0_i32_31 : BitVec 32 := 0#32
  let v109 : BitVec 1 := Scalar.cmpi .ne v108 c0_i32_31
  v109

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S4096x128_S4096x128_0_0 : ∀ a, (![0, 0] : Fin 2 → Nat) a + S4096x128.size a ≤ S4096x128.size a
  h_S4096x128 : 0 < S4096x128.numel
  natLt_1_32 : 1 < 32
  iota_S1x128_d1_w32 : S1x128.Iotas .tc 32 [1]
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  inpos_S1x1_p0_0 : ∀ a, (![0, 0] : Fin 2 → Nat) a < S1x1.size a
  slices_S1x128_S1x10_0_0 : S1x128.Slices ![0, 0] S1x10
  shapeCasts_S1x10_S10 : S1x10.ShapeCasts S10
  slices_S1x128_S1x1_0_10 : S1x128.Slices ![0, 10] S1x1
  shapeCasts_S1x1_S_ : S1x1.ShapeCasts S_
  bcast_S_S10 : S_.BroadcastsInDim S10 (![] : Fin 0 → Fin S10.rank)
  reducesTo_S10_S_d0 : S10.ReducesTo [0] S_
  h_S_ : 0 < S_.numel
  bcast_S_S1x128 : S_.BroadcastsInDim S1x128 (![] : Fin 0 → Fin S1x128.rank)
  bcast_S_S1 : S_.BroadcastsInDim S1 (![] : Fin 0 → Fin S1.rank)
  concatenates_S1_S1_S2_d0 : Shape.Concatenates [S1, S1] S2 0
  inb_S1x128_S1x1_0_0 : ∀ a, (![0, 0] : Fin 2 → Nat) a + S1x1.size a ≤ S1x128.size a
  h_S1x1 : 0 < S1x1.numel
  inb_S1x128_S1x1_0_1 : ∀ a, (![0, 1] : Fin 2 → Nat) a + S1x1.size a ≤ S1x128.size a
  inb_S1x128_S1x1_0_2 : ∀ a, (![0, 2] : Fin 2 → Nat) a + S1x1.size a ≤ S1x128.size a
  inb_S1x128_S1x1_0_3 : ∀ a, (![0, 3] : Fin 2 → Nat) a + S1x1.size a ≤ S1x128.size a
  inb_S1x128_S1x1_0_4 : ∀ a, (![0, 4] : Fin 2 → Nat) a + S1x1.size a ≤ S1x128.size a
  inb_S1x128_S1x1_0_5 : ∀ a, (![0, 5] : Fin 2 → Nat) a + S1x1.size a ≤ S1x128.size a
  inb_S1x128_S1x1_0_6 : ∀ a, (![0, 6] : Fin 2 → Nat) a + S1x1.size a ≤ S1x128.size a
  inb_S1x128_S1x1_0_7 : ∀ a, (![0, 7] : Fin 2 → Nat) a + S1x1.size a ≤ S1x128.size a
  inb_S1x128_S1x1_0_8 : ∀ a, (![0, 8] : Fin 2 → Nat) a + S1x1.size a ≤ S1x128.size a
  inb_S1x128_S1x1_0_9 : ∀ a, (![0, 9] : Fin 2 → Nat) a + S1x1.size a ≤ S1x128.size a
  slices_S1x128_S1x1_0_0 : S1x128.Slices ![0, 0] S1x1
  scatter_S1x128_S2_S10_0_0_01_0_wf : ScatterDims.WF S1x128 S2 S10 [0] [0] [0, 1] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S262144x128.size a
  hwx1_0 : ∀ i : grid1.Coords, EltTy.bits .f32 = 32 ∨ (Rect.block (s := S262144x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S262144x128.size a
  hwx1_1 : ∀ i : grid1.Coords, EltTy.bits .f32 = 32 ∨ (Rect.block (s := S262144x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S262144x128.size a
  hwx1_2 : ∀ i : grid1.Coords, EltTy.bits .f32 = 32 ∨ (Rect.block (s := S262144x128) S4096x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)

variable [Facts₀]

def scatter_S1x128_S2_S10_0_0_01_0 : ScatterDims S1x128 S2 S10 where
  updateWindowDims := [0]
  insertedWindowDims := [0]
  scatterDimsToOperandDims := [0, 1]
  indexVectorDim := 0
  wf := scatter_S1x128_S2_S10_0_0_01_0_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S262144x128 : Shape := ⟨2, ![262144, 128]⟩
abbrev S_ : Shape := ⟨0, ![]⟩
abbrev S33554432 : Shape := ⟨1, ![33554432]⟩
abbrev S10 : Shape := ⟨1, ![10]⟩
abbrev S33554432x1 : Shape := ⟨2, ![33554432, 1]⟩
abbrev S262144x128x1 : Shape := ⟨3, ![262144, 128, 1]⟩

abbrev nBuf : Space → Nat
  | .hbm => 87
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x128, .f32⟩
  | .hbm, ⟨2, _⟩ => ⟨S262144x128, .f32⟩
  | .hbm, ⟨3, _⟩ => ⟨S262144x128, .f32⟩
  | .hbm, ⟨4, _⟩ => ⟨S262144x128, .f32⟩
  | .hbm, ⟨5, _⟩ => ⟨S_, .f32⟩
  | .hbm, ⟨6, _⟩ => ⟨S262144x128, .f32⟩
  | .hbm, ⟨7, _⟩ => ⟨S262144x128, .f32⟩
  | .hbm, ⟨8, _⟩ => ⟨S_, .f32⟩
  | .hbm, ⟨9, _⟩ => ⟨S262144x128, .f32⟩
  | .hbm, ⟨10, _⟩ => ⟨S262144x128, .f32⟩
  | .hbm, ⟨11, _⟩ => ⟨S262144x128, .f32⟩
  | .hbm, ⟨12, _⟩ => ⟨S262144x128, .f32⟩
  | .hbm, ⟨13, _⟩ => ⟨S_, .f32⟩
  | .hbm, ⟨14, _⟩ => ⟨S262144x128, .f32⟩
  | .hbm, ⟨15, _⟩ => ⟨S262144x128, .i1⟩
  | .hbm, ⟨16, _⟩ => ⟨S262144x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S262144x128, .f32⟩
  | .hbm, ⟨23, _⟩ => ⟨S262144x128, .f32⟩
  | .hbm, ⟨24, _⟩ => ⟨S262144x128, .i32⟩
  | .hbm, ⟨25, _⟩ => ⟨S_, .i32⟩
  | .hbm, ⟨26, _⟩ => ⟨S262144x128, .i32⟩
  | .hbm, ⟨27, _⟩ => ⟨S262144x128, .i32⟩
  | .hbm, ⟨28, _⟩ => ⟨S33554432, .f32⟩
  | .hbm, ⟨29, _⟩ => ⟨S33554432, .i32⟩
  | .hbm, ⟨30, _⟩ => ⟨S_, .f32⟩
  | .hbm, ⟨31, _⟩ => ⟨S10, .f32⟩
  | .hbm, ⟨32, _⟩ => ⟨S33554432x1, .i32⟩
  | .hbm, ⟨33, _⟩ => ⟨S10, .f32⟩
  | .hbm, ⟨34, _⟩ => ⟨S_, .f32⟩
  | .hbm, ⟨35, _⟩ => ⟨S10, .f32⟩
  | .hbm, ⟨36, _⟩ => ⟨S10, .i1⟩
  | .hbm, ⟨37, _⟩ => ⟨S10, .i32⟩
  | .hbm, ⟨38, _⟩ => ⟨S_, .i32⟩
  | .hbm, ⟨39, _⟩ => ⟨S_, .i32⟩
  | .hbm, ⟨40, _⟩ => ⟨S_, .f32⟩
  | .hbm, ⟨41, _⟩ => ⟨S10, .f32⟩
  | .hbm, ⟨42, _⟩ => ⟨S10, .i1⟩
  | .hbm, ⟨43, _⟩ => ⟨S_, .f32⟩
  | .hbm, ⟨44, _⟩ => ⟨S10, .f32⟩
  | .hbm, ⟨45, _⟩ => ⟨S10, .f32⟩
  | .hbm, ⟨46, _⟩ => ⟨S10, .f32⟩
  | .hbm, ⟨47, _⟩ => ⟨S10, .f32⟩
  | .hbm, ⟨48, _⟩ => ⟨S_, .f32⟩
  | .hbm, ⟨49, _⟩ => ⟨S_, .f32⟩
  | .hbm, ⟨50, _⟩ => ⟨S10, .f32⟩
  | .hbm, ⟨51, _⟩ => ⟨S10, .f32⟩
  | .hbm, ⟨52, _⟩ => ⟨S_, .i32⟩
  | .hbm, ⟨53, _⟩ => ⟨S262144x128, .i32⟩
  | .hbm, ⟨54, _⟩ => ⟨S262144x128, .i1⟩
  | .hbm, ⟨55, _⟩ => ⟨S_, .i32⟩
  | .hbm, ⟨56, _⟩ => ⟨S262144x128, .i32⟩
  | .hbm, ⟨57, _⟩ => ⟨S262144x128, .i32⟩
  | .hbm, ⟨58, _⟩ => ⟨S262144x128, .i32⟩
  | .hbm, ⟨59, _⟩ => ⟨S262144x128x1, .i32⟩
  | .hbm, ⟨60, _⟩ => ⟨S262144x128, .f32⟩
  | .hbm, ⟨61, _⟩ => ⟨S_, .f32⟩
  | .hbm, ⟨62, _⟩ => ⟨S_, .f32⟩
  | .hbm, ⟨63, _⟩ => ⟨S262144x128, .f32⟩
  | .hbm, ⟨64, _⟩ => ⟨S262144x128, .f32⟩
  | .hbm, ⟨65, _⟩ => ⟨S_, .i32⟩
  | .hbm, ⟨66, _⟩ => ⟨S_, .i1⟩
  | .hbm, ⟨67, _⟩ => ⟨S_, .f32⟩
  | .hbm, ⟨68, _⟩ => ⟨S262144x128, .f32⟩
  | .hbm, ⟨69, _⟩ => ⟨S262144x128, .f32⟩
  | .hbm, ⟨70, _⟩ => ⟨S262144x128, .f32⟩
  | .hbm, ⟨71, _⟩ => ⟨S_, .f32⟩
  | .hbm, ⟨72, _⟩ => ⟨S262144x128, .f32⟩
  | .hbm, ⟨73, _⟩ => ⟨S262144x128, .f32⟩
  | .hbm, ⟨74, _⟩ => ⟨S262144x128, .f32⟩
  | .hbm, ⟨75, _⟩ => ⟨S262144x128, .f32⟩
  | .hbm, ⟨76, _⟩ => ⟨S262144x128, .f32⟩
  | .hbm, ⟨77, _⟩ => ⟨S262144x128, .f32⟩
  | .hbm, ⟨78, _⟩ => ⟨S262144x128, .f32⟩
  | .hbm, ⟨79, _⟩ => ⟨S262144x128, .f32⟩
  | .hbm, ⟨80, _⟩ => ⟨S262144x128, .f32⟩
  | .hbm, ⟨81, _⟩ => ⟨S262144x128, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_10 : Ref sig .tc := ⟨.hbm, 48, rfl⟩
abbrev main_call0_v0 : Ref sig .tc := ⟨.hbm, 49, rfl⟩
abbrev main_call0_v1 : Ref sig .tc := ⟨.hbm, 50, rfl⟩
abbrev main_v33 : Ref sig .tc := ⟨.hbm, 51, rfl⟩
abbrev main_c_11 : Ref sig .tc := ⟨.hbm, 52, rfl⟩
abbrev main_v34 : Ref sig .tc := ⟨.hbm, 53, rfl⟩
abbrev main_v35 : Ref sig .tc := ⟨.hbm, 54, rfl⟩
abbrev main_c_12 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_call1_v0 : Ref sig .tc := ⟨.hbm, 62, rfl⟩
abbrev main_call1_v1 : Ref sig .tc := ⟨.hbm, 63, rfl⟩
abbrev main_v41 : Ref sig .tc := ⟨.hbm, 64, rfl⟩
abbrev main_c_14 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_15 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_16 : Ref sig .tc := ⟨.hbm, 82, rfl⟩
abbrev main_v57 : Ref sig .tc := ⟨.hbm, 83, rfl⟩
abbrev main_v58 : Ref sig .tc := ⟨.hbm, 84, rfl⟩
abbrev main_cst_17 : Ref sig .tc := ⟨.hbm, 85, rfl⟩
abbrev main_v59 : Ref sig .tc := ⟨.hbm, 86, rfl⟩

abbrev nD : Nat := 1
abbrev τ : Topo := Topo.v7x

variable {F : FTy → Type} [FloatOps F]

class Facts₀ : Prop where
  bcast_S_S262144x128 : S_.BroadcastsInDim S262144x128 (![] : Fin 0 → Fin S262144x128.rank)
  reducesTo_S262144x128_S_d0_1 : S262144x128.ReducesTo [0, 1] S_
  h_S_ : 0 < S_.numel
  shapeCasts_S262144x128_S33554432 : S262144x128.ShapeCasts S33554432
  bcast_S_S10 : S_.BroadcastsInDim S10 (![] : Fin 0 → Fin S10.rank)
  bcast_S33554432_S33554432x1_0 : S33554432.BroadcastsInDim S33554432x1 (![0] : Fin 1 → Fin S33554432x1.rank)
  natLt_1_32 : 1 < 32
  reducesTo_S10_S_d0 : S10.ReducesTo [0] S_
  bcast_S262144x128_S262144x128x1_0_1 : S262144x128.BroadcastsInDim S262144x128x1 (![0, 1] : Fin 2 → Fin S262144x128x1.rank)
  scatter_S10_S33554432x1_S33554432_n_0_0_1_wf : ScatterDims.WF S10 S33554432x1 S33554432 [] [0] [0] 1
  gather_S10_S262144x128x1_S262144x128_n_0_n_n_0_2_1_wf : GatherDims.WF S10 S262144x128x1 S262144x128 [] [0] [] [0] [] 2 ![1]

variable [Facts₀]

def scatter_S10_S33554432x1_S33554432_n_0_0_1 : ScatterDims S10 S33554432x1 S33554432 where
  updateWindowDims := []
  insertedWindowDims := [0]
  scatterDimsToOperandDims := [0]
  indexVectorDim := 1
  wf := scatter_S10_S33554432x1_S33554432_n_0_0_1_wf
def gather_S10_S262144x128x1_S262144x128_n_0_n_n_0_2_1 : GatherDims S10 S262144x128x1 S262144x128 where
  offsetDims := []
  collapsedSliceDims := [0]
  operandBatchingDims := []
  startIndicesBatchingDims := []
  startIndexMap := [0]
  indexVectorDim := 2
  sliceSizes := ![1]
  wf := gather_S10_S262144x128x1_S262144x128_n_0_n_n_0_2_1_wf

class Facts : Prop extends Facts₀ where

variable [Facts]
-- ==== Proof.KI.Step0.lean ====
/- Region 0 (the histogram pass): the two conditions of its body decided over the grid (the first point resets the
   accumulator, the last point copies it to the output block), where the output window is idle, and the body's
   arithmetic as ONE pure function: what a point adds to the accumulator row. -/
import proofs.«128471_j21895743275016_1_alg».proof.Proof.Gen.KernelIdeal.Launch
import proofs.«128471_j21895743275016_1_alg».proof.Proof.Gen.KernelIdeal.Skeleton
import proofs.«128471_j21895743275016_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first `scf.if`: the point is the grid's first. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The body's second `scf.if`: the point is the grid's last. -/
abbrev cond0_1 (i : grid0.Coords) : Prop := k0_cond2 i = 1#1
theorem hcond0_1 : ∀ t : Fin cfg0.N, cond0_1 (grid0.coords t) ↔ t.val = 63 :=
  (by decide +kernel : ∀ t : Fin grid0.N, cond0_1 (grid0.coords t) ↔ t.val = 63)

/-- The three input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- The output window is idle, and not written back, at every point but the last; live at the last. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- The accumulator row as the first point resets it: all zeros. -/
def zero0 : Vec F S1x128 .f32 := k0_pay1 (F := F)

/-- What one point leaves in the accumulator row: the row `s` it found plus the point's row of per-bin valid counts
    (lanes 0..9) and valid total (lane 10), computed from the point's blocks of `pred`, `target`, `label_weight`. -/
def step0 (x0 x1 x2 : Vec F S4096x128 .f32) (s : Vec F S1x128 .f32) : Vec F S1x128 .f32 :=
  k0_pay10 (k0_pay2 x2) (k0_pay3 x0 x1) (iota .tc S1x128 32 [1] iota_S1x128_d1_w32)
    (k0_pay8 (k0_pay2 x2) (k0_pay3 x0 x1) (iota .tc S1x128 32 [1] iota_S1x128_d1_w32)
      (k0_pay6 (k0_pay2 x2) (k0_pay3 x0 x1) (iota .tc S1x128 32 [1] iota_S1x128_d1_w32) (k0_pay4 x0 x1 x2) (k0_pay5 x0 x1 x2))
      (k0_pay7 (k0_pay2 x2) (k0_pay3 x0 x1)) 4#32)
    k0_pay9 s

end Cert.KernelIdeal.Hand

end
-- ==== Proof.KI.Body0.lean ====
/- Region 0 (the histogram pass): the kernel body's three runs, one per control case. On whole staging memrefs holding the
   point's three input blocks the body hands the inputs back as they were and leaves the accumulator row at `step0` of
   the blocks over what it found (over zeros at the first point, which resets it first); at the last point it also
   copies that row into the output block, which it leaves untouched at every other point. -/
import proofs.«128471_j21895743275016_1_alg».proof.Proof.KI.Step0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point: the accumulator at anything in, reset, then the point's row added. -/
theorem kernel0_A (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x128 .f32) (harg5 : arg5.IsWhole) (hc0 : cond0_0 i) (hc1 : ¬cond0_1 i)
    (x0 x1 x2 : Vec F S4096x128 .f32) (xi : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare (step0 x0 x1 x2 zero0)) -∗ K ⟨⟩))
      ⊢ wp frame (wpE (defs₀ (F := F)) Variants.none c none) E (cc0__hist_kernel i arg1 harg1 arg2 harg2 arg3 harg3 arg4 harg4 arg5 harg5) K := by
  -- every index of the row lies in the one rectangle each store writes, so the last store alone decides the contents;
  -- the row read back between the reset and the update is the reset's zeros
  have hz2 : (![0, 0] : Fin 2 → Nat) = fun _ => 0 := funext fun a => by fin_cases a <;> rfl
  simp only [cc0__hist_kernel_eq_skeleton]; unfold cc0__hist_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%ds, %fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; iexact HS
  ipureintro
  sl_unfold_words
  rw [View.read_writes_eq_canon _ _ _ (fun y => ⟨_, List.Mem.head _, View.mem_set_unit_zero (S := S1x128) hz2 inb_S1x128_S1x128_0_0 y⟩)]
  dsimp only
  rw [View.canon_cons_unit_zero (S := S1x128) hz2]
  simp only [View.readCov_unit_zero (S := S1x128) _ hz2, View.readAt_eq_ld, harg1.read_unread, harg2.read_unread, harg3.read_unread, harg5.read_unread,
      View.ld_unit_zero (S := S4096x128) hz2, View.ld_unit_zero (S := S1x128) hz2]
  rfl

set_option maxHeartbeats 1000000 in
/-- A middle point: the point's row added to what the point before left. -/
theorem kernel0_B (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : ¬cond0_1 i)
    (x0 x1 x2 : Vec F S4096x128 .f32) (xi : Vec F S1x128 .f32) (xs : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare xi ∗ owns (c : Thread nD τ) arg5 fullShare (step0 x0 x1 x2 xs)) -∗ K ⟨⟩))
      ⊢ wp frame (wpE (defs₀ (F := F)) Variants.none c none) E (cc0__hist_kernel i arg1 harg1 arg2 harg2 arg3 harg3 arg4 harg4 arg5 harg5) K := by
  -- the one store covers the whole row, so the row afterwards is its payload, read at the blocks the buffers hold
  have hz2 : (![0, 0] : Fin 2 → Nat) = fun _ => 0 := funext fun a => by fin_cases a <;> rfl
  simp only [cc0__hist_kernel_eq_skeleton]; unfold cc0__hist_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  iexists _; isplitr; swap; iexact HS
  ipureintro
  rw [View.read_writes_eq_canon _ _ _ (fun y => ⟨_, List.mem_singleton_self _, View.mem_set_unit_zero (S := S1x128) hz2 inb_S1x128_S1x128_0_0 y⟩)]
  dsimp only; sl_unfold_words
  rw [View.canon_unit_zero hz2]
  simp only [View.readAt_eq_ld, harg1.read_unread, harg2.read_unread, harg3.read_unread, harg5.read_unread,
    View.ld_unit_zero (S := S4096x128) hz2, View.ld_unit_zero (S := S1x128) hz2]
  rfl

set_option maxHeartbeats 1000000 in
/-- The last point: the point's row added, and the accumulator copied into the output block. -/
theorem kernel0_C (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x128 .f32) (harg5 : arg5.IsWhole) (hc0 : ¬cond0_0 i) (hc1 : cond0_1 i)
    (x0 x1 x2 : Vec F S4096x128 .f32) (xs : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs
        ∗ (iprop(owns (c : Thread nD τ) arg1 fullShare x0 ∗ owns (c : Thread nD τ) arg2 fullShare x1 ∗ owns (c : Thread nD τ) arg3 fullShare x2 ∗ owns (c : Thread nD τ) arg4 fullShare (step0 x0 x1 x2 xs) ∗ owns (c : Thread nD τ) arg5 fullShare (step0 x0 x1 x2 xs)) -∗ K ⟨⟩))
      ⊢ wp frame (wpE (defs₀ (F := F)) Variants.none c none) E (cc0__hist_kernel i arg1 harg1 arg2 harg2 arg3 harg3 arg4 harg4 arg5 harg5) K := by
  -- the output block receives the accumulator row as read back after its update, which is the update's payload
  have hz2 : (![0, 0] : Fin 2 → Nat) = fun _ => 0 := funext fun a => by fin_cases a <;> rfl
  simp only [cc0__hist_kernel_eq_skeleton]; unfold cc0__hist_kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%d3, %f3, %hf3, H3⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; iexact H3
    ipureintro
    sl_unfold_words
    rw [View.read_writes_eq_canon _ _ _ (fun y => ⟨_, List.mem_singleton_self _, View.mem_set_unit_zero (S := S1x128) hz2 inb_S1x128_S1x128_0_0 y⟩)]
    dsimp only
    rw [View.canon_unit_zero hz2]
    simp only [View.readCov_unit_zero (S := S1x128) _ hz2, View.readAt_eq_ld, harg1.read_unread, harg2.read_unread, harg3.read_unread, harg5.read_unread,
      View.ld_unit_zero (S := S4096x128) hz2, View.ld_unit_zero (S := S1x128) hz2]
    rfl
  iexists _; isplitr; swap; iexact HS
  ipureintro
  sl_unfold_words
  rw [View.read_writes_eq_canon _ _ _ (fun y => ⟨_, List.mem_singleton_self _, View.mem_set_unit_zero (S := S1x128) hz2 inb_S1x128_S1x128_0_0 y⟩)]
  dsimp only
  rw [View.canon_unit_zero hz2]
  simp only [View.readCov_unit_zero (S := S1x128) _ hz2, View.readAt_eq_ld, harg1.read_unread, harg2.read_unread, harg3.read_unread, harg5.read_unread,
      View.ld_unit_zero (S := S4096x128) hz2, View.ld_unit_zero (S := S1x128) hz2]
  rfl

end Cert.KernelIdeal.Hand

end
-- ==== Proof.KI.Dat0.lean ====
/- Region 0 (the histogram pass) as a pipeline: the proof data over the contents `V` the region is entered with. After point
   `n` the accumulator row holds `acc0 n`: the rows of the points 0..n added up from zeros, each a function of the point's
   blocks of the three arrays. The output block is written only at the last point, with that row. The invariant carries the
   accumulator between points. -/
import proofs.«128471_j21895743275016_1_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator row after point `n`: the point's row added to what the point before left, from zeros. -/
def acc0 (c : Dev nD) : (n : ℕ) → n < cfg0.N → Vec F S1x128 .f32
  | 0, hn => step0 (iblk0 V c 0 ⟨0, hn⟩) (iblk0 V c 1 ⟨0, hn⟩) (iblk0 V c 2 ⟨0, hn⟩) zero0
  | n + 1, hn => step0 (iblk0 V c 0 ⟨n + 1, hn⟩) (iblk0 V c 1 ⟨n + 1, hn⟩) (iblk0 V c 2 ⟨n + 1, hn⟩) (acc0 c n (Nat.lt_of_succ_lt hn))

theorem acc0_zero (c : Dev nD) (t : Fin cfg0.N) (h : t.val = 0) :
    acc0 V c t.val t.isLt = step0 (iblk0 V c 0 t) (iblk0 V c 1 t) (iblk0 V c 2 t) zero0 := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = step0 (iblk0 V c 0 t) (iblk0 V c 1 t) (iblk0 V c 2 t)
      (acc0 V c (t.val - 1) (Nat.lt_of_le_of_lt (Nat.sub_le _ _) t.isLt)) := by
  obtain ⟨n, hn⟩ := t
  cases n with
  | zero => exact absurd rfl h
  | succ n => rfl

/-- The scratch operand: a whole scoped buffer of the kernel's own. -/
abbrev scM0 : Memref sig .tc .vmem S1x128 .f32 := Memref.whole cc0_scratch0

/-- The class's invariant with the scratch as a memref owned at some contents, the other scoped buffers as they come. -/
def restS0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA restS0; rw [scopedRest0_eq]; simp only [scM0, owns_whole]; try rfl

/-- The region invariant before position `n`: before the first point the class's; afterwards the scoped rest with the
    accumulator at what the point before left, and the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ restS0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ restS0 c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ restS0 c) ∗ (∃ r, prngReg c r)) := by
  cases n with
  | zero => exact absurd rfl hz
  | succ n => rfl

/-- The proof data of pipeline 0 on core `c`: the arrays as the region finds them; after the body at point `t` each input's
    buffer at its block and the output's at the accumulator row (consulted at the last point only: the window is idle
    elsewhere); the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = acc0 V c t.val t.isLt := by dsimp only [dat0]

/-- Each input's current staging buffer holds its block at every point, fetched there or not: the window is uncut and
    never idle, and the body leaves the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-- The invariant at a point's start, restated at the point's number. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' memrefs hold their blocks; the point's number says which of the three cases it is
    in. At the first point the invariant hands the accumulator at anything and takes it back at the point's row over
    zeros; at a later point it hands it at what the point before left and takes it back with the point's row added. The
    output block is handed back as found except at the last point, where it holds the accumulator row. The other scoped
    buffers, the generator register and what the core owes ride along untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1)]
    rw [PhiS0_castSucc V c t, PhiS0_zero V c _ _ h0, PhiA0_eq, acc0_zero V c t h0]
    iintro ⟨⟨⟨HS, HR⟩, Hg⟩, Ho, ⟨%d0, H0⟩, ⟨%d1, H1⟩, ⟨%d2, H2⟩, ⟨%d3, H3⟩⟩
    iapply (kernel0_A c (grid0.coords t) _ _ _ _ _ _ _ _ _ _ hc0 hc1 (iblk0 V c 0 t) (iblk0 V c 1 t) (iblk0 V c 2 t) ((dat0 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    iexists _; iexact H3
  · have hc0 : ¬cond0_0 (grid0.coords t) := fun h => h0 ((hcond0_0 t).mp h)
    rw [PhiS0_castSucc V c t, PhiS0_pos V c _ _ h0, acc0_pos V c t h0]
    by_cases h1 : t.val = 63
    · have hc1 : cond0_1 (grid0.coords t) := (hcond0_1 t).mpr h1
      rw [show (dat0 V c).leavesExact 3 t = owns (c : Thread nD τ) (st0_3 t) fullShare ((dat0 V c).after 3 t) from by
        unfold Dat.leavesExact; rw [liveAt0_3 t hc1], after0_3, acc0_pos V c t h0]
      iintro ⟨⟨⟨HS, HR⟩, Hg⟩, Ho, ⟨%d0, H0⟩, ⟨%d1, H1⟩, ⟨%d2, H2⟩, ⟨%d3, H3⟩⟩
      iapply (kernel0_C c (grid0.coords t) _ _ _ _ _ _ _ _ _ _ hc0 hc1 (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 3 t (idleAt0_3 t hc1) (noFlush0_3 t hc1)]
      iintro ⟨⟨⟨HS, HR⟩, Hg⟩, Ho, ⟨%d0, H0⟩, ⟨%d1, H1⟩, ⟨%d2, H2⟩, ⟨%d3, H3⟩⟩
      iapply (kernel0_B c (grid0.coords t) _ _ _ _ _ _ _ _ _ _ hc0 hc1 (iblk0 V c 0 t) (iblk0 V c 1 t) (iblk0 V c 2 t) ((dat0 V c).before 3 t d3) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  have hN : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hN, PhiA0_eq]
  iintro ⟨⟨HS, HR⟩, Hg⟩
  isplitl [HS HR]
  · isplitl [HS]
    · iexists _; iexact HS
    iexact HR
  iexact Hg

end Cert.KernelIdeal.Hand

end
-- ==== Proof.KI.Step1.lean ====
/- Region 1 (the weighted cross-entropy pass): the two conditions of its body decided over the grid (the first point resets
   the accumulator, the last point copies it to the output block), where the output window is idle, and the body's
   arithmetic as ONE pure function: what a point adds to lane 0 of the accumulator row, from the point's blocks of the
   three arrays and the row of ten per-bin weights. -/
import proofs.«128471_j21895743275016_1_alg».proof.Proof.Gen.KernelIdeal.Launch
import proofs.«128471_j21895743275016_1_alg».proof.Proof.Gen.KernelIdeal.Skeleton
import proofs.«128471_j21895743275016_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first `scf.if`: the point is the grid's first. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- The body's second `scf.if`: the point is the grid's last. -/
abbrev cond1_1 (i : grid1.Coords) : Prop := k1_cond2 i = 1#1
theorem hcond1_1 : ∀ t : Fin cfg1.N, cond1_1 (grid1.coords t) ↔ t.val = 63 :=
  (by decide +kernel : ∀ t : Fin grid1.N, cond1_1 (grid1.coords t) ↔ t.val = 63)

/-- The four input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The output window is idle, and not written back, at every point but the last; live at the last. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- The accumulator row as the first point resets it: all zeros. -/
def zero1 : Vec F S1x128 .f32 := k1_pay2 (F := F)

/-- The cell of the weight row holding bin `b`'s weight. -/
abbrev rw0 : Rect S1x128 := Rect.unit (s := S1x128) ![0, 0] S1x1.size inb_S1x128_S1x1_0_0
abbrev rw1 : Rect S1x128 := Rect.unit (s := S1x128) ![0, 1] S1x1.size inb_S1x128_S1x1_0_1
abbrev rw2 : Rect S1x128 := Rect.unit (s := S1x128) ![0, 2] S1x1.size inb_S1x128_S1x1_0_2
abbrev rw3 : Rect S1x128 := Rect.unit (s := S1x128) ![0, 3] S1x1.size inb_S1x128_S1x1_0_3
abbrev rw4 : Rect S1x128 := Rect.unit (s := S1x128) ![0, 4] S1x1.size inb_S1x128_S1x1_0_4
abbrev rw5 : Rect S1x128 := Rect.unit (s := S1x128) ![0, 5] S1x1.size inb_S1x128_S1x1_0_5
abbrev rw6 : Rect S1x128 := Rect.unit (s := S1x128) ![0, 6] S1x1.size inb_S1x128_S1x1_0_6
abbrev rw7 : Rect S1x128 := Rect.unit (s := S1x128) ![0, 7] S1x1.size inb_S1x128_S1x1_0_7
abbrev rw8 : Rect S1x128 := Rect.unit (s := S1x128) ![0, 8] S1x1.size inb_S1x128_S1x1_0_8
abbrev rw9 : Rect S1x128 := Rect.unit (s := S1x128) ![0, 9] S1x1.size inb_S1x128_S1x1_0_9

/-- What one point leaves in the accumulator row: the row `s` it found plus, in lane 0, the sum over the point's block of
    the cross-entropy term times the element's weight (its bin's weight read off the weight row `xw`, times validity). -/
def step1 (x0 x1 x2 : Vec F S4096x128 .f32) (xw : Vec F S1x128 .f32) (s : Vec F S1x128 .f32) : Vec F S1x128 .f32 :=
  k1_pay1 x0 x1 (k1_pay3 x2) (k1_pay4 x0 x1)
    (k1_pay6 (k1_pay4 x0 x1) (k1_pay5 x0 x1 (View.ld xw rw0) (View.ld xw rw1) (View.ld xw rw2))
      (View.ld xw rw3) (View.ld xw rw4) (View.ld xw rw5) (View.ld xw rw6) (View.ld xw rw7) (View.ld xw rw8))
    (k1_pay7 (View.ld xw rw9)) k1_pay8 s

end Cert.KernelIdeal.Hand

end
-- ==== Proof.KI.Body1.lean ====
/- Region 1 (the weighted cross-entropy pass): the kernel body's three runs, one per control case. On whole staging memrefs
   holding the point's three input blocks and the weight row the body hands the inputs back as they were and leaves the
   accumulator row at `step1` of them over what it found (over zeros at the first point, which resets it first); at the last
   point it also copies that row into the output block, which it leaves untouched at every other point. -/
import proofs.«128471_j21895743275016_1_alg».proof.Proof.KI.Step1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The first point: the accumulator at anything in, reset, then the point's term added. -/
theorem kernel1_A (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : cond1_0 i) (hc1 : ¬cond1_1 i)
    (x0 x1 x2 : Vec F S4096x128 .f32) (xw : Vec F S1x128 .f32) (xi : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xw ∗ owns (c : Thread nD τ) arg5 fullShare xi ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare xw ∗ owns (c : Thread nD τ) arg5 fullShare xi ∗ owns (c : Thread nD τ) arg6 fullShare (step1 x0 x1 x2 xw zero1)) -∗ K ⟨⟩))
      ⊢ wp frame (wpE (defs₀ (F := F)) Variants.none c none) E (cc1__bce_kernel i arg1 harg1 arg2 harg2 arg3 harg3 arg4 harg4 arg5 harg5 arg6 harg6) K := by
  have hz2 : (![0, 0] : Fin 2 → Nat) = fun _ => 0 := funext fun a => by fin_cases a <;> rfl
  simp only [cc1__bce_kernel_eq_skeleton]; unfold cc1__bce_kernel_skel
  simp only [k1_part1_eq_skeleton, k1_part2_eq_skeleton]
  unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr; swap; iexact HS
  ipureintro
  rw [View.read_writes_eq_canon _ _ _ (fun y => ⟨_, List.Mem.head _, View.mem_set_unit_zero (S := S1x128) hz2 inb_S1x128_S1x128_0_0 y⟩)]
  dsimp only; sl_unfold_words
  rw [View.canon_cons_unit_zero (S := S1x128) hz2]
  simp only [View.readAt_eq_ld, harg1.read_unread, harg2.read_unread, harg3.read_unread, harg4.read_unread,
    View.readCov_unit_zero (S := S1x128) _ hz2,
    View.ld_unit_zero (S := S4096x128) hz2, View.ld_unit_zero (S := S1x128) hz2]
  rfl

set_option maxHeartbeats 1000000 in
/-- A middle point: the point's term added to what the point before left. -/
theorem kernel1_B (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : ¬cond1_1 i)
    (x0 x1 x2 : Vec F S4096x128 .f32) (xw : Vec F S1x128 .f32) (xi : Vec F S1x128 .f32) (xs : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xw ∗ owns (c : Thread nD τ) arg5 fullShare xi ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare xw ∗ owns (c : Thread nD τ) arg5 fullShare xi ∗ owns (c : Thread nD τ) arg6 fullShare (step1 x0 x1 x2 xw xs)) -∗ K ⟨⟩))
      ⊢ wp frame (wpE (defs₀ (F := F)) Variants.none c none) E (cc1__bce_kernel i arg1 harg1 arg2 harg2 arg3 harg3 arg4 harg4 arg5 harg5 arg6 harg6) K := by
  have hz2 : (![0, 0] : Fin 2 → Nat) = fun _ => 0 := funext fun a => by fin_cases a <;> rfl
  simp only [cc1__bce_kernel_eq_skeleton]; unfold cc1__bce_kernel_skel
  simp only [k1_part1_eq_skeleton, k1_part2_eq_skeleton]
  unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr; swap; iexact HS
  ipureintro
  rw [View.read_writes_eq_canon _ _ _ (fun y => ⟨_, List.mem_singleton_self _, View.mem_set_unit_zero hz2 inb_S1x128_S1x128_0_0 y⟩)]
  dsimp only; sl_unfold_words
  rw [View.canon_unit_zero hz2]
  simp only [View.readAt_eq_ld, harg1.read_unread, harg2.read_unread, harg3.read_unread, harg4.read_unread, harg6.read_unread,
    View.ld_unit_zero (S := S4096x128) hz2, View.ld_unit_zero (S := S1x128) hz2]
  rfl

set_option maxHeartbeats 1000000 in
/-- The last point: the point's term added, and the accumulator copied into the output block. -/
theorem kernel1_C (c : Dev nD) (i : grid1.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x128 .f32) (harg6 : arg6.IsWhole) (hc0 : ¬cond1_0 i) (hc1 : cond1_1 i)
    (x0 x1 x2 : Vec F S4096x128 .f32) (xw : Vec F S1x128 .f32) (xs : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xw ∗ (∃ d, owns (c : Thread nD τ) arg5 fullShare d) ∗ owns (c : Thread nD τ) arg6 fullShare xs
        ∗ (iprop(owns (c : Thread nD τ) arg1 fullShare x0 ∗ owns (c : Thread nD τ) arg2 fullShare x1 ∗ owns (c : Thread nD τ) arg3 fullShare x2 ∗ owns (c : Thread nD τ) arg4 fullShare xw ∗ owns (c : Thread nD τ) arg5 fullShare (step1 x0 x1 x2 xw xs) ∗ owns (c : Thread nD τ) arg6 fullShare (step1 x0 x1 x2 xw xs)) -∗ K ⟨⟩))
      ⊢ wp frame (wpE (defs₀ (F := F)) Variants.none c none) E (cc1__bce_kernel i arg1 harg1 arg2 harg2 arg3 harg3 arg4 harg4 arg5 harg5 arg6 harg6) K := by
  have hz2 : (![0, 0] : Fin 2 → Nat) = fun _ => 0 := funext fun a => by fin_cases a <;> rfl
  simp only [cc1__bce_kernel_eq_skeleton]; unfold cc1__bce_kernel_skel
  simp only [k1_part1_eq_skeleton, k1_part2_eq_skeleton]
  unfold k1_part1_skel k1_part2_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg1.eq_unread hf0; obtain rfl := harg2.eq_unread hf1; obtain rfl := harg3.eq_unread hf2
  obtain rfl := harg4.eq_unread hf3; obtain rfl := harg6.eq_unread hfs
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; swap; iexact H4
    ipureintro
    sl_unfold_words
    rw [View.read_writes_eq_canon _ _ _ (fun y => ⟨_, List.mem_singleton_self _, View.mem_set_unit_zero (S := S1x128) hz2 inb_S1x128_S1x128_0_0 y⟩)]
    (try dsimp only)
    rw [View.canon_unit_zero hz2]
    simp only [View.readAt_eq_ld, harg1.read_unread, harg2.read_unread, harg3.read_unread, harg4.read_unread, harg6.read_unread,
      View.readCov_unit_zero (S := S1x128) _ hz2,
      View.ld_unit_zero (S := S4096x128) hz2, View.ld_unit_zero (S := S1x128) hz2]
    rfl
  iexists _; isplitr; swap; iexact HS
  ipureintro
  sl_unfold_words
  rw [View.read_writes_eq_canon _ _ _ (fun y => ⟨_, List.mem_singleton_self _, View.mem_set_unit_zero (S := S1x128) hz2 inb_S1x128_S1x128_0_0 y⟩)]
  (try dsimp only)
  rw [View.canon_unit_zero hz2]
  simp only [View.readAt_eq_ld, harg1.read_unread, harg2.read_unread, harg3.read_unread, harg4.read_unread, harg6.read_unread,
    View.ld_unit_zero (S := S4096x128) hz2, View.ld_unit_zero (S := S1x128) hz2]
  rfl

end Cert.KernelIdeal.Hand

end
-- ==== Proof.KI.Dat1.lean ====
/- Region 1 (the weighted cross-entropy pass) as a pipeline: the proof data over the contents `V` the region is entered with.
   After point `n` the accumulator row holds `acc1 n`: the terms of the points 0..n added up from zeros, each a function of the
   point's blocks of the three arrays and of the weight row (window 3, one block, fetched once). The output block is written only
   at the last point, with that row. The invariant carries the accumulator between points. -/
import proofs.«128471_j21895743275016_1_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator row after point `n`: the point's row added to what the point before left, from zeros. -/
def acc1 (c : Dev nD) : (n : ℕ) → n < cfg1.N → Vec F S1x128 .f32
  | 0, hn => step1 (iblk1 V c 0 ⟨0, hn⟩) (iblk1 V c 1 ⟨0, hn⟩) (iblk1 V c 2 ⟨0, hn⟩) (iblk1 V c 3 ⟨0, hn⟩) zero1
  | n + 1, hn => step1 (iblk1 V c 0 ⟨n + 1, hn⟩) (iblk1 V c 1 ⟨n + 1, hn⟩) (iblk1 V c 2 ⟨n + 1, hn⟩) (iblk1 V c 3 ⟨n + 1, hn⟩) (acc1 c n (Nat.lt_of_succ_lt hn))

theorem acc1_zero (c : Dev nD) (t : Fin cfg1.N) (h : t.val = 0) :
    acc1 V c t.val t.isLt = step1 (iblk1 V c 0 t) (iblk1 V c 1 t) (iblk1 V c 2 t) (iblk1 V c 3 t) zero1 := by
  obtain ⟨n, hn⟩ := t
  cases n with
  | zero => rfl
  | succ n => exact absurd h (Nat.succ_ne_zero n)

theorem acc1_pos (c : Dev nD) (t : Fin cfg1.N) (h : t.val ≠ 0) :
    acc1 V c t.val t.isLt = step1 (iblk1 V c 0 t) (iblk1 V c 1 t) (iblk1 V c 2 t) (iblk1 V c 3 t)
      (acc1 V c (t.val - 1) (Nat.lt_of_le_of_lt (Nat.sub_le _ _) t.isLt)) := by
  obtain ⟨n, hn⟩ := t
  cases n with
  | zero => exact absurd rfl h
  | succ n => rfl

/-- The scratch operand: a whole scoped buffer of the kernel's own. -/
abbrev scM1 : Memref sig .tc .vmem S1x128 .f32 := Memref.whole cc1_scratch0

/-- The class's invariant with the scratch as a memref owned at some contents, the other scoped buffers as they come. -/
def restS1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_scratch0), ((c : Thread nD τ).loc cc0_scratch0) ↦{fullShare} f))

theorem PhiA1_eq (c : Dev nD) :
    (Pipeline.ΦA spec1 c : sProp 𝕄)
      = iprop(iprop(restS1 c ∗ (∃ d, owns (c : Thread nD τ) scM1 fullShare d)) ∗ (∃ r, prngReg c r)) := by
  have assoc : ∀ P Q R' : sProp 𝕄, iprop((P ∗ Q) ∗ R') = iprop(P ∗ Q ∗ R') :=
    fun _ _ _ => Idealize.SL.BI.Entails.antisymm Idealize.SL.BI.sep_assoc Idealize.SL.BI.sep_assoc'
  unfold Pipeline.ΦA restS1; rw [scopedRest1_eq]; simp only [scM1, owns_whole]
  simp only [assoc]
  rfl

/-- The region invariant before position `n`: before the first point the class's; afterwards the scoped rest with the
    accumulator at what the point before left, and the generator register at some state. -/
def PhiS1 (c : Dev nD) : (n : ℕ) → n ≤ cfg1.N → sProp 𝕄
  | 0, _ => Pipeline.ΦA spec1 c
  | n + 1, hn => iprop(iprop(restS1 c ∗ owns (c : Thread nD τ) scM1 fullShare (acc1 V c n hn)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(restS1 c ∗ owns (c : Thread nD τ) scM1 fullShare (acc1 V c n hn)) ∗ (∃ r, prngReg c r)) := rfl

theorem PhiS1_pos (c : Dev nD) (n : ℕ) (h : n ≤ cfg1.N) (hz : n ≠ 0) :
    PhiS1 V c n h = iprop(iprop(restS1 c ∗ owns (c : Thread nD τ) scM1 fullShare (acc1 V c (n - 1) (by omega))) ∗ (∃ r, prngReg c r)) := by
  cases n with
  | zero => exact absurd rfl hz
  | succ n => rfl

/-- The proof data of pipeline 1 on core `c`: the arrays as the region finds them; after the body at point `t` each input's
    buffer at its block (the weight row's at the whole row) and the output's at the accumulator row (consulted at the last point only: the window is idle
    elsewhere); the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]

/-- Each input's current staging buffer holds its block at every point, fetched there or not: the window is uncut and
    never idle, and the body leaves the block in place. The weight row's window has one block, at a constant index: fetched
    at the first point, it is still there at every later one. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- The invariant at a point's start, restated at the point's number. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point. The inputs' memrefs hold their blocks, the weight row's its one block; the point's number says
    which of the three cases it is in. At the first point the invariant hands the accumulator at anything and takes it back
    at the point's term over zeros; at a later point it hands it at what the point before left and takes it back with the
    point's term added. The output block is handed back as found except at the last point, where it holds the accumulator
    row. The other scoped buffers, the generator register and what the core owes ride along untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [PhiS1_castSucc V c t, PhiS1_zero V c _ _ h0, PhiA1_eq, acc1_zero V c t h0]
    iintro ⟨⟨⟨HR, HS⟩, Hg⟩, Ho, ⟨%d0, H0⟩, ⟨%d1, H1⟩, ⟨%d2, H2⟩, ⟨%d3, H3⟩, ⟨%d4, H4⟩⟩
    iapply (kernel1_A c (grid1.coords t) _ _ _ _ _ _ _ _ _ _ _ _ hc0 hc1 (iblk1 V c 0 t) (iblk1 V c 1 t) (iblk1 V c 2 t) (iblk1 V c 3 t) ((dat1 V c).before 4 t d4) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS HR Hg]
    · isplitl [HS HR]
      · isplitl [HR]; · iexact HR
        iexact HS
      iexact Hg
    isplitl [Ho]; · iexact Ho
    isplitl [H0]; · iexact H0
    isplitl [H1]; · iexact H1
    isplitl [H2]; · iexact H2
    isplitl [H3]; · iexact H3
    iexists _; iexact H4
  · have hc0 : ¬cond1_0 (grid1.coords t) := fun h => h0 ((hcond1_0 t).mp h)
    rw [PhiS1_castSucc V c t, PhiS1_pos V c _ _ h0, acc1_pos V c t h0]
    by_cases h1 : t.val = 63
    · have hc1 : cond1_1 (grid1.coords t) := (hcond1_1 t).mpr h1
      rw [show (dat1 V c).leavesExact 4 t = owns (c : Thread nD τ) (st1_4 t) fullShare ((dat1 V c).after 4 t) from by
        unfold Dat.leavesExact; rw [liveAt1_4 t hc1], after1_4, acc1_pos V c t h0]
      iintro ⟨⟨⟨HR, HS⟩, Hg⟩, Ho, ⟨%d0, H0⟩, ⟨%d1, H1⟩, ⟨%d2, H2⟩, ⟨%d3, H3⟩, ⟨%d4, H4⟩⟩
      iapply (kernel1_C c (grid1.coords t) _ _ _ _ _ _ _ _ _ _ _ _ hc0 hc1 (iblk1 V c 0 t) (iblk1 V c 1 t) (iblk1 V c 2 t) (iblk1 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      iintro ⟨⟨⟨HR, HS⟩, Hg⟩, Ho, ⟨%d0, H0⟩, ⟨%d1, H1⟩, ⟨%d2, H2⟩, ⟨%d3, H3⟩, ⟨%d4, H4⟩⟩
      iapply (kernel1_B c (grid1.coords t) _ _ _ _ _ _ _ _ _ _ _ _ hc0 hc1 (iblk1 V c 0 t) (iblk1 V c 1 t) (iblk1 V c 2 t) (iblk1 V c 3 t) ((dat1 V c).before 4 t d4) _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HR]; · iexact HR
          iexact HS
        iexact Hg
      isplitl [Ho]; · iexact Ho
      isplitl [H0]; · iexact H0
      isplitl [H1]; · iexact H1
      isplitl [H2]; · iexact H2
      isplitl [H3]; · iexact H3
      iexists _; iexact H4

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  have hN : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro ⟨⟨HR, HS⟩, Hg⟩
  isplitl [HS HR]
  · isplitl [HR]
    · iexact HR
    iexists _; iexact HS
  iexact Hg

end Cert.KernelIdeal.Hand

end
-- ==== Proof.KI.Run.lean ====
/- The whole program as a run: the contents of the core's unscoped buffers at every boundary between @main's items — the launch
   memory, what region 0 leaves (its output array at the last point's write-back), each host stretch applied, what region 1
   leaves, the last stretch applied — and the launch: every weakly fair execution of @main terminates with those buffers at the
   last boundary's contents. The frame claim (the argument arrays end as launched) is read off it. -/
import proofs.«128471_j21895743275016_1_alg».proof.Proof.KI.Dat0
import proofs.«128471_j21895743275016_1_alg».proof.Proof.KI.Dat1
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry: no host operation comes before it). -/
abbrev W0 : Dev nD → Valuation τ sig (Elt F) := fun c b => m (c, b)
/-- The same read at the TensorCore's references (what region 0's proof data take). -/
abbrev V0 : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (V0 m) c).arrAt w cfg0.N
abbrev V1 : (c : Dev nD) → (b : Ref sig .tc) → Buf (Elt F) ((c : Thread nD τ).loc b) := fun c b => W1 m c b
/-- After each of the five host stretches between the regions. -/
abbrev W2 : Dev nD → Valuation τ sig (Elt F) := fun c => StableHlo.after hostOps1 (W1 m c)
abbrev W3 : Dev nD → Valuation τ sig (Elt F) := fun c => StableHlo.after hostOps1_1 (W2 m c)
abbrev W4 : Dev nD → Valuation τ sig (Elt F) := fun c => StableHlo.after hostOps1_2 (W3 m c)
abbrev W5 : Dev nD → Valuation τ sig (Elt F) := fun c => StableHlo.after hostOps1_3 (W4 m c)
abbrev W6 : Dev nD → Valuation τ sig (Elt F) := fun c => StableHlo.after hostOps1_4 (W5 m c)
/-- Region 1's entry contents at the TensorCore's references. -/
abbrev V6 : (c : Dev nD) → (b : Ref sig .tc) → Buf (Elt F) ((c : Thread nD τ).loc b) := fun c b => W6 m c b
/-- At region 1's exit. -/
def W7 (c : Dev nD) : Valuation τ sig (Elt F) :=
  Pipeline.withArrays spec1 c (W6 m c) fun w => (dat1 (V6 m) c).arrAt w cfg1.N
abbrev V7 : (c : Dev nD) → (b : Ref sig .tc) → Buf (Elt F) ((c : Thread nD τ).loc b) := fun c b => W7 m c b
/-- After the last host stretch: the contents the program ends with. -/
abbrev W8 : Dev nD → Valuation τ sig (Elt F) := fun c => StableHlo.after hostOps2 (W7 m c)

theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W7_arr (c : Dev nD) (w : Fin cfg1.W) :
    W7 m c (Proc.devRef .tc (Pipeline.arrRef spec1 w)) = (dat1 (V6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb

/-! ## The host stretches: none allocates a buffer; the references each writes; what each leaves unchanged -/

theorem ops1_fresh : (hostOps1 : List (HloOp τ sig (Elt F))).Forall fun op => op.fresh = ∅ := by
  simp only [List.Forall]; repeat' constructor
/-- The references `hostOps1`'s operations write. -/
abbrev ops1_W : List (Ref sig .tc) := [main_v1, main_v2, main_v3, main_v4, main_cst, main_v5, main_cst_0, main_v6, main_v7, main_v8, main_cst_1, main_v9, main_cst_2, main_v10, main_v11, main_cst_3, main_v12, main_v13, main_v14, main_v15, main_cst_4]
theorem ops1_writes : (hostOps1 : List (HloOp τ sig (Elt F))).Forall fun op => op.writes ⊆ (ops1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
theorem W2_of (c : Dev nD) (r : Ref sig .tc) (h : r ∉ ops1_W) : W2 m c (Proc.devRef .tc r) = W1 m c (Proc.devRef .tc r) :=
  StableHlo.after_of_writes_sub hostOps1 _ ops1_writes h

theorem ops1_1_fresh : (hostOps1_1 : List (HloOp τ sig (Elt F))).Forall fun op => op.fresh = ∅ := by
  simp only [List.Forall]; repeat' constructor
/-- The references `hostOps1_1`'s operations write. -/
abbrev ops1_1_W : List (Ref sig .tc) := [main_call0_v0, main_call0_v1, main_v16]
theorem ops1_1_writes : (hostOps1_1 : List (HloOp τ sig (Elt F))).Forall fun op => op.writes ⊆ (ops1_1_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
theorem W3_of (c : Dev nD) (r : Ref sig .tc) (h : r ∉ ops1_1_W) : W3 m c (Proc.devRef .tc r) = W2 m c (Proc.devRef .tc r) :=
  StableHlo.after_of_writes_sub hostOps1_1 _ ops1_1_writes h

theorem ops1_2_fresh : (hostOps1_2 : List (HloOp τ sig (Elt F))).Forall fun op => op.fresh = ∅ := by
  simp only [List.Forall]; repeat' constructor
/-- The references `hostOps1_2`'s operations write. -/
abbrev ops1_2_W : List (Ref sig .tc) := [main_cst_5, main_v17, main_cst_6, main_v18, main_v19, main_v20]
theorem ops1_2_writes : (hostOps1_2 : List (HloOp τ sig (Elt F))).Forall fun op => op.writes ⊆ (ops1_2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
theorem W4_of (c : Dev nD) (r : Ref sig .tc) (h : r ∉ ops1_2_W) : W4 m c (Proc.devRef .tc r) = W3 m c (Proc.devRef .tc r) :=
  StableHlo.after_of_writes_sub hostOps1_2 _ ops1_2_writes h

theorem ops1_3_fresh : (hostOps1_3 : List (HloOp τ sig (Elt F))).Forall fun op => op.fresh = ∅ := by
  simp only [List.Forall]; repeat' constructor
/-- The references `hostOps1_3`'s operations write. -/
abbrev ops1_3_W : List (Ref sig .tc) := [main_v21]
theorem ops1_3_writes : (hostOps1_3 : List (HloOp τ sig (Elt F))).Forall fun op => op.writes ⊆ (ops1_3_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
theorem W5_of (c : Dev nD) (r : Ref sig .tc) (h : r ∉ ops1_3_W) : W5 m c (Proc.devRef .tc r) = W4 m c (Proc.devRef .tc r) :=
  StableHlo.after_of_writes_sub hostOps1_3 _ ops1_3_writes h

theorem ops1_4_fresh : (hostOps1_4 : List (HloOp τ sig (Elt F))).Forall fun op => op.fresh = ∅ := by
  simp only [List.Forall]; repeat' constructor
/-- The references `hostOps1_4`'s operations write. -/
abbrev ops1_4_W : List (Ref sig .tc) := [main_cst_7, main_v22, main_c, main_v23, main_c_8, main_v24, main_v25, main_v26]
theorem ops1_4_writes : (hostOps1_4 : List (HloOp τ sig (Elt F))).Forall fun op => op.writes ⊆ (ops1_4_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
theorem W6_of (c : Dev nD) (r : Ref sig .tc) (h : r ∉ ops1_4_W) : W6 m c (Proc.devRef .tc r) = W5 m c (Proc.devRef .tc r) :=
  StableHlo.after_of_writes_sub hostOps1_4 _ ops1_4_writes h

theorem ops2_fresh : (hostOps2 : List (HloOp τ sig (Elt F))).Forall fun op => op.fresh = ∅ := by
  simp only [List.Forall]; repeat' constructor
/-- The references `hostOps2`'s operations write. -/
abbrev ops2_W : List (Ref sig .tc) := [main_v28, main_v29, main_v30, main_cst_9, main_v31]
theorem ops2_writes : (hostOps2 : List (HloOp τ sig (Elt F))).Forall fun op => op.writes ⊆ (ops2_W.map (Proc.devRef (τ := τ) .tc)).toFinset := by
  simp only [List.Forall]
  repeat' apply And.intro
  all_goals
    simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
    exact List.mem_map_of_mem (by decide)
theorem W8_of (c : Dev nD) (r : Ref sig .tc) (h : r ∉ ops2_W) : W8 m c (Proc.devRef .tc r) = W7 m c (Proc.devRef .tc r) :=
  StableHlo.after_of_writes_sub hostOps2 _ ops2_writes h

/-- Each argument array reaches the end as launched: no host stretch writes it, and a region leaves its input arrays as found. -/
theorem W8_main_arg0 (c : Dev nD) : W8 m c (Proc.devRef .tc main_arg0) = m ((c : Thread nD τ).loc main_arg0) :=
  calc W8 m c (Proc.devRef .tc main_arg0)
    _ = W7 m c (Proc.devRef .tc main_arg0) := W8_of m c main_arg0 (by decide)
    _ = W6 m c (Proc.devRef .tc main_arg0) :=
          (W7_arr m c 0).trans (((dat1 (V6 m) c).arrAt_in 0 rfl _).trans (A_eq1 (V6 m) c 0))
    _ = W5 m c (Proc.devRef .tc main_arg0) := W6_of m c main_arg0 (by decide)
    _ = W4 m c (Proc.devRef .tc main_arg0) := W5_of m c main_arg0 (by decide)
    _ = W3 m c (Proc.devRef .tc main_arg0) := W4_of m c main_arg0 (by decide)
    _ = W2 m c (Proc.devRef .tc main_arg0) := W3_of m c main_arg0 (by decide)
    _ = W1 m c (Proc.devRef .tc main_arg0) := W2_of m c main_arg0 (by decide)
    _ = W0 m c (Proc.devRef .tc main_arg0) :=
          (W1_arr m c 0).trans (((dat0 (V0 m) c).arrAt_in 0 rfl _).trans (A_eq0 (V0 m) c 0))
    _ = m ((c : Thread nD τ).loc main_arg0) := rfl
theorem W8_main_arg1 (c : Dev nD) : W8 m c (Proc.devRef .tc main_arg1) = m ((c : Thread nD τ).loc main_arg1) :=
  calc W8 m c (Proc.devRef .tc main_arg1)
    _ = W7 m c (Proc.devRef .tc main_arg1) := W8_of m c main_arg1 (by decide)
    _ = W6 m c (Proc.devRef .tc main_arg1) :=
          (W7_arr m c 1).trans (((dat1 (V6 m) c).arrAt_in 1 rfl _).trans (A_eq1 (V6 m) c 1))
    _ = W5 m c (Proc.devRef .tc main_arg1) := W6_of m c main_arg1 (by decide)
    _ = W4 m c (Proc.devRef .tc main_arg1) := W5_of m c main_arg1 (by decide)
    _ = W3 m c (Proc.devRef .tc main_arg1) := W4_of m c main_arg1 (by decide)
    _ = W2 m c (Proc.devRef .tc main_arg1) := W3_of m c main_arg1 (by decide)
    _ = W1 m c (Proc.devRef .tc main_arg1) := W2_of m c main_arg1 (by decide)
    _ = W0 m c (Proc.devRef .tc main_arg1) :=
          (W1_arr m c 1).trans (((dat0 (V0 m) c).arrAt_in 1 rfl _).trans (A_eq0 (V0 m) c 1))
    _ = m ((c : Thread nD τ).loc main_arg1) := rfl
theorem W8_main_arg2 (c : Dev nD) : W8 m c (Proc.devRef .tc main_arg2) = m ((c : Thread nD τ).loc main_arg2) :=
  calc W8 m c (Proc.devRef .tc main_arg2)
    _ = W7 m c (Proc.devRef .tc main_arg2) := W8_of m c main_arg2 (by decide)
    _ = W6 m c (Proc.devRef .tc main_arg2) :=
          (W7_arr m c 2).trans (((dat1 (V6 m) c).arrAt_in 2 rfl _).trans (A_eq1 (V6 m) c 2))
    _ = W5 m c (Proc.devRef .tc main_arg2) := W6_of m c main_arg2 (by decide)
    _ = W4 m c (Proc.devRef .tc main_arg2) := W5_of m c main_arg2 (by decide)
    _ = W3 m c (Proc.devRef .tc main_arg2) := W4_of m c main_arg2 (by decide)
    _ = W2 m c (Proc.devRef .tc main_arg2) := W3_of m c main_arg2 (by decide)
    _ = W1 m c (Proc.devRef .tc main_arg2) := W2_of m c main_arg2 (by decide)
    _ = W0 m c (Proc.devRef .tc main_arg2) :=
          (W1_arr m c 2).trans (((dat0 (V0 m) c).arrAt_in 2 rfl _).trans (A_eq0 (V0 m) c 2))
    _ = m ((c : Thread nD τ).loc main_arg2) := rfl

/-! ## The launch -/

/-- At a region's exit each of its arrays holds what the pipeline leaves and every other buffer what it held at entry. -/
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
theorem hF1 (c : Dev nD) (w : Fin cfg1.W) : (dat1 (V6 m) c).arrAt w cfg1.N = V7 m c (Pipeline.arrRef spec1 w) :=
  (W7_arr m c w).symm
theorem hrest1 (c : Dev nD) : ∀ b, b ∉ Finset.univ.image (Pipeline.arrRef spec1) → V7 m c b = V6 m c b :=
  fun b hb => W7_of_ne m c b fun w e => hb (Finset.mem_image.mpr ⟨w, Finset.mem_univ _, e⟩)

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes, nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves those references
    at the stretch applied to `W c`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without what the core owes: every unscoped buffer at the last boundary's contents, the generator
    register at some state. -/
abbrev Tₙ (c : Dev nD) : sProp 𝕄 := iprop(StableHlo.held (c : Thread nD τ) (Pipeline.ucRefs τ sig) (W8 m c) ∗ ∃ r, prngReg c r)

/-- What the last host stretch leaves is the last thread state beside the core owing nothing. -/
theorem last_state (c : Dev nD) :
    iprop(StableHlo.held (c : Thread nD τ) (Pipeline.ucRefs τ sig) (W8 m c) ∗ R c)
      ⊢ (iprop(Tₙ m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ### The regions as segments -/

set_option backward.isDefEq.respectTransparency.types false in
/-- Region 0 over the thread state: entered from every unscoped buffer at `W0`, left at `W1`. Its arrays are split
    out of the unscoped buffers and put back at the exit contents; the generator register goes into the class's invariant and
    comes back out of it; the invariant before the first point is made from the class's and after the last point gives the
    class's back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V0 m) c).Φ 0 from rfl]
    refine BIBase.Entails.trans ?_ (hin0 (V0 m) c)
    unfold Pipeline.ΦA
    iintro ⟨Hp, -, Hr⟩
    isplitl [Hr]; · iexact Hr
    iexact Hp
  hout c := by
    rw [Pipeline.ownSems0_none, show (pdats m 0 c).Φ (Fin.last _) = (dat0 (V0 m) c).Φ (Fin.last cfg0.N) from rfl]
    refine BIBase.Entails.trans (hout0 (V0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W6`, left at `W7`. Its arrays are split
    out of the unscoped buffers and put back at the exit contents; the generator register goes into the class's invariant and
    comes back out of it; the invariant before the first point is made from the class's and after the last point gives the
    class's back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (V6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V6 m) c).Φ 0 from rfl]
    refine BIBase.Entails.trans ?_ (hin1 (V6 m) c)
    unfold Pipeline.ΦA
    iintro ⟨Hp, -, Hr⟩
    isplitl [Hr]; · iexact Hr
    iexact Hp
  hout c := by
    rw [Pipeline.ownSems0_none, show (pdats m 1 c).Φ (Fin.last _) = (dat1 (V6 m) c).Φ (Fin.last cfg1.N) from rfl]
    refine BIBase.Entails.trans (hout1 (V6 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V6 m c) (V7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ### @main as segments, and the launch -/

/-- @main's eight segments in order: region 0, the five host stretches between the regions each from its boundary's contents,
    region 1, the last host stretch. -/
abbrev segs : List (Pipeline.Seg (pcfgs (F := F)) adm (pdats m) () defs₀ 𝒱₀ L lv) :=
  [ .region (reg0 m),
    .host (hseg hostOps1 hostOps1_sub ops1_fresh (W1 m)),
    .host (hseg hostOps1_1 hostOps1_1_sub ops1_1_fresh (W2 m)),
    .host (hseg hostOps1_2 hostOps1_2_sub ops1_2_fresh (W3 m)),
    .host (hseg hostOps1_3 hostOps1_3_sub ops1_3_fresh (W4 m)),
    .host (hseg hostOps1_4 hostOps1_4_sub ops1_4_fresh (W5 m)),
    .region (reg1 m),
    .host (hseg hostOps2 hostOps2_sub ops2_fresh (W7 m)) ]
/-- @main is the run of the segments: it is the chain of its items, which is the segments' run. -/
theorem main_run (c : Dev nD) : main (F := F) c = Pipeline.Seg.run (segs m) := (main_chain c).trans (by chain_rfl)

set_option backward.isDefEq.respectTransparency.types false in
/-- Every weakly fair execution of @main from memory `m` with zero counters terminates, nothing faulting, and every final state
    holds every unscoped buffer of core `c` at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl,
      fun c => last_state m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c)⟩) (run_all m ρ)

end Cert.KernelIdeal.Hand

end
-- ==== Proof.Spec.lean ====
/- The mathematics both programs compute, at the ideal instance, element by element over the index set of a
   262144 × 128 array. An element has a logit `p`, a target `t` and a label weight `l` (extended reals).
   * `vf l` is 1 where `l > 0` and 0 elsewhere (the element is valid);
   * `bin p t` is the histogram bin of the gradient magnitude `g = |logistic p − t|`: `g · 10` truncated to a 32-bit
     integer (clamped into range, so never negative for `g ≥ 0`), capped at 9;
   * `bce p t` is the stable binary cross-entropy term `max p 0 − p · t + log1p (exp (0 − |p|))`.
   Over the arrays: `CNT b` counts the valid elements of bin `b`, `TOTRAW` the valid elements, `TOT = max TOTRAW 1`. -/
import Idealize.ShloMosaic.PureOps.Ideal
import Idealize.ShloMosaic.Lib.ValueIdx

noncomputable section

namespace Cert.Spec

open Idealize.ShloMosaic

/-- The index set of the three argument arrays. -/
abbrev SA : Shape := ⟨2, ![262144, 128]⟩

/-- A one-bit flag as the float 0 or 1, the way both programs widen it. -/
def flagf (b : BitVec 1) : Ideal .f32 := FloatOps.sitofp (F := Ideal) .f32 (b.setWidth 32)

/-- 1 where the label weight is positive, 0 elsewhere. -/
def vf (l : Ideal .f32) : Ideal .f32 := flagf (FloatOps.cmpf (F := Ideal) .ogt l (Scalar.ofBits (F := Ideal) .f32 0x00000000#32))

/-- The histogram bin of an element. -/
def bin (p t : Ideal .f32) : BitVec 32 :=
  IntOp.minsi (FloatOps.fptosi (F := Ideal) 32 (FloatOps.mulf (FloatOps.absf (FloatOps.subf (FloatOps.logistic p) t)) (Scalar.ofBits (F := Ideal) .f32 0x41200000#32))) 9#32

/-- 1 where the element's bin is `b`, 0 elsewhere. -/
def maskf (b x : BitVec 32) : Ideal .f32 := flagf (IntOp.cmpi .eq x b)

/-- The cross-entropy term of an element. -/
def bce (p t : Ideal .f32) : Ideal .f32 :=
  FloatOps.addf (FloatOps.subf (FloatOps.maximumf p (Scalar.ofBits (F := Ideal) .f32 0x00000000#32)) (FloatOps.mulf p t))
    (FloatOps.log1p (FloatOps.exp (FloatOps.subf (Scalar.ofBits (F := Ideal) .f32 0x00000000#32) (FloatOps.absf p))))

variable (P T L : SA.Idx → Ideal .f32)

/-- The number of valid elements in bin `b`. -/
def CNT (b : BitVec 32) : EReal := ∑ i : SA.Idx, (maskf b (bin (P i) (T i)) : EReal) * (vf (L i) : EReal)

/-- The number of valid elements. -/
def TOTRAW : EReal := ∑ i : SA.Idx, (vf (L i) : EReal)

/-- The shape of the two accumulator rows. -/
abbrev SR : Shape := ⟨2, ![1, 128]⟩

open Idealize.ShloMosaic.ValueIdx in
/-- The histogram row the first pass ends with: lane `b < 10` counts bin `b`, lane 10 counts the valid elements, the other
    lanes are zero. -/
def histRow : SR.Idx → EReal := fun j =>
  if (j 1).val < 10 then CNT P T L (BitVec.ofNat 32 (j 1).val)
  else if (j 1).val = 10 then TOTRAW L else 0

open Idealize.ShloMosaic.ValueIdx in
/-- An element's weight read off a weight row `w` by its bin `x`: the ten-way cascade "if `x = 9` then lane 9, else if
    `x = 8` then lane 8, …, else if `x = 0` then lane 0, else zero". -/
def wsel (w : SR.Idx → Ideal .f32) (x : BitVec 32) : Ideal .f32 :=
  Scalar.select (IntOp.cmpi .eq x 9#32) (w (ix2 0 9))
  (Scalar.select (IntOp.cmpi .eq x 8#32) (w (ix2 0 8))
  (Scalar.select (IntOp.cmpi .eq x 7#32) (w (ix2 0 7))
  (Scalar.select (IntOp.cmpi .eq x 6#32) (w (ix2 0 6))
  (Scalar.select (IntOp.cmpi .eq x 5#32) (w (ix2 0 5))
  (Scalar.select (IntOp.cmpi .eq x 4#32) (w (ix2 0 4))
  (Scalar.select (IntOp.cmpi .eq x 3#32) (w (ix2 0 3))
  (Scalar.select (IntOp.cmpi .eq x 2#32) (w (ix2 0 2))
  (Scalar.select (IntOp.cmpi .eq x 1#32) (w (ix2 0 1))
  (Scalar.select (IntOp.cmpi .eq x 0#32) (w (ix2 0 0))
    (Scalar.ofBits (F := Ideal) .f32 0x00000000#32))))))))))

/-- The weighted loss sum the second pass ends with in lane 0, over a weight row `w`: every element's cross-entropy term times
    its weight (its bin's lane of `w`, times its validity). -/
def KLOSS (w : SR.Idx → Ideal .f32) : EReal :=
  ∑ i : SA.Idx, (bce (P i) (T i) : EReal) * ((wsel w (bin (P i) (T i)) : EReal) * (vf (L i) : EReal))

end Cert.Spec

end
-- ==== Proof.SpecK.lean ====
/- The kernel program's result as mathematics: from the histogram row `h` (lanes 0..9 the per-bin valid counts, lane 10 the valid
   total) the host computes `TOT = max total 1`, the number of non-empty bins (as a float sum of flags), the per-bin weight
   `TOT / max count 1` (zero for an empty bin), that weight divided by the number of non-empty bins when there is one, and lays
   the ten normalised weights out in lanes 0..9 of a zero row; the result is the weighted loss sum over that row, divided by `TOT`. -/
import proofs.«128471_j21895743275016_1_alg».proof.Proof.Spec

noncomputable section

namespace Cert.Spec

open Idealize.ShloMosaic Idealize.ShloMosaic.ValueIdx
open scoped BigOperators

def zeroI : Ideal .f32 := FloatOps.ofBits (F := Ideal) .f32 0x00000000#32
def oneI : Ideal .f32 := FloatOps.ofBits (F := Ideal) .f32 0x3F800000#32

variable (h : SR.Idx → Ideal .f32)

/-- Lane `b` of the row: bin `b`'s count. -/
def cntOf (b : Fin 10) : Ideal .f32 := h (ix2 0 (Fin.castLE (by decide) b))
def totOf : Ideal .f32 := FloatOps.maximumf (h (ix2 0 10)) oneI
/-- The number of non-empty bins, as the host's float sum of ten flags from zero. -/
def nneOf : Ideal .f32 := zeroI + ∑ b : Fin 10, FloatOps.uitofp (F := Ideal) .f32 (FloatOps.cmpf (F := Ideal) .ogt (cntOf h b) zeroI)
def pbwOf (b : Fin 10) : Ideal .f32 :=
  Scalar.select (FloatOps.cmpf (F := Ideal) .ogt (cntOf h b) zeroI) (FloatOps.hostDivf (totOf h) (FloatOps.maximumf (cntOf h b) oneI)) zeroI
def normOf (b : Fin 10) : Ideal .f32 :=
  Scalar.select (FloatOps.cmpf (F := Ideal) .ogt (nneOf h) zeroI) (FloatOps.hostDivf (pbwOf h b) (FloatOps.maximumf (nneOf h) oneI)) (pbwOf h b)
/-- The weight row: the ten normalised weights in lanes 0..9, zero elsewhere. -/
def wrowOf : SR.Idx → Ideal .f32 := fun j => if hj : (j 1).val < 10 then normOf h ⟨(j 1).val, hj⟩ else zeroI

variable (P T L : SA.Idx → Ideal .f32)

/-- The kernel program's result. -/
def KRES : Ideal .f32 :=
  FloatOps.mulf (FloatOps.hostDivf (KLOSS P T L (wrowOf (histRow P T L))) (totOf (histRow P T L))) oneI

end Cert.Spec

end
-- ==== Proof.KI.HostVal.lean ====
/- The host operations of the kernel program read at the ideal instance: between the regions they turn the histogram row region 0
   left into `TOT` and the weight row region 1 is entered with; after region 1 they divide lane 0 of its row by `TOT`. No stretch
   writes an argument array. -/
import proofs.«128471_j21895743275016_1_alg».proof.Proof.KI.Run
import proofs.«128471_j21895743275016_1_alg».proof.Proof.SpecK
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Spec
open scoped BigOperators

variable (m : (ℓ : Loc nD τ sig) → Buf (Elt Ideal) ℓ)

/-- The histogram row as region 0 left it. -/
abbrev histAt (c : Dev nD) : SR.Idx → Ideal .f32 := (W1 m c (Proc.devRef .tc main_v0) : S1x128.Idx → Ideal .f32)

/-! ## Reading a set-scatter at an index -/

section ScatterRead

/-- A fold that sets position `g n` to `v n` for each `n` of a list leaves a position no `g n` names as it was. -/
theorem foldl_set_miss {ι β γ : Type} [DecidableEq β] (g : ι → β) (v : ι → γ) (i : β) :
    ∀ (l : List ι) (r : β → γ), (∀ n ∈ l, g n ≠ i) →
      l.foldl (fun r n => fun i' => if i' = g n then v n else r i') r i = r i
  | [], r, _ => rfl
  | a :: l, r, h => by
    rw [List.foldl_cons, foldl_set_miss g v i l _ (fun n hn => h n (List.mem_cons_of_mem _ hn))]
    exact if_neg (fun e => h a List.mem_cons_self e.symm)

/-- With `g` injective and the list free of repeats, position `g n` ends at `v n`. -/
theorem foldl_set_hit {ι β γ : Type} [DecidableEq β] (g : ι → β) (hg : Function.Injective g) (v : ι → γ) (n : ι) :
    ∀ (l : List ι) (r : β → γ), l.Nodup → n ∈ l →
      l.foldl (fun r n => fun i' => if i' = g n then v n else r i') r (g n) = v n
  | [], r, _, h => absurd h List.not_mem_nil
  | a :: l, r, hd, h => by
    rw [List.foldl_cons]
    by_cases e : a = n
    · subst e
      rw [foldl_set_miss g v (g a) l _ (fun n' hn' e' => (List.nodup_cons.mp hd).1 (hg e' ▸ hn'))]
      exact if_pos rfl
    · exact foldl_set_hit g hg v n l _ (List.nodup_cons.mp hd).2 ((List.mem_cons.mp h).resolve_left (fun e' => e e'.symm))

variable {α : Type} {s si u : Shape} {w : Nat}

/-- The scatter's fold when every update index `j` lands inside the operand, at `g j`. -/
theorem scatter_set_eq_foldl (d : ScatterDims s si u) (x : s.Idx → α) (idx : IVec si w) (upd : u.Idx → α)
    (g : u.Idx → s.Idx) (hres : ∀ j, d.resultIdx? j idx = some (g j)) :
    Host.scatter d (fun _ b => b) x idx upd
      = (List.finRange u.numel).foldl (fun r n => fun i' => if i' = g (u.rowMajor.symm n) then upd (u.rowMajor.symm n) else r i') x := by
  unfold Host.scatter
  congr 1
  funext r n
  rw [hres]

theorem scatter_set_hit (d : ScatterDims s si u) (x : s.Idx → α) (idx : IVec si w) (upd : u.Idx → α)
    (g : u.Idx → s.Idx) (hres : ∀ j, d.resultIdx? j idx = some (g j)) (hinj : Function.Injective g) (j : u.Idx) :
    Host.scatter d (fun _ b => b) x idx upd (g j) = upd j := by
  rw [scatter_set_eq_foldl d x idx upd g hres]
  have h := foldl_set_hit (fun n => g (u.rowMajor.symm n)) (hinj.comp u.rowMajor.symm.injective) (fun n => upd (u.rowMajor.symm n))
    (u.rowMajor j) (List.finRange u.numel) x (List.nodup_finRange _) (List.mem_finRange _)
  rw [Equiv.symm_apply_apply] at h
  exact h

theorem scatter_set_miss (d : ScatterDims s si u) (x : s.Idx → α) (idx : IVec si w) (upd : u.Idx → α)
    (g : u.Idx → s.Idx) (hres : ∀ j, d.resultIdx? j idx = some (g j)) (i : s.Idx) (hi : ∀ j, g j ≠ i) :
    Host.scatter d (fun _ b => b) x idx upd i = x i := by
  rw [scatter_set_eq_foldl d x idx upd g hres]
  exact foldl_set_miss (fun n => g (u.rowMajor.symm n)) (fun n => upd (u.rowMajor.symm n)) i (List.finRange u.numel) x (fun n _ => hi _)

end ScatterRead

/-- Where update `j` of the ten lands in the row: lane `j`. -/
def laneOf (j : S10.Idx) : S1x128.Idx := ix2 0 (Fin.castLE (by decide) (j 0))

theorem laneOf_inj : Function.Injective laneOf := fun a b e => by
  have h := congrArg (fun k : S1x128.Idx => (k 1).val) e
  rw [eq_ix1 a, eq_ix1 b]
  exact congrArg ix1 (Fin.ext h)

theorem scat_window0 (j : S10.Idx) (h : 0 < S1x128.rank) : scatter_S1x128_S2_S10_0_0_01_0.window j ⟨0, h⟩ = 0 := rfl
theorem scat_window1 (j : S10.Idx) (h : 1 < S1x128.rank) : scatter_S1x128_S2_S10_0_0_01_0.window j ⟨1, h⟩ = (j 0).val := rfl

theorem scat_start (j : S10.Idx) (idx : IVec S2 32) (hidx : ∀ k, idx k = 0#32) (a : Fin S1x128.rank) :
    scatter_S1x128_S2_S10_0_0_01_0.start j idx a = 0 := by
  unfold ScatterDims.start
  split
  · rw [hidx]; rfl
  · rfl

theorem scat_result (j : S10.Idx) (idx : IVec S2 32) (hidx : ∀ k, idx k = 0#32) :
    scatter_S1x128_S2_S10_0_0_01_0.resultIdx? j idx = some (laneOf j) := by
  unfold ScatterDims.resultIdx?
  have hc : ∀ a, 0 ≤ scatter_S1x128_S2_S10_0_0_01_0.start j idx a + scatter_S1x128_S2_S10_0_0_01_0.window j a
      ∧ scatter_S1x128_S2_S10_0_0_01_0.start j idx a + scatter_S1x128_S2_S10_0_0_01_0.window j a < S1x128.size a := fun a => by
    rw [scat_start j idx hidx a]
    match a with
    | ⟨0, _⟩ => rw [scat_window0]; exact ⟨by omega, by show (0 : Int) + ((0 : Nat) : Int) < ((1 : Nat) : Int); omega⟩
    | ⟨1, _⟩ =>
      rw [scat_window1]
      have h10 : (j 0).val < 10 := (j 0).isLt
      exact ⟨by omega, by show (0 : Int) + (((j 0).val : Nat) : Int) < ((128 : Nat) : Int); omega⟩
  rw [dif_pos hc]
  refine congrArg some (funext fun a => Fin.ext ?_)
  show (scatter_S1x128_S2_S10_0_0_01_0.start j idx a + scatter_S1x128_S2_S10_0_0_01_0.window j a).toNat = (laneOf j a).val
  rw [scat_start j idx hidx a]
  match a with
  | ⟨0, _⟩ => rw [scat_window0]; rfl
  | ⟨1, _⟩ => rw [scat_window1, Int.zero_add]; exact (Int.toNat_natCast _).trans rfl

/-! ## The host operations' results as terms of the histogram row -/

section Terms

variable (h : SR.Idx → Ideal .f32)

/-- The ten counts: lanes 0..9 of the row. -/
def cntT : S10.Idx → Ideal .f32 :=
  fun i => shapeCast S10 (extractStridedSlice S1x10 ![0, 0] h slices_S1x128_S1x10_0_0) shapeCasts_S1x10_S10 i
/-- The total, at least one. -/
def totT : S_.Idx → Ideal .f32 :=
  maximumf (fun i => shapeCast S_ (extractStridedSlice S1x1 ![0, 10] h slices_S1x128_S1x1_0_10) shapeCasts_S1x1_S_ i)
    (constant (F := Ideal) S_ .f32 0x3F800000#32)
/-- The flags: which bins are not empty. -/
def flagT : S10.Idx → BitVec 1 :=
  cmpf .ogt (cntT h) (broadcastInDim S10 ![] bcast_S_S10 (constant (F := Ideal) S_ .f32 0x00000000#32))
/-- The number of bins that are not empty. -/
def nneT : S_.Idx → Ideal .f32 :=
  Host.reduceAdd (uitofp (F := Ideal) .f32 (flagT h)) (constant (F := Ideal) S_ .f32 0x00000000#32) reducesTo_S10_S_d0 h_S_
/-- The per-bin weight before the empty bins are zeroed. -/
def rawT : S10.Idx → Ideal .f32 :=
  Host.divf (broadcastInDim S10 ![] bcast_S_S10 (totT h))
    (maximumf (cntT h) (broadcastInDim S10 ![] bcast_S_S10 (constant (F := Ideal) S_ .f32 0x3F800000#32)))
/-- The per-bin weight. -/
def pbwT : S10.Idx → Ideal .f32 :=
  select (flagT h) (rawT h) (broadcastInDim S10 ![] bcast_S_S10 (constant (F := Ideal) S_ .f32 0x00000000#32))
/-- Whether some bin is not empty. -/
def anyT : S_.Idx → BitVec 1 := cmpf .ogt (nneT h) (constant (F := Ideal) S_ .f32 0x00000000#32)
/-- The per-bin weight over the number of non-empty bins. -/
def divT : S10.Idx → Ideal .f32 :=
  Host.divf (pbwT h) (broadcastInDim S10 ![] bcast_S_S10 (maximumf (nneT h) (constant (F := Ideal) S_ .f32 0x3F800000#32)))
/-- The normalised weights. -/
def normT : S10.Idx → Ideal .f32 := select (broadcastInDim S10 ![] bcast_S_S10 (anyT h)) (divT h) (pbwT h)
/-- The scatter's start index: two zeros. -/
def idxT : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0
/-- The weight row. -/
def rowT : S1x128.Idx → Ideal .f32 :=
  Host.scatter scatter_S1x128_S2_S10_0_0_01_0 (fun _ b => b)
    (broadcastInDim S1x128 ![] bcast_S_S1x128 (constant (F := Ideal) S_ .f32 0x00000000#32)) idxT (normT h)

theorem cntT_apply (b : Fin 10) : cntT h (ix1 b) = cntOf h b :=
  (shapeCast_1a_a_apply _ _ b).trans ((slice2_axis1_apply 0 h _ 0 b (Fin.castLE (by decide) b) (Nat.zero_add _).symm).trans rfl)

theorem totT_apply (j : S_.Idx) : totT h j = totOf h := by
  show FloatOps.maximumf (shapeCast S_ (extractStridedSlice S1x1 ![0, 10] h slices_S1x128_S1x1_0_10) shapeCasts_S1x1_S_ j) _ = FloatOps.maximumf (h (ix2 0 10)) oneI
  refine congrArg (fun z => FloatOps.maximumf z oneI) ?_
  refine (shapeCast_apply _ _ j (ix2 0 0) ?_).trans (slice2_axis1_apply 10 h _ 0 0 10 rfl)
  have h1 := (S_.rowMajor j).isLt
  have e : S_.numel = 1 := by decide
  rw [Shape.rowMajor_val_two]
  show 0 * 1 + 0 = _
  omega

/-- The last stretch's term at its one index: lane 0 of the row over the total, times one. -/
theorem outT_apply (r : SR.Idx → Ideal .f32) (t : Ideal .f32) (j : S_.Idx) :
    mulf (Host.divf (fun i => shapeCast S_ (extractStridedSlice S1x1 ![0, 0] r slices_S1x128_S1x1_0_0) shapeCasts_S1x1_S_ i) (fun _ => t))
        (constant (F := Ideal) S_ .f32 0x3F800000#32) j
      = FloatOps.mulf (FloatOps.hostDivf (r (ix2 0 0)) t) oneI := by
  show FloatOps.mulf (FloatOps.hostDivf (shapeCast S_ (extractStridedSlice S1x1 ![0, 0] r slices_S1x128_S1x1_0_0) shapeCasts_S1x1_S_ j) t) oneI = _
  refine congrArg (fun z => FloatOps.mulf (FloatOps.hostDivf z t) oneI) ?_
  refine (shapeCast_apply _ _ j (ix2 0 0) ?_).trans (slice2_axis1_apply 0 r _ 0 0 0 rfl)
  have h1 := (S_.rowMajor j).isLt
  have e : S_.numel = 1 := by decide
  rw [Shape.rowMajor_val_two]
  show 0 * 1 + 0 = _
  omega

theorem flagT_apply (b : Fin 10) : flagT h (ix1 b) = FloatOps.cmpf (F := Ideal) .ogt (cntOf h b) zeroI := by
  show FloatOps.cmpf (F := Ideal) .ogt (cntT h (ix1 b)) _ = _
  rw [cntT_apply]; rfl

/-- A sum over the indices of a vector of ten is the sum over its ten positions. -/
theorem sum_S10 (f : S10.Idx → EReal) : ∑ i : S10.Idx, f i = ∑ b : Fin 10, f (ix1 b) :=
  Fintype.sum_equiv ⟨fun i => i 0, ix1, fun i => (eq_ix1 i).symm, fun _ => rfl⟩ _ _ (fun i => congrArg f (eq_ix1 i))

theorem nneT_apply (j : S_.Idx) : nneT h j = nneOf h := by
  show Ideal.hostReduceAdd reducesTo_S10_S_d0 (uitofp (F := Ideal) .f32 (flagT h)) _ j = _
  rw [Ideal.hostReduceAdd_total reducesTo_S10_S_d0 (fun b => b.elim0), sum_S10]
  unfold nneOf
  refine congrArg₂ (· + ·) rfl (Finset.sum_congr rfl fun b _ => ?_)
  show FloatOps.uitofp (F := Ideal) .f32 (flagT h (ix1 b)) = _
  rw [flagT_apply]

theorem rawT_apply (b : Fin 10) : rawT h (ix1 b) = FloatOps.hostDivf (totOf h) (FloatOps.maximumf (cntOf h b) oneI) := by
  show FloatOps.hostDivf (totT h _) (FloatOps.maximumf (cntT h (ix1 b)) _) = _
  rw [totT_apply, cntT_apply]; rfl

theorem pbwT_apply (b : Fin 10) : pbwT h (ix1 b) = pbwOf h b := by
  show Scalar.select (flagT h (ix1 b)) (rawT h (ix1 b)) _ = _
  rw [flagT_apply, rawT_apply]; rfl

theorem anyT_apply (j : S_.Idx) : anyT h j = FloatOps.cmpf (F := Ideal) .ogt (nneOf h) zeroI := by
  show FloatOps.cmpf (F := Ideal) .ogt (nneT h j) _ = _
  rw [nneT_apply]; rfl

theorem divT_apply (b : Fin 10) : divT h (ix1 b) = FloatOps.hostDivf (pbwOf h b) (FloatOps.maximumf (nneOf h) oneI) := by
  show FloatOps.hostDivf (pbwT h (ix1 b)) (FloatOps.maximumf (nneT h _) _) = _
  rw [pbwT_apply, nneT_apply]; rfl

theorem normT_apply (b : Fin 10) : normT h (ix1 b) = normOf h b := by
  show Scalar.select (anyT h _) (divT h (ix1 b)) (pbwT h (ix1 b)) = _
  rw [anyT_apply, divT_apply, pbwT_apply]; rfl

theorem idxT_apply (k : S2.Idx) : idxT k = 0#32 := by
  unfold idxT
  by_cases hk : (k 0).val < 1
  · exact (concatenate_pair_apply_left (0 : Fin S2.rank) _ _ concatenates_S1_S1_S2_d0 k rfl (ix1 0) (fun b => by
      match b with | ⟨0, _⟩ => show 0 = (k 0).val; omega)).trans rfl
  · exact (concatenate_pair_apply_right (0 : Fin S2.rank) _ _ concatenates_S1_S1_S2_d0 k rfl rfl (ix1 0) (fun b hb => by
      match b with | ⟨0, _⟩ => exact absurd rfl hb) (by
        have := (k 0).isLt
        show 0 + 1 = (k 0).val
        have h2 : (k 0).val < 2 := (k 0).isLt
        omega)).trans rfl

theorem rowT_apply_lane (b : Fin 10) : rowT h (laneOf (ix1 b)) = normOf h b :=
  (scatter_set_hit scatter_S1x128_S2_S10_0_0_01_0 _ idxT (normT h) laneOf (fun i => scat_result i idxT idxT_apply) laneOf_inj (ix1 b)).trans
    (normT_apply h b)

theorem rowT_eq : rowT h = wrowOf h := by
  funext j
  unfold wrowOf
  by_cases hj : (j 1).val < 10
  · rw [dif_pos hj]
    have h0 : j 0 = (0 : Fin 1) := Fin.ext (by have h1 : (j 0).val < 1 := (j 0).isLt; show (j 0).val = 0; omega)
    have ej : j = laneOf (ix1 ⟨(j 1).val, hj⟩) :=
      (eq_ix2 j).trans (congrArg₂ (ix2 (n0 := 1) (n1 := 128)) h0 (Fin.ext rfl))
    exact (congrArg (rowT h) ej).trans (rowT_apply_lane h _)
  · rw [dif_neg hj]
    refine (scatter_set_miss scatter_S1x128_S2_S10_0_0_01_0 _ idxT (normT h) laneOf (fun i => scat_result i idxT idxT_apply) j (fun i e => hj ?_)).trans rfl
    rw [← e]
    exact (i 0).isLt

end Terms

/-! ## Each stretch of host operations over any contents -/

section Stretches

variable (X : Valuation τ sig (Elt Ideal))

theorem s1_v5 : (StableHlo.after hostOps1 X (Proc.devRef .tc main_v5) : S_.Idx → Ideal .f32)
    = totT (X (Proc.devRef .tc main_v0) : S1x128.Idx → Ideal .f32) := by
  after_results; rfl
theorem s1_v9 : (StableHlo.after hostOps1 X (Proc.devRef .tc main_v9) : S_.Idx → Ideal .f32)
    = nneT (X (Proc.devRef .tc main_v0) : S1x128.Idx → Ideal .f32) := by
  after_results; rfl
theorem s1_v11 : (StableHlo.after hostOps1 X (Proc.devRef .tc main_v11) : S10.Idx → BitVec 1)
    = flagT (X (Proc.devRef .tc main_v0) : S1x128.Idx → Ideal .f32) := by
  after_results; rfl
theorem s1_v15 : (StableHlo.after hostOps1 X (Proc.devRef .tc main_v15) : S10.Idx → Ideal .f32)
    = rawT (X (Proc.devRef .tc main_v0) : S1x128.Idx → Ideal .f32) := by
  after_results; rfl
theorem s1_cst4 : (StableHlo.after hostOps1 X (Proc.devRef .tc main_cst_4) : S_.Idx → Ideal .f32)
    = constant (F := Ideal) S_ .f32 0x00000000#32 := by
  after_results

theorem s11_v16 : (StableHlo.after hostOps1_1 X (Proc.devRef .tc main_v16) : S10.Idx → Ideal .f32)
    = select (X (Proc.devRef .tc main_v11) : S10.Idx → BitVec 1) (X (Proc.devRef .tc main_v15) : S10.Idx → Ideal .f32)
        (broadcastInDim S10 ![] bcast_S_S10 (X (Proc.devRef .tc main_cst_4) : S_.Idx → Ideal .f32)) := by
  after_results
  simp only [StableHlo.TRef.ofBuf, StableHlo.TRef.toBuf, cast_eq]
  rfl
theorem s11_v9 : StableHlo.after hostOps1_1 X (Proc.devRef .tc main_v9) = X (Proc.devRef .tc main_v9) := by after_results
theorem s11_v5 : StableHlo.after hostOps1_1 X (Proc.devRef .tc main_v5) = X (Proc.devRef .tc main_v5) := by after_results

theorem s12_v17 : (StableHlo.after hostOps1_2 X (Proc.devRef .tc main_v17) : S_.Idx → BitVec 1)
    = cmpf .ogt (X (Proc.devRef .tc main_v9) : S_.Idx → Ideal .f32) (constant (F := Ideal) S_ .f32 0x00000000#32) := by
  after_results
theorem s12_v20 : (StableHlo.after hostOps1_2 X (Proc.devRef .tc main_v20) : S10.Idx → Ideal .f32)
    = Host.divf (X (Proc.devRef .tc main_v16) : S10.Idx → Ideal .f32)
        (broadcastInDim S10 ![] bcast_S_S10 (maximumf (X (Proc.devRef .tc main_v9) : S_.Idx → Ideal .f32) (constant (F := Ideal) S_ .f32 0x3F800000#32))) := by
  after_results
theorem s12_v16 : StableHlo.after hostOps1_2 X (Proc.devRef .tc main_v16) = X (Proc.devRef .tc main_v16) := by after_results
theorem s12_v5 : StableHlo.after hostOps1_2 X (Proc.devRef .tc main_v5) = X (Proc.devRef .tc main_v5) := by after_results

theorem s13_v21 : (StableHlo.after hostOps1_3 X (Proc.devRef .tc main_v21) : S10.Idx → Ideal .f32)
    = select (broadcastInDim S10 ![] bcast_S_S10 (X (Proc.devRef .tc main_v17) : S_.Idx → BitVec 1))
        (X (Proc.devRef .tc main_v20) : S10.Idx → Ideal .f32) (X (Proc.devRef .tc main_v16) : S10.Idx → Ideal .f32) := by
  after_results
  simp only [StableHlo.TRef.ofBuf, StableHlo.TRef.toBuf, cast_eq]
theorem s13_v5 : StableHlo.after hostOps1_3 X (Proc.devRef .tc main_v5) = X (Proc.devRef .tc main_v5) := by after_results

theorem s14_v26 : (StableHlo.after hostOps1_4 X (Proc.devRef .tc main_v26) : S1x128.Idx → Ideal .f32)
    = Host.scatter scatter_S1x128_S2_S10_0_0_01_0 (fun _ b => b)
        (broadcastInDim S1x128 ![] bcast_S_S1x128 (constant (F := Ideal) S_ .f32 0x00000000#32)) idxT
        (X (Proc.devRef .tc main_v21) : S10.Idx → Ideal .f32) := by
  after_results; rfl
theorem s14_v5 : StableHlo.after hostOps1_4 X (Proc.devRef .tc main_v5) = X (Proc.devRef .tc main_v5) := by after_results

theorem s2_v31 : (StableHlo.after hostOps2 X (Proc.devRef .tc main_v31) : S_.Idx → Ideal .f32)
      = mulf (Host.divf (fun i => shapeCast S_ (extractStridedSlice S1x1 ![0, 0] (X (Proc.devRef .tc main_v27) : S1x128.Idx → Ideal .f32) slices_S1x128_S1x1_0_0) shapeCasts_S1x1_S_ i)
          (X (Proc.devRef .tc main_v5) : S_.Idx → Ideal .f32)) (constant (F := Ideal) S_ .f32 0x3F800000#32) := by
  after_results; rfl

/-- No stretch between the regions writes an argument array. -/
theorem s_arg0 : StableHlo.after hostOps1_4 (StableHlo.after hostOps1_3 (StableHlo.after hostOps1_2 (StableHlo.after hostOps1_1
    (StableHlo.after hostOps1 X)))) (Proc.devRef .tc main_arg0) = X (Proc.devRef .tc main_arg0) := by
  after_results
theorem s_arg1 : StableHlo.after hostOps1_4 (StableHlo.after hostOps1_3 (StableHlo.after hostOps1_2 (StableHlo.after hostOps1_1
    (StableHlo.after hostOps1 X)))) (Proc.devRef .tc main_arg1) = X (Proc.devRef .tc main_arg1) := by
  after_results
theorem s_arg2 : StableHlo.after hostOps1_4 (StableHlo.after hostOps1_3 (StableHlo.after hostOps1_2 (StableHlo.after hostOps1_1
    (StableHlo.after hostOps1 X)))) (Proc.devRef .tc main_arg2) = X (Proc.devRef .tc main_arg2) := by
  after_results

/-- The five stretches in turn: the total and the weight row, as terms of the histogram row. -/
theorem s_v5 : (StableHlo.after hostOps1_4 (StableHlo.after hostOps1_3 (StableHlo.after hostOps1_2 (StableHlo.after hostOps1_1
    (StableHlo.after hostOps1 X)))) (Proc.devRef .tc main_v5) : S_.Idx → Ideal .f32)
      = totT (X (Proc.devRef .tc main_v0) : S1x128.Idx → Ideal .f32) := by
  rw [s14_v5, s13_v5, s12_v5, s11_v5]; exact s1_v5 X

theorem s_v26 : (StableHlo.after hostOps1_4 (StableHlo.after hostOps1_3 (StableHlo.after hostOps1_2 (StableHlo.after hostOps1_1
    (StableHlo.after hostOps1 X)))) (Proc.devRef .tc main_v26) : S1x128.Idx → Ideal .f32)
      = rowT (X (Proc.devRef .tc main_v0) : S1x128.Idx → Ideal .f32) := by
  rw [s14_v26, s13_v21, s12_v17, s12_v20, s12_v16, s11_v16, s11_v9, s1_v9, s1_v11, s1_v15, s1_cst4]
  rfl

end Stretches

/-! ## The buffers between the regions and at the end -/

theorem W6_main_v5 (c : Dev nD) :
    (W6 m c (Proc.devRef .tc main_v5) : S_.Idx → Ideal .f32) = fun _ => totOf (histAt m c) :=
  (s_v5 (W1 m c)).trans (funext fun j => totT_apply (histAt m c) j)

theorem W6_main_v26 (c : Dev nD) :
    (W6 m c (Proc.devRef .tc main_v26) : S1x128.Idx → Ideal .f32) = wrowOf (histAt m c) :=
  (s_v26 (W1 m c)).trans (rowT_eq (histAt m c))

theorem W6_main_arg0 (c : Dev nD) : W6 m c (Proc.devRef .tc main_arg0) = m ((c : Thread nD τ).loc main_arg0) :=
  (s_arg0 (W1 m c)).trans ((W1_arr m c 0).trans ((dat0 (V0 m) c).arrAt_in 0 rfl cfg0.N))
theorem W6_main_arg1 (c : Dev nD) : W6 m c (Proc.devRef .tc main_arg1) = m ((c : Thread nD τ).loc main_arg1) :=
  (s_arg1 (W1 m c)).trans ((W1_arr m c 1).trans ((dat0 (V0 m) c).arrAt_in 1 rfl cfg0.N))
theorem W6_main_arg2 (c : Dev nD) : W6 m c (Proc.devRef .tc main_arg2) = m ((c : Thread nD τ).loc main_arg2) :=
  (s_arg2 (W1 m c)).trans ((W1_arr m c 2).trans ((dat0 (V0 m) c).arrAt_in 2 rfl cfg0.N))

theorem W8_main_v31 (c : Dev nD) :
    (W8 m c (Proc.devRef .tc main_v31) : S_.Idx → Ideal .f32)
      = fun _ => FloatOps.mulf (FloatOps.hostDivf ((W7 m c (Proc.devRef .tc main_v27) : S1x128.Idx → Ideal .f32) (ix2 0 0)) (totOf (histAt m c))) oneI := by
  have e5 : (W7 m c (Proc.devRef .tc main_v5) : S_.Idx → Ideal .f32) = fun _ => totOf (histAt m c) :=
    (W7_of_ne m c main_v5 (by decide)).trans (W6_main_v5 m c)
  refine (s2_v31 (W7 m c)).trans ?_
  rw [e5]
  exact funext fun j => outT_apply _ _ j

end Cert.KernelIdeal.Hand

end
-- ==== Proof.KI.Arr.lean ====
/- What the two regions leave in their arrays, and what a window's block is. Region 0's output array [1, 128] is written back
   once, at the last point, with the accumulator row after all 64 points; region 1's likewise. A block of an argument array at
   point `t` is its rows 4096·t … 4096·t + 4095; the weight row's one block is the whole row. -/
import proofs.«128471_j21895743275016_1_alg».proof.Proof.KI.Dat0
import proofs.«128471_j21895743275016_1_alg».proof.Proof.KI.Dat1
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

/-- The last point of each grid. -/
abbrev t0_63 : Fin cfg0.N := ⟨63, by decide⟩
abbrev t1_63 : Fin cfg1.N := ⟨63, by decide⟩

/-- The one write-back of region 0's output, at the last point, writes the accumulator row after that point: block (0, 0)
    of the [1, 128] array read through zero offsets is the array. -/
theorem flushed0_3_eq (c : Dev nD) (t : Fin cfg0.N) (hf : (cfg0.win 3).flush t = true) :
    (dat0 V c).flushed 3 t = ((cfg0.win 3).blk t).view.read (Elt F) (acc0 V c 63 (by decide) : Buf (Elt F) ((c : Thread nD τ).loc main_v0)) := by
  have hN : cfg0.N = 64 := N_0
  have h63 : t.val = 63 := by have := (flush0_3 t).mp hf; have := t.isLt; omega
  obtain rfl : t = t0_63 := Fin.ext h63
  show (cfg0.win 3).cut (grid0.coords t0_63) ((dat0 V c).after 3 t0_63) = _
  rw [after0_3]
  have hz' : (fun a => win0_3.index t0_63 a * main_v0.ty.shape.size a) = fun _ => 0 := funext fun a => by fin_cases a <;> decide
  exact (Memref.read_access_unit_zero (Elt F) main_v0 hz' (fun a => by rw [congrFun hz' a]; simp) (acc0 V c 63 (by decide))).symm

/-- Region 0's output array after the region: the accumulator row after the last point. -/
theorem arrAt0_out (c : Dev nD) :
    ((dat0 V c).arrAt 3 cfg0.N : S1x128.Idx → Elt F .f32) = acc0 V c 63 (by decide) :=
  (dat0 V c).arrAt_eq_of_cover 3 (acc0 V c 63 (by decide)) (flushed0_3_eq V c) fun i =>
    ⟨t0_63, (flush0_3 t0_63).mpr rfl, by
      show i ∈ ((View.whole main_v0).slice (win0_3.rect t0_63)).set
      rw [View.set_slice_whole, Rect.mem_set_unit]
      intro a
      have h0 : (i 0 : Nat) < 1 := (i 0).isLt
      have h1 : (i 1 : Nat) < 128 := (i 1).isLt
      match a with
      | ⟨0, _⟩ => show win0_3.index t0_63 0 * win0_3.size 0 ≤ (i 0 : Nat) ∧ (i 0 : Nat) < win0_3.index t0_63 0 * win0_3.size 0 + win0_3.xsize (grid0.coords t0_63) 0
                  rw [show win0_3.index t0_63 0 * win0_3.size 0 = 0 from by decide +kernel, show win0_3.xsize (grid0.coords t0_63) 0 = 1 from by decide +kernel]; omega
      | ⟨1, _⟩ => show win0_3.index t0_63 1 * win0_3.size 1 ≤ (i 1 : Nat) ∧ (i 1 : Nat) < win0_3.index t0_63 1 * win0_3.size 1 + win0_3.xsize (grid0.coords t0_63) 1
                  rw [show win0_3.index t0_63 1 * win0_3.size 1 = 0 from by decide +kernel, show win0_3.xsize (grid0.coords t0_63) 1 = 128 from by decide +kernel]; omega⟩

/-- The one write-back of region 1's output, at the last point, writes the accumulator row after that point: block (0, 0)
    of the [1, 128] array read through zero offsets is the array. -/
theorem flushed1_4_eq (c : Dev nD) (t : Fin cfg1.N) (hf : (cfg1.win 4).flush t = true) :
    (dat1 V c).flushed 4 t = ((cfg1.win 4).blk t).view.read (Elt F) (acc1 V c 63 (by decide) : Buf (Elt F) ((c : Thread nD τ).loc main_v27)) := by
  have hN : cfg1.N = 64 := N_1
  have h63 : t.val = 63 := by have := (flush1_4 t).mp hf; have := t.isLt; omega
  obtain rfl : t = t1_63 := Fin.ext h63
  show (cfg1.win 4).cut (grid1.coords t1_63) ((dat1 V c).after 4 t1_63) = _
  rw [after1_4]
  have hz' : (fun a => win1_4.index t1_63 a * main_v27.ty.shape.size a) = fun _ => 0 := funext fun a => by fin_cases a <;> decide
  exact (Memref.read_access_unit_zero (Elt F) main_v27 hz' (fun a => by rw [congrFun hz' a]; simp) (acc1 V c 63 (by decide))).symm

/-- Region 1's output array after the region: the accumulator row after the last point. -/
theorem arrAt1_out (c : Dev nD) :
    ((dat1 V c).arrAt 4 cfg1.N : S1x128.Idx → Elt F .f32) = acc1 V c 63 (by decide) :=
  (dat1 V c).arrAt_eq_of_cover 4 (acc1 V c 63 (by decide)) (flushed1_4_eq V c) fun i =>
    ⟨t1_63, (flush1_4 t1_63).mpr rfl, by
      show i ∈ ((View.whole main_v27).slice (win1_4.rect t1_63)).set
      rw [View.set_slice_whole, Rect.mem_set_unit]
      intro a
      have h0 : (i 0 : Nat) < 1 := (i 0).isLt
      have h1 : (i 1 : Nat) < 128 := (i 1).isLt
      match a with
      | ⟨0, _⟩ => show win1_4.index t1_63 0 * win1_4.size 0 ≤ (i 0 : Nat) ∧ (i 0 : Nat) < win1_4.index t1_63 0 * win1_4.size 0 + win1_4.xsize (grid1.coords t1_63) 0
                  rw [show win1_4.index t1_63 0 * win1_4.size 0 = 0 from by decide +kernel, show win1_4.xsize (grid1.coords t1_63) 0 = 1 from by decide +kernel]; omega
      | ⟨1, _⟩ => show win1_4.index t1_63 1 * win1_4.size 1 ≤ (i 1 : Nat) ∧ (i 1 : Nat) < win1_4.index t1_63 1 * win1_4.size 1 + win1_4.xsize (grid1.coords t1_63) 1
                  rw [show win1_4.index t1_63 1 * win1_4.size 1 = 0 from by decide +kernel, show win1_4.xsize (grid1.coords t1_63) 1 = 128 from by decide +kernel]; omega⟩

/-- The block indices of the array windows, decided over the grids: block `t` along the rows, block 0 along the lanes. -/
theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx1_0 : ∀ t : Fin cfg1.N, win1_0.index t 0 = t.val ∧ win1_0.index t 1 = 0 :=
  (by decide +kernel : ∀ t : Fin grid1.N, win1_0.index t 0 = t.val ∧ win1_0.index t 1 = 0)
theorem idx1_1 : ∀ t : Fin cfg1.N, win1_1.index t 0 = t.val ∧ win1_1.index t 1 = 0 :=
  (by decide +kernel : ∀ t : Fin grid1.N, win1_1.index t 0 = t.val ∧ win1_1.index t 1 = 0)
theorem idx1_2 : ∀ t : Fin cfg1.N, win1_2.index t 0 = t.val ∧ win1_2.index t 1 = 0 :=
  (by decide +kernel : ∀ t : Fin grid1.N, win1_2.index t 0 = t.val ∧ win1_2.index t 1 = 0)
/-- The weight row's window stays on block (0, 0). -/
theorem idx1_3 : ∀ t : Fin cfg1.N, win1_3.index t 0 = 0 ∧ win1_3.index t 1 = 0 :=
  (by decide +kernel : ∀ t : Fin grid1.N, win1_3.index t 0 = 0 ∧ win1_3.index t 1 = 0)

/-- A block of region 0's input window 0 / 1 / 2 read at a row and a lane: the argument array 4096·t rows further down. -/
theorem iblk0_0_apply (c : Dev nD) (t : Fin cfg0.N) (ht : t.val < 64) (r : Fin 4096) (l : Fin 128) :
    (iblk0 V c 0 t : S4096x128.Idx → Elt F .f32) (ix2 r l) = (V c main_arg0 : S262144x128.Idx → Elt F .f32) (ix2 ⟨4096 * t.val + r.val, by omega⟩ l) := by
  obtain ⟨e0, e1⟩ := idx0_0 t
  unfold iblk0
  rw [View.read_apply]
  show V c main_arg0 _ = V c main_arg0 _
  congr 1
  funext a
  apply Fin.ext
  match a with
  | ⟨0, _⟩ => show win0_0.index t 0 * 4096 + 1 * r.val = 4096 * t.val + r.val; rw [e0]; omega
  | ⟨1, _⟩ => show win0_0.index t 1 * 128 + 1 * l.val = l.val; rw [e1]; omega
theorem iblk0_1_apply (c : Dev nD) (t : Fin cfg0.N) (ht : t.val < 64) (r : Fin 4096) (l : Fin 128) :
    (iblk0 V c 1 t : S4096x128.Idx → Elt F .f32) (ix2 r l) = (V c main_arg1 : S262144x128.Idx → Elt F .f32) (ix2 ⟨4096 * t.val + r.val, by omega⟩ l) := by
  obtain ⟨e0, e1⟩ := idx0_1 t
  unfold iblk0
  rw [View.read_apply]
  show V c main_arg1 _ = V c main_arg1 _
  congr 1
  funext a
  apply Fin.ext
  match a with
  | ⟨0, _⟩ => show win0_1.index t 0 * 4096 + 1 * r.val = 4096 * t.val + r.val; rw [e0]; omega
  | ⟨1, _⟩ => show win0_1.index t 1 * 128 + 1 * l.val = l.val; rw [e1]; omega
theorem iblk0_2_apply (c : Dev nD) (t : Fin cfg0.N) (ht : t.val < 64) (r : Fin 4096) (l : Fin 128) :
    (iblk0 V c 2 t : S4096x128.Idx → Elt F .f32) (ix2 r l) = (V c main_arg2 : S262144x128.Idx → Elt F .f32) (ix2 ⟨4096 * t.val + r.val, by omega⟩ l) := by
  obtain ⟨e0, e1⟩ := idx0_2 t
  unfold iblk0
  rw [View.read_apply]
  show V c main_arg2 _ = V c main_arg2 _
  congr 1
  funext a
  apply Fin.ext
  match a with
  | ⟨0, _⟩ => show win0_2.index t 0 * 4096 + 1 * r.val = 4096 * t.val + r.val; rw [e0]; omega
  | ⟨1, _⟩ => show win0_2.index t 1 * 128 + 1 * l.val = l.val; rw [e1]; omega

/-- The same for region 1's three array windows; its weight-row window's one block is the whole row. -/
theorem iblk1_0_apply (c : Dev nD) (t : Fin cfg1.N) (ht : t.val < 64) (r : Fin 4096) (l : Fin 128) :
    (iblk1 V c 0 t : S4096x128.Idx → Elt F .f32) (ix2 r l) = (V c main_arg0 : S262144x128.Idx → Elt F .f32) (ix2 ⟨4096 * t.val + r.val, by omega⟩ l) := by
  obtain ⟨e0, e1⟩ := idx1_0 t
  unfold iblk1
  rw [View.read_apply]
  show V c main_arg0 _ = V c main_arg0 _
  congr 1
  funext a
  apply Fin.ext
  match a with
  | ⟨0, _⟩ => show win1_0.index t 0 * 4096 + 1 * r.val = 4096 * t.val + r.val; rw [e0]; omega
  | ⟨1, _⟩ => show win1_0.index t 1 * 128 + 1 * l.val = l.val; rw [e1]; omega
theorem iblk1_1_apply (c : Dev nD) (t : Fin cfg1.N) (ht : t.val < 64) (r : Fin 4096) (l : Fin 128) :
    (iblk1 V c 1 t : S4096x128.Idx → Elt F .f32) (ix2 r l) = (V c main_arg1 : S262144x128.Idx → Elt F .f32) (ix2 ⟨4096 * t.val + r.val, by omega⟩ l) := by
  obtain ⟨e0, e1⟩ := idx1_1 t
  unfold iblk1
  rw [View.read_apply]
  show V c main_arg1 _ = V c main_arg1 _
  congr 1
  funext a
  apply Fin.ext
  match a with
  | ⟨0, _⟩ => show win1_1.index t 0 * 4096 + 1 * r.val = 4096 * t.val + r.val; rw [e0]; omega
  | ⟨1, _⟩ => show win1_1.index t 1 * 128 + 1 * l.val = l.val; rw [e1]; omega
theorem iblk1_2_apply (c : Dev nD) (t : Fin cfg1.N) (ht : t.val < 64) (r : Fin 4096) (l : Fin 128) :
    (iblk1 V c 2 t : S4096x128.Idx → Elt F .f32) (ix2 r l) = (V c main_arg2 : S262144x128.Idx → Elt F .f32) (ix2 ⟨4096 * t.val + r.val, by omega⟩ l) := by
  obtain ⟨e0, e1⟩ := idx1_2 t
  unfold iblk1
  rw [View.read_apply]
  show V c main_arg2 _ = V c main_arg2 _
  congr 1
  funext a
  apply Fin.ext
  match a with
  | ⟨0, _⟩ => show win1_2.index t 0 * 4096 + 1 * r.val = 4096 * t.val + r.val; rw [e0]; omega
  | ⟨1, _⟩ => show win1_2.index t 1 * 128 + 1 * l.val = l.val; rw [e1]; omega
theorem iblk1_3_eq (c : Dev nD) (t : Fin cfg1.N) :
    (iblk1 V c 3 t : S1x128.Idx → Elt F .f32) = (V c main_v26 : S1x128.Idx → Elt F .f32) := by
  obtain ⟨e0, e1⟩ := idx1_3 t
  have hz' : (fun a => win1_3.index t a * main_v26.ty.shape.size a) = fun _ => 0 :=
    funext fun a => by
      match a with
      | ⟨0, _⟩ => show win1_3.index t 0 * 1 = 0; rw [e0]
      | ⟨1, _⟩ => show win1_3.index t 1 * 128 = 0; rw [e1]
  unfold iblk1
  exact Memref.read_access_unit_zero (Elt F) main_v26 hz' (fun a => by rw [congrFun hz' a]; simp) _

end Cert.KernelIdeal.Hand

end
-- ==== Proof.KI.Val0a.lean ====
/- Region 0's body arithmetic at the ideal instance, read lane by lane: a point adds to lane `b < 10` of the accumulator row
   the number of valid elements of its block in bin `b`, to lane 10 the number of valid elements of the block, and nothing to
   the other lanes; the reset row is zero. -/
import proofs.«128471_j21895743275016_1_alg».proof.Proof.KI.Step0
import proofs.«128471_j21895743275016_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Spec
open scoped BigOperators

/-- What one block adds to the row. -/
def row0 (x0 x1 x2 : S4096x128.Idx → Ideal .f32) : SR.Idx → EReal := fun j =>
  if (j 1).val < 10 then ∑ y : S4096x128.Idx, (maskf (BitVec.ofNat 32 (j 1).val) (bin (x0 y) (x1 y)) : EReal) * (vf (x2 y) : EReal)
  else if (j 1).val = 10 then ∑ y : S4096x128.Idx, (vf (x2 y) : EReal) else 0

/-- The sum along the lanes at row `r`. -/
private theorem laneSum_apply (v : FVec Ideal S4096x128 .f32) (h1 : S4096x128.Reduces [1] S4096)
    (hφ : FKind.Formats .f32) (hacc : (0x00000000#32 : BitVec 32) = FKind.add.neutral .f32 hφ) (r : Fin 4096) :
    (multiReduction (F := Ideal) .add [1] S4096 v 0x00000000#32 h1 hφ hacc (ix1 r) : EReal)
      = ∑ l : Fin 128, (v (ix2 r l) : EReal) := by
  refine (Ideal.multiReduction_add_single v 0x00000000#32 h1 hφ hacc (ix1 r)).trans ?_
  show ∑ l : Fin 128, (v (h1.lift (ix1 r) l) : EReal) = _
  refine Finset.sum_congr rfl fun l _ => ?_
  congr 1
  funext a
  match a with
  | ⟨0, _⟩ => exact Fin.ext rfl
  | ⟨1, _⟩ => exact Fin.ext rfl

/-- The block total as the body takes it — the sum along the lanes, the column of row sums, the sum down the column, and
    the one entry of the [1,1] result — is the sum over the block. -/
private theorem blockTotal (v : FVec Ideal S4096x128 .f32)
    (h1 : S4096x128.Reduces [1] S4096) (c1 : S4096.ShapeCasts S4096x1) (h2 : S4096x1.Reduces [0] S1)
    (c2 : S1.ShapeCasts S1x1) (hp : ∀ a, (![0, 0] : Fin 2 → Nat) a < S1x1.size a)
    (hφ : FKind.Formats .f32) (hacc1 hacc2 : (0x00000000#32 : BitVec 32) = FKind.add.neutral .f32 hφ) :
    (extractAt ![0, 0] (shapeCast S1x1 (multiReduction (F := Ideal) .add [0] S1
        (shapeCast S4096x1 (multiReduction (F := Ideal) .add [1] S4096 v 0x00000000#32 h1 hφ hacc1) c1)
        0x00000000#32 h2 hφ hacc2) c2) hp : EReal)
      = ∑ y : S4096x128.Idx, (v y : EReal) := by
  unfold extractAt
  refine (shapeCast_apply _ c2 _ (ix1 (0 : Fin 1)) ?_).trans ?_
  · rw [Shape.rowMajor_val_one, Shape.rowMajor_val_two]; rfl
  refine (Ideal.multiReduction_add_single _ 0x00000000#32 h2 hφ hacc2 (ix1 (0 : Fin 1))).trans ?_
  show ∑ r : Fin 4096, (shapeCast S4096x1 _ c1 (h2.lift (ix1 (0 : Fin 1)) r) : EReal) = _
  rw [sum_idx2]
  refine Finset.sum_congr rfl fun r _ => ?_
  refine (shapeCast_apply _ c1 _ (ix1 r) ?_).trans (laneSum_apply v h1 hφ hacc1 r)
  rw [Shape.rowMajor_val_one, Shape.rowMajor_val_two]
  show r.val = r.val * 1 + 0
  omega

/-- The lane test: a select on "the lane's number is `b`" is the `if` on the lane. -/
private theorem lane_sel {α : Type} (j : S1x128.Idx) (hι : S1x128.Iotas .tc 32 [1]) (b : Nat) (hb : b < 128) (A B : α) :
    Scalar.select (IntOp.cmpi .eq (iota .tc S1x128 32 [1] hι j) (BitVec.ofNat 32 b)) A B
      = if (j 1).val = b then A else B := by
  have hlt : (j 1).val < 128 := idx2_lt1 j
  rw [iota_single_apply]
  by_cases h : (j 1).val = b
  · rw [if_pos h, h, IntOp.cmpi_eq.mpr rfl]
    exact select_one A B
  · rw [if_neg h]
    have hne : ¬ BitVec.ofNat 32 (j 1).val = BitVec.ofNat 32 b := fun e => h (by
      have := congrArg BitVec.toNat e
      simp only [BitVec.toNat_ofNat] at this
      omega)
    rw [eq_zero_of_ne_one (fun hh => hne (IntOp.cmpi_eq.mp hh))]
    exact select_zero A B

/-- Eleven values placed on lanes 0..10 of a zero row by the cascade of selects, added to a row, read at a lane. -/
private theorem lanes11 (s : Vec Ideal S1x128 .f32) (A0 A1 A2 A3 A4 A5 A6 A7 A8 A9 A10 : Ideal .f32)
    (f : ℕ → EReal) (g : EReal)
    (h0 : (A0 : EReal) = f 0) (h1 : (A1 : EReal) = f 1) (h2 : (A2 : EReal) = f 2) (h3 : (A3 : EReal) = f 3)
    (h4 : (A4 : EReal) = f 4) (h5 : (A5 : EReal) = f 5) (h6 : (A6 : EReal) = f 6) (h7 : (A7 : EReal) = f 7)
    (h8 : (A8 : EReal) = f 8) (h9 : (A9 : EReal) = f 9) (h10 : (A10 : EReal) = g)
    (j : S1x128.Idx) (hι : S1x128.Iotas .tc 32 [1]) (hc : S1x128.ShapeCasts S1x128) :
    (shapeCast S1x128 (addf s
      (select (cmpi .eq (iota .tc S1x128 32 [1] hι) (broadcast S1x128 10#32)) (broadcast S1x128 A10)
      (select (cmpi .eq (iota .tc S1x128 32 [1] hι) (broadcast S1x128 9#32)) (broadcast S1x128 A9)
      (select (cmpi .eq (iota .tc S1x128 32 [1] hι) (broadcast S1x128 8#32)) (broadcast S1x128 A8)
      (select (cmpi .eq (iota .tc S1x128 32 [1] hι) (broadcast S1x128 7#32)) (broadcast S1x128 A7)
      (select (cmpi .eq (iota .tc S1x128 32 [1] hι) (broadcast S1x128 6#32)) (broadcast S1x128 A6)
      (select (cmpi .eq (iota .tc S1x128 32 [1] hι) (broadcast S1x128 5#32)) (broadcast S1x128 A5)
      (select (cmpi .eq (iota .tc S1x128 32 [1] hι) (broadcast S1x128 4#32)) (broadcast S1x128 A4)
      (select (cmpi .eq (iota .tc S1x128 32 [1] hι) (broadcast S1x128 3#32)) (broadcast S1x128 A3)
      (select (cmpi .eq (iota .tc S1x128 32 [1] hι) (broadcast S1x128 2#32)) (broadcast S1x128 A2)
      (select (cmpi .eq (iota .tc S1x128 32 [1] hι) (broadcast S1x128 1#32)) (broadcast S1x128 A1)
      (select (cmpi .eq (iota .tc S1x128 32 [1] hι) (broadcast S1x128 0#32)) (broadcast S1x128 A0)
        (broadcast S1x128 (Scalar.ofBits (F := Ideal) .f32 0x00000000#32)))))))))))))) hc j : EReal)
      = (s j : EReal) + (if (j 1).val < 10 then f (j 1).val else if (j 1).val = 10 then g else 0) := by
  rw [shapeCast_self]
  show (s j : EReal) +
      Scalar.select (IntOp.cmpi .eq (iota .tc S1x128 32 [1] hι j) (BitVec.ofNat 32 10)) A10
      (Scalar.select (IntOp.cmpi .eq (iota .tc S1x128 32 [1] hι j) (BitVec.ofNat 32 9)) A9
      (Scalar.select (IntOp.cmpi .eq (iota .tc S1x128 32 [1] hι j) (BitVec.ofNat 32 8)) A8
      (Scalar.select (IntOp.cmpi .eq (iota .tc S1x128 32 [1] hι j) (BitVec.ofNat 32 7)) A7
      (Scalar.select (IntOp.cmpi .eq (iota .tc S1x128 32 [1] hι j) (BitVec.ofNat 32 6)) A6
      (Scalar.select (IntOp.cmpi .eq (iota .tc S1x128 32 [1] hι j) (BitVec.ofNat 32 5)) A5
      (Scalar.select (IntOp.cmpi .eq (iota .tc S1x128 32 [1] hι j) (BitVec.ofNat 32 4)) A4
      (Scalar.select (IntOp.cmpi .eq (iota .tc S1x128 32 [1] hι j) (BitVec.ofNat 32 3)) A3
      (Scalar.select (IntOp.cmpi .eq (iota .tc S1x128 32 [1] hι j) (BitVec.ofNat 32 2)) A2
      (Scalar.select (IntOp.cmpi .eq (iota .tc S1x128 32 [1] hι j) (BitVec.ofNat 32 1)) A1
      (Scalar.select (IntOp.cmpi .eq (iota .tc S1x128 32 [1] hι j) (BitVec.ofNat 32 0)) A0
        (Ideal.ofBits .f32 0x00000000#32))))))))))) = _
  rw [lane_sel j hι 10 (by decide), lane_sel j hι 9 (by decide), lane_sel j hι 8 (by decide), lane_sel j hι 7 (by decide),
    lane_sel j hι 6 (by decide), lane_sel j hι 5 (by decide), lane_sel j hι 4 (by decide), lane_sel j hι 3 (by decide),
    lane_sel j hι 2 (by decide), lane_sel j hι 1 (by decide), lane_sel j hι 0 (by decide), Ideal.ofBits_zero_f32]
  subst h0 h1 h2 h3 h4 h5 h6 h7 h8 h9 h10
  refine congrArg (fun t : EReal => (s j : EReal) + t) ?_
  have hlt : (j 1).val < 128 := idx2_lt1 j
  generalize (j 1).val = n at hlt ⊢
  have hn : n = 0 ∨ n = 1 ∨ n = 2 ∨ n = 3 ∨ n = 4 ∨ n = 5 ∨ n = 6 ∨ n = 7 ∨ n = 8 ∨ n = 9 ∨ n = 10 ∨ 11 ≤ n := by omega
  rcases hn with h | h | h | h | h | h | h | h | h | h | h | h
  · subst h; rfl
  · subst h; rfl
  · subst h; rfl
  · subst h; rfl
  · subst h; rfl
  · subst h; rfl
  · subst h; rfl
  · subst h; rfl
  · subst h; rfl
  · subst h; rfl
  · subst h; rfl
  · have e : ∀ b, b < 11 → ¬ n = b := fun b hb => by omega
    rw [if_neg (e 10 (by decide)), if_neg (e 9 (by decide)), if_neg (e 8 (by decide)), if_neg (e 7 (by decide)),
      if_neg (e 6 (by decide)), if_neg (e 5 (by decide)), if_neg (e 4 (by decide)), if_neg (e 3 (by decide)),
      if_neg (e 2 (by decide)), if_neg (e 1 (by decide)), if_neg (e 0 (by decide)),
      if_neg (show ¬ n < 10 by omega), if_neg (e 10 (by decide))]

theorem zero0_apply (j : S1x128.Idx) : (zero0 (F := Ideal) j : EReal) = 0 := by
  unfold zero0 k0_pay1
  rw [shapeCast_self]
  exact Ideal.ofBits_zero_f32

theorem step0_apply (x0 x1 x2 : Vec Ideal S4096x128 .f32) (s : Vec Ideal S1x128 .f32) (j : S1x128.Idx) :
    (step0 (F := Ideal) x0 x1 x2 s j : EReal) = (s j : EReal) + row0 x0 x1 x2 j := by
  refine (lanes11 s _ _ _ _ _ _ _ _ _ _ _
    (fun n => ∑ y : S4096x128.Idx, (maskf (BitVec.ofNat 32 n) (bin (x0 y) (x1 y)) : EReal) * (vf (x2 y) : EReal))
    (∑ y : S4096x128.Idx, (vf (x2 y) : EReal)) ?_ ?_ ?_ ?_ ?_ ?_ ?_ ?_ ?_ ?_ ?_ j _ _).trans ?_
  · exact (blockTotal _ _ _ _ _ _ _ _ _).trans (Finset.sum_congr rfl fun y _ => rfl)
  · exact (blockTotal _ _ _ _ _ _ _ rfl _).trans (Finset.sum_congr rfl fun y _ => rfl)
  · exact (blockTotal _ _ _ _ _ _ _ _ _).trans (Finset.sum_congr rfl fun y _ => rfl)
  · exact (blockTotal _ _ _ _ _ _ _ _ _).trans (Finset.sum_congr rfl fun y _ => rfl)
  · exact (blockTotal _ _ _ _ _ _ _ _ _).trans (Finset.sum_congr rfl fun y _ => rfl)
  · exact (blockTotal _ _ _ _ _ _ _ _ _).trans (Finset.sum_congr rfl fun y _ => rfl)
  · exact (blockTotal _ _ _ _ _ _ _ _ _).trans (Finset.sum_congr rfl fun y _ => rfl)
  · exact (blockTotal _ _ _ _ _ _ _ _ _).trans (Finset.sum_congr rfl fun y _ => rfl)
  · exact (blockTotal _ _ _ _ _ _ _ _ _).trans (Finset.sum_congr rfl fun y _ => rfl)
  · exact (blockTotal _ _ _ _ _ _ _ _ _).trans (Finset.sum_congr rfl fun y _ => rfl)
  · exact (blockTotal _ _ _ _ _ _ _ _ _).trans (Finset.sum_congr rfl fun y _ => rfl)
  · rfl

end Cert.KernelIdeal.Hand

end
-- ==== Proof.SumSplit.lean ====
/- A sum over the index set of a 262144 × 128 array, taken block by block: 64 blocks of 4096 rows, each row 128 lanes. -/
import proofs.«128471_j21895743275016_1_alg».proof.Proof.Spec
import Mathlib.Logic.Equiv.Fin.Basic
import Mathlib.Data.Fintype.BigOperators
import Mathlib.Algebra.BigOperators.Group.Finset.Defs

noncomputable section

namespace Cert.Spec

open Idealize.ShloMosaic Idealize.ShloMosaic.ValueIdx
open scoped BigOperators

/-- Row `4096·t + r` of the array, lane `l`. -/
abbrev rowAt (t : Fin 64) (r : Fin 4096) (l : Fin 128) : SA.Idx := ix2 (⟨4096 * t.val + r.val, by omega⟩ : Fin 262144) l

theorem sum_split {M : Type*} [AddCommMonoid M] (G : SA.Idx → M) :
    ∑ i : SA.Idx, G i = ∑ t : Fin 64, ∑ r : Fin 4096, ∑ l : Fin 128, G (rowAt t r l) := by
  -- first by coordinates: row, then lane
  rw [sum_idx2 G]
  -- a sum over the 262144 rows is the sum over 64 blocks of 4096 rows
  have hrows : ∀ F : Fin 262144 → M,
      ∑ a : Fin 262144, F a
        = ∑ t : Fin 64, ∑ r : Fin 4096, F (⟨4096 * t.val + r.val, by omega⟩ : Fin 262144) := by
    intro F
    rw [← Fintype.sum_prod_type'
      (f := fun (t : Fin 64) (r : Fin 4096) => F (⟨4096 * t.val + r.val, by omega⟩ : Fin 262144))]
    symm
    refine Fintype.sum_equiv (finProdFinEquiv : Fin 64 × Fin 4096 ≃ Fin 262144) _ _ ?_
    rintro ⟨t, r⟩
    refine congrArg F (Fin.ext ?_)
    show 4096 * t.val + r.val = r.val + 4096 * t.val
    omega
  exact hrows (fun a => ∑ l : Fin 128, G (ix2 a l))

end Cert.Spec

end
-- ==== Proof.KI.Val0.lean ====
/- The histogram row region 0 ends with, at the ideal instance: the 64 points' rows added up from zero are the counts over the
   whole arrays, because the points' blocks tile the arrays. -/
import proofs.«128471_j21895743275016_1_alg».proof.Proof.KI.Arr
import proofs.«128471_j21895743275016_1_alg».proof.Proof.KI.Val0a
import proofs.«128471_j21895743275016_1_alg».proof.Proof.SumSplit

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Spec
open scoped BigOperators

variable (V : (c : Dev nD) → (b : Ref sig .tc) → Buf (Elt Ideal) ((c : Thread nD τ).loc b))

/-- What point `t` adds to lane `j` of the row (nothing past the grid). -/
def term0 (c : Dev nD) (t : ℕ) (j : SR.Idx) : EReal :=
  if h : t < cfg0.N then row0 (iblk0 (F := Ideal) V c 0 ⟨t, h⟩) (iblk0 (F := Ideal) V c 1 ⟨t, h⟩) (iblk0 (F := Ideal) V c 2 ⟨t, h⟩) j else 0

/-- The accumulator row after point `n` is the sum of what the points `0 … n` add, from zero. -/
theorem acc0_sum (c : Dev nD) (n : ℕ) (hn : n < cfg0.N) (j : SR.Idx) :
    (acc0 (F := Ideal) V c n hn j : EReal) = ∑ t ∈ Finset.range (n + 1), term0 V c t j := by
  induction n with
  | zero =>
    rw [Finset.sum_range_one]
    show (step0 (F := Ideal) _ _ _ zero0 j : EReal) = _
    rw [step0_apply, zero0_apply, zero_add]; unfold term0; rw [dif_pos hn]
  | succ n ih =>
    rw [Finset.sum_range_succ, ← ih (Nat.lt_of_succ_lt hn)]
    show (step0 (F := Ideal) _ _ _ (acc0 V c n _) j : EReal) = _
    rw [step0_apply]; unfold term0; rw [dif_pos hn]

/-- What point `t` adds, over the rows `4096·t + r` of the whole arrays. -/
theorem term0_eq (c : Dev nD) (t : Fin 64) (j : SR.Idx) :
    term0 V c t.val j =
      if (j 1).val < 10 then ∑ r : Fin 4096, ∑ l : Fin 128,
          (maskf (BitVec.ofNat 32 (j 1).val) (bin ((V c main_arg0 : SA.Idx → Ideal .f32) (rowAt t r l)) ((V c main_arg1 : SA.Idx → Ideal .f32) (rowAt t r l))) : EReal)
            * (vf ((V c main_arg2 : SA.Idx → Ideal .f32) (rowAt t r l)) : EReal)
      else if (j 1).val = 10 then ∑ r : Fin 4096, ∑ l : Fin 128, (vf ((V c main_arg2 : SA.Idx → Ideal .f32) (rowAt t r l)) : EReal)
      else 0 := by
  have ht : t.val < cfg0.N := lt_of_lt_of_eq t.isLt N_0.symm
  unfold term0; rw [dif_pos ht]; unfold row0
  simp only [sum_idx2, iblk0_0_apply (F := Ideal) V c ⟨t.val, ht⟩ t.isLt, iblk0_1_apply (F := Ideal) V c ⟨t.val, ht⟩ t.isLt,
    iblk0_2_apply (F := Ideal) V c ⟨t.val, ht⟩ t.isLt]

theorem hist_value (c : Dev nD) :
    (acc0 (F := Ideal) V c 63 (by decide) : SR.Idx → EReal)
      = histRow (V c main_arg0 : SA.Idx → Ideal .f32) (V c main_arg1 : SA.Idx → Ideal .f32) (V c main_arg2 : SA.Idx → Ideal .f32) := by
  funext j
  rw [acc0_sum V c 63 (by decide) j, Finset.sum_range (fun t => term0 V c t j)]
  simp only [term0_eq]
  unfold histRow CNT TOTRAW
  by_cases h1 : (j 1).val < 10
  · simp only [if_pos h1]
    exact (sum_split (fun i : SA.Idx => (maskf (BitVec.ofNat 32 (j 1).val) (bin ((V c main_arg0 : SA.Idx → Ideal .f32) i) ((V c main_arg1 : SA.Idx → Ideal .f32) i)) : EReal)
            * (vf ((V c main_arg2 : SA.Idx → Ideal .f32) i) : EReal))).symm
  · simp only [if_neg h1]
    by_cases h2 : (j 1).val = 10
    · simp only [if_pos h2]
      exact (sum_split (fun i : SA.Idx => (vf ((V c main_arg2 : SA.Idx → Ideal .f32) i) : EReal))).symm
    · simp only [if_neg h2]
      exact Finset.sum_const_zero

end Cert.KernelIdeal.Hand

end
-- ==== Proof.KI.Val1a.lean ====
/- Region 1's body arithmetic at the ideal instance, read lane by lane: a point adds to lane 0 of the accumulator row the sum
   over its block of each element's cross-entropy term times its weight (its bin's lane of the weight row, times its validity),
   and nothing to the other lanes; the reset row is zero. -/
import proofs.«128471_j21895743275016_1_alg».proof.Proof.KI.Step1
import proofs.«128471_j21895743275016_1_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Spec
open scoped BigOperators

/-- What one block adds to lane 0. -/
def term1 (x0 x1 x2 : S4096x128.Idx → Ideal .f32) (xw : SR.Idx → Ideal .f32) : EReal :=
  ∑ y : S4096x128.Idx, (bce (x0 y) (x1 y) : EReal) * ((wsel xw (bin (x0 y) (x1 y)) : EReal) * (vf (x2 y) : EReal))

/-- A vector viewed as a one-column matrix reads, at (i, u), the vector at i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The source index over row k with lane l inserted. -/
private theorem lift_lane (h : S4096x128.Reduces [1] S4096) (k : Fin 4096) (l : Fin 128) :
    h.lift (ix1 k) l = ix2 k l := by
  funext c
  match c with
  | ⟨0, _⟩ => exact Fin.ext rfl
  | ⟨1, _⟩ => exact Fin.ext rfl

/-- The source index over the one cell with row k inserted. -/
private theorem lift_row (h : S4096x1.Reduces [0] S1) (u : Fin 1) (k : Fin 4096) :
    h.lift (ix1 u) k = ix2 k u := by
  funext c
  match c with
  | ⟨0, _⟩ => exact Fin.ext rfl
  | ⟨1, _⟩ => exact Fin.ext rfl

/-- The two reductions (lanes, then rows) and the read of the one cell left: the sum over the whole block. -/
private theorem blockSum (v : FVec Ideal S4096x128 .f32)
    (h1 : S4096x128.Reduces [1] S4096) (c1 : S4096.ShapeCasts S4096x1) (h2 : S4096x1.Reduces [0] S1)
    (c2 : S1.ShapeCasts S1x1) (hp : ∀ a, (![0, 0] : Fin 2 → Nat) a < S1x1.size a)
    (hφ : FKind.Formats .f32) (hacc1 hacc2 : (0x00000000#32 : BitVec 32) = FKind.add.neutral .f32 hφ) :
    extractAt ![0, 0] (shapeCast S1x1 (multiReduction (F := Ideal) .add [0] S1
        (shapeCast S4096x1 (multiReduction (F := Ideal) .add [1] S4096 v 0x00000000#32 h1 hφ hacc1) c1)
        0x00000000#32 h2 hφ hacc2) c2) hp
      = ∑ y : S4096x128.Idx, v y := by
  have e0 : (fun a => (⟨(![0, 0] : Fin 2 → Nat) a, hp a⟩ : Fin (S1x1.size a))) = ix2 (0 : Fin 1) (0 : Fin 1) := by
    funext a
    match a with
    | ⟨0, _⟩ => rfl
    | ⟨1, _⟩ => rfl
  unfold extractAt
  rw [e0, shapeCast_a_1a_apply]
  have rowSum : ∀ k : Fin 4096,
      multiReduction (F := Ideal) .add [1] S4096 v 0x00000000#32 h1 hφ hacc1 (ix1 k) = ∑ l : Fin 128, v (ix2 k l) := fun k =>
    (Ideal.multiReduction_add_single v 0x00000000#32 h1 hφ hacc1 (ix1 k)).trans
      (Finset.sum_congr rfl fun l _ => congrArg v (lift_lane h1 k l))
  have colSum : ∀ k : Fin 4096,
      shapeCast S4096x1 (multiReduction (F := Ideal) .add [1] S4096 v 0x00000000#32 h1 hφ hacc1) c1 (h2.lift (ix1 0) k)
        = ∑ l : Fin 128, v (ix2 k l) := fun k => by
    rw [lift_row h2 0 k, shapeCast_a_a1_apply]; exact rowSum k
  refine (Ideal.multiReduction_add_single _ 0x00000000#32 h2 hφ hacc2 (ix1 0)).trans ?_
  rw [sum_idx2]
  exact Finset.sum_congr rfl fun k _ => colSum k

/-- A cell of the weight row, read as a one-cell block and extracted: the row at that lane. -/
private theorem cell_read (xw : Vec Ideal S1x128 .f32) (b : Nat) (hb : b < 128)
    (inb : ∀ a, (![0, b] : Fin 2 → Nat) a + S1x1.size a ≤ S1x128.size a)
    (hp : ∀ a, (![0, 0] : Fin 2 → Nat) a < S1x1.size a) :
    extractAt ![0, 0] (View.ld xw (Rect.unit (s := S1x128) ![0, b] S1x1.size inb)) hp = xw (ix2 0 ⟨b, hb⟩) := by
  unfold extractAt
  show xw _ = xw _
  refine congrArg xw (funext fun a => Fin.ext ?_)
  match a with
  | ⟨0, _⟩ => rfl
  | ⟨1, _⟩ => show b + 1 * 0 = b; omega

/-- The ten-way cascade over the weight row's cells as the body reads them. -/
private def wselK (xw : Vec Ideal S1x128 .f32) (x : BitVec 32) : Ideal .f32 :=
  Scalar.select (IntOp.cmpi .eq x 9#32) (extractAt ![0, 0] (View.ld xw rw9) inpos_S1x1_p0_0)
  (Scalar.select (IntOp.cmpi .eq x 8#32) (extractAt ![0, 0] (View.ld xw rw8) inpos_S1x1_p0_0)
  (Scalar.select (IntOp.cmpi .eq x 7#32) (extractAt ![0, 0] (View.ld xw rw7) inpos_S1x1_p0_0)
  (Scalar.select (IntOp.cmpi .eq x 6#32) (extractAt ![0, 0] (View.ld xw rw6) inpos_S1x1_p0_0)
  (Scalar.select (IntOp.cmpi .eq x 5#32) (extractAt ![0, 0] (View.ld xw rw5) inpos_S1x1_p0_0)
  (Scalar.select (IntOp.cmpi .eq x 4#32) (extractAt ![0, 0] (View.ld xw rw4) inpos_S1x1_p0_0)
  (Scalar.select (IntOp.cmpi .eq x 3#32) (extractAt ![0, 0] (View.ld xw rw3) inpos_S1x1_p0_0)
  (Scalar.select (IntOp.cmpi .eq x 2#32) (extractAt ![0, 0] (View.ld xw rw2) inpos_S1x1_p0_0)
  (Scalar.select (IntOp.cmpi .eq x 1#32) (extractAt ![0, 0] (View.ld xw rw1) inpos_S1x1_p0_0)
  (Scalar.select (IntOp.cmpi .eq x 0#32) (extractAt ![0, 0] (View.ld xw rw0) inpos_S1x1_p0_0)
    (Scalar.ofBits (F := Ideal) .f32 0x00000000#32))))))))))

private theorem wselK_eq (xw : Vec Ideal S1x128 .f32) (x : BitVec 32) : wselK xw x = wsel xw x := by
  unfold wselK wsel
  rw [cell_read xw 9 (by decide), cell_read xw 8 (by decide), cell_read xw 7 (by decide), cell_read xw 6 (by decide),
    cell_read xw 5 (by decide), cell_read xw 4 (by decide), cell_read xw 3 (by decide), cell_read xw 2 (by decide),
    cell_read xw 1 (by decide), cell_read xw 0 (by decide)]
  rfl

/-- The lane selector's bit: set on lane 0 only. -/
private theorem lane_bit (j : S1x128.Idx) (hι : S1x128.Iotas .tc 32 [1]) :
    IntOp.cmpi .eq (iota .tc S1x128 32 [1] hι j) 0#32 = if (j 1).val = 0 then 1#1 else 0#1 := by
  have hlt : (j 1).val < 128 := idx2_lt1 j
  rw [iota_single_apply]
  unfold IntOp.cmpi
  by_cases h0 : (j 1).val = 0
  · rw [if_pos h0, h0]; rfl
  · rw [if_neg h0]
    have hne : ¬ BitVec.ofNat 32 (j 1).val = 0#32 := fun e => h0 (by
      have := congrArg BitVec.toNat e
      simp only [BitVec.toNat_ofNat] at this
      omega)
    have hb : (BitVec.ofNat 32 (j 1).val == 0#32) = false := beq_eq_false_iff_ne.mpr hne
    rw [hb]; rfl

/-- A row plus a value placed on lane 0 (zero on the other lanes), read at a lane. -/
private theorem lane0_row (s : Vec Ideal S1x128 .f32) (A : Ideal .f32) (j : S1x128.Idx)
    (hι : S1x128.Iotas .tc 32 [1]) (hc : S1x128.ShapeCasts S1x128) :
    (shapeCast S1x128 (addf s (select (cmpi .eq (iota .tc S1x128 32 [1] hι) (broadcast S1x128 0#32))
        (broadcast S1x128 A) (broadcast S1x128 (Scalar.ofBits (F := Ideal) .f32 0x00000000#32)))) hc j : EReal)
      = (s j : EReal) + (if (j 1).val = 0 then (A : EReal) else 0) := by
  rw [shapeCast_self]
  show (s j : EReal) + Scalar.select (IntOp.cmpi .eq (iota .tc S1x128 32 [1] hι j) 0#32) A (Ideal.ofBits .f32 0x00000000#32) = _
  rw [lane_bit, Ideal.ofBits_zero_f32]
  by_cases h0 : (j 1).val = 0
  · rw [if_pos h0, if_pos h0, select_one]
  · rw [if_neg h0, if_neg h0, select_zero]

theorem zero1_apply (j : S1x128.Idx) : (zero1 (F := Ideal) j : EReal) = 0 := by
  unfold zero1 k1_pay2
  rw [shapeCast_self]
  exact Ideal.ofBits_zero_f32

theorem step1_apply (x0 x1 x2 : Vec Ideal S4096x128 .f32) (xw s : Vec Ideal S1x128 .f32) (j : S1x128.Idx) :
    (step1 (F := Ideal) x0 x1 x2 xw s j : EReal) = (s j : EReal) + (if (j 1).val = 0 then term1 x0 x1 x2 xw else 0) := by
  refine (lane0_row s _ j _ _).trans ?_
  refine congrArg (fun t : EReal => (s j : EReal) + t) (if_congr Iff.rfl ?_ rfl)
  refine (blockSum _ _ _ _ _ _ _ _ _).trans ?_
  unfold term1
  refine Finset.sum_congr rfl fun y _ => ?_
  rw [← wselK_eq]
  rfl

end Cert.KernelIdeal.Hand

end
-- ==== Proof.KI.Val1.lean ====
/- Lane 0 of the row region 1 ends with, at the ideal instance: the 64 points' terms added up from zero are the weighted loss
   sum over the whole arrays, because the points' blocks tile the arrays; the weight row is the one the region was entered with. -/
import proofs.«128471_j21895743275016_1_alg».proof.Proof.KI.Arr
import proofs.«128471_j21895743275016_1_alg».proof.Proof.KI.Val1a
import proofs.«128471_j21895743275016_1_alg».proof.Proof.SumSplit

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Spec
open scoped BigOperators

variable (V : (c : Dev nD) → (b : Ref sig .tc) → Buf (Elt Ideal) ((c : Thread nD τ).loc b))

/-- What point `t` adds to lane 0 of the accumulator row: the sum over its blocks. -/
def pterm1 (c : Dev nD) (t : Fin cfg1.N) : EReal :=
  term1 (iblk1 V c 0 t) (iblk1 V c 1 t) (iblk1 V c 2 t) (iblk1 V c 3 t)

/-- Lane 0 after point `n` is the sum of what the points `0 … n` add, from zero. -/
theorem acc1_lane0 (c : Dev nD) : ∀ (n : ℕ) (hn : n < cfg1.N),
    (acc1 (F := Ideal) V c n hn : SR.Idx → EReal) (ix2 0 0) = ∑ t : Fin (n + 1), pterm1 V c ⟨t.val, by omega⟩
  | 0, hn => by
    refine (step1_apply (iblk1 V c 0 ⟨0, hn⟩) (iblk1 V c 1 ⟨0, hn⟩) (iblk1 V c 2 ⟨0, hn⟩) (iblk1 V c 3 ⟨0, hn⟩) zero1 (ix2 0 0)).trans ?_
    have h1 : ((ix2 (0 : Fin 1) (0 : Fin 128) : SR.Idx) 1).val = 0 := rfl
    rw [zero1_apply, if_pos h1, zero_add, Fin.sum_univ_one]
    rfl
  | n + 1, hn => by
    refine (step1_apply (iblk1 V c 0 ⟨n + 1, hn⟩) (iblk1 V c 1 ⟨n + 1, hn⟩) (iblk1 V c 2 ⟨n + 1, hn⟩) (iblk1 V c 3 ⟨n + 1, hn⟩)
      (acc1 (F := Ideal) V c n (Nat.lt_of_succ_lt hn)) (ix2 0 0)).trans ?_
    have h1 : ((ix2 (0 : Fin 1) (0 : Fin 128) : SR.Idx) 1).val = 0 := rfl
    rw [if_pos h1, Fin.sum_univ_castSucc]
    refine congrArg₂ (· + ·) ?_ rfl
    exact acc1_lane0 c n (Nat.lt_of_succ_lt hn)

/-- A block's term, its elements read where they sit in the arrays: block `t` is rows `4096·t … 4096·t + 4095`. -/
theorem term1_eq (x0 x1 x2 : S4096x128.Idx → Ideal .f32) (xw : SR.Idx → Ideal .f32) (P T L : SA.Idx → Ideal .f32) (w : SR.Idx → Ideal .f32)
    (t : Fin 64) (h0 : ∀ r l, x0 (ix2 r l) = P (rowAt t r l)) (h1 : ∀ r l, x1 (ix2 r l) = T (rowAt t r l))
    (h2 : ∀ r l, x2 (ix2 r l) = L (rowAt t r l)) (hw : xw = w) :
    term1 x0 x1 x2 xw = ∑ r : Fin 4096, ∑ l : Fin 128,
      (bce (P (rowAt t r l)) (T (rowAt t r l)) : EReal) * ((wsel w (bin (P (rowAt t r l)) (T (rowAt t r l))) : EReal) * (vf (L (rowAt t r l)) : EReal)) := by
  subst hw
  unfold term1
  rw [sum_idx2]
  refine Finset.sum_congr rfl fun r _ => Finset.sum_congr rfl fun l _ => ?_
  rw [h0, h1, h2]

theorem loss_value (c : Dev nD) :
    (acc1 (F := Ideal) V c 63 (by decide) : SR.Idx → EReal) (ix2 0 0)
      = KLOSS (V c main_arg0 : SA.Idx → Ideal .f32) (V c main_arg1 : SA.Idx → Ideal .f32) (V c main_arg2 : SA.Idx → Ideal .f32) (V c main_v26 : SR.Idx → Ideal .f32) := by
  rw [acc1_lane0 V c 63 (by decide)]
  unfold KLOSS
  rw [sum_split]
  refine Finset.sum_congr rfl fun t _ => ?_
  have ht : t.val < 64 := t.isLt
  have hN : cfg1.N = 64 := N_1
  exact term1_eq (iblk1 V c 0 ⟨t.val, by omega⟩) (iblk1 V c 1 ⟨t.val, by omega⟩) (iblk1 V c 2 ⟨t.val, by omega⟩) (iblk1 V c 3 ⟨t.val, by omega⟩)
    (V c main_arg0) (V c main_arg1) (V c main_arg2) (V c main_v26) t
    (fun r l => iblk1_0_apply V c ⟨t.val, by omega⟩ ht r l) (fun r l => iblk1_1_apply V c ⟨t.val, by omega⟩ ht r l)
    (fun r l => iblk1_2_apply V c ⟨t.val, by omega⟩ ht r l) (iblk1_3_eq V c ⟨t.val, by omega⟩)

end Cert.KernelIdeal.Hand

end
-- ==== Proof.KI.Value.lean ====
/- The kernel program's result at the ideal instance, as one function of the three argument arrays: region 0's row is the
   histogram, the host turns it into `TOT` and the weight row, region 1's lane 0 is the weighted loss sum over that row, and the
   last stretch divides it by `TOT`. -/
import proofs.«128471_j21895743275016_1_alg».proof.Proof.KI.HostVal
import proofs.«128471_j21895743275016_1_alg».proof.Proof.KI.Val0
import proofs.«128471_j21895743275016_1_alg».proof.Proof.KI.Val1

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.Spec
open scoped BigOperators

variable (m : (ℓ : Loc nD τ sig) → Buf (Elt Ideal) ℓ)

theorem result_value (c : Dev nD) :
    (W8 m c (Proc.devRef .tc main_v31) : S_.Idx → Ideal .f32)
      = fun _ => KRES (m ((c : Thread nD τ).loc main_arg0) : SA.Idx → Ideal .f32) (m ((c : Thread nD τ).loc main_arg1) : SA.Idx → Ideal .f32) (m ((c : Thread nD τ).loc main_arg2) : SA.Idx → Ideal .f32) := by
  -- region 0's row is the histogram of the three argument arrays
  have hH : histAt m c = histRow (m ((c : Thread nD τ).loc main_arg0) : SA.Idx → Ideal .f32)
      (m ((c : Thread nD τ).loc main_arg1) : SA.Idx → Ideal .f32) (m ((c : Thread nD τ).loc main_arg2) : SA.Idx → Ideal .f32) :=
    (W1_arr m c 3).trans ((arrAt0_out (V0 m) c).trans (hist_value (V0 m) c))
  -- region 1's row is the accumulator after its last point
  have hA : (W7 m c (Proc.devRef .tc main_v27) : S1x128.Idx → Ideal .f32) = acc1 (V6 m) c 63 (by decide) :=
    (W7_arr m c 4).trans (arrAt1_out (V6 m) c)
  -- region 1 is entered with the argument arrays as launched and the weight row of the histogram
  have e0 : (V6 m c main_arg0 : SA.Idx → Ideal .f32) = (m ((c : Thread nD τ).loc main_arg0) : SA.Idx → Ideal .f32) := W6_main_arg0 m c
  have e1 : (V6 m c main_arg1 : SA.Idx → Ideal .f32) = (m ((c : Thread nD τ).loc main_arg1) : SA.Idx → Ideal .f32) := W6_main_arg1 m c
  have e2 : (V6 m c main_arg2 : SA.Idx → Ideal .f32) = (m ((c : Thread nD τ).loc main_arg2) : SA.Idx → Ideal .f32) := W6_main_arg2 m c
  have e3 : (V6 m c main_v26 : SR.Idx → Ideal .f32) = wrowOf (histAt m c) := W6_main_v26 m c
  -- so lane 0 of region 1's row is the weighted loss sum over that weight row
  have hL : (W7 m c (Proc.devRef .tc main_v27) : S1x128.Idx → Ideal .f32) (ix2 0 0)
      = KLOSS (m ((c : Thread nD τ).loc main_arg0) : SA.Idx → Ideal .f32) (m ((c : Thread nD τ).loc main_arg1) : SA.Idx → Ideal .f32)
          (m ((c : Thread nD τ).loc main_arg2) : SA.Idx → Ideal .f32) (wrowOf (histAt m c)) := by
    rw [hA, loss_value (V6 m) c, e0, e1, e2, e3]
  rw [W8_main_v31 m c, hL, hH]
  rfl

end Cert.KernelIdeal.Hand

end
-- ==== Proof.LibScatterAddSum.lean ====
/- An accumulating float scatter of `M` scalar updates into a one-axis operand of `N` elements, at the ideal instance, read at
   an element `i`: the operand's element plus the sum, over every update `k`, of the update where its index, read as a signed
   integer, is `i` (an index outside `0 .. N − 1` lands nowhere). Stated over abstract sizes `N`, `M`. -/
import Idealize.ShloMosaic.Lib.ValueIdx
import Idealize.ShloMosaic.PureOps.Ideal.Laws

noncomputable section

namespace Cert.LibScatterAddSum

open Idealize.ShloMosaic Idealize.ShloMosaic.ValueIdx
open scoped BigOperators

section BinScatter

/-- The dimension numbers of an accumulating scatter into an operand `[N]`, for scatter indices `[M, 1]` and updates `[M]`:
    no window axis, the operand's one axis inserted and named by the one component of each index vector. -/
abbrev binDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- The scatter-indices index `[k, 0]` of update index `k`. -/
abbrev binIdx {M : Nat} (j : (⟨1, ![M]⟩ : Shape).Idx) : (⟨2, ![M, 1]⟩ : Shape).Idx :=
  fun a => match a with | ⟨0, _⟩ => ⟨(j 0).val, (j 0).isLt⟩ | ⟨1, _⟩ => ⟨0, Nat.one_pos⟩

variable {N M w : Nat} (wf : ScatterDims.WF ⟨1, ![N]⟩ ⟨2, ![M, 1]⟩ ⟨1, ![M]⟩ [] [0] [0] 1)
  (idx : IVec ⟨2, ![M, 1]⟩ w) (j : (⟨1, ![M]⟩ : Shape).Idx)

theorem binDims_start : (binDims N M wf).start j idx 0 = (idx (binIdx j)).toInt := by
  unfold ScatterDims.start
  rw [dif_pos (show (0 : Fin 1) ∈ (binDims N M wf).scatterDimsToOperandDims from List.mem_singleton.mpr rfl)]
  have hsi : (binDims N M wf).siIdx j ⟨List.idxOf (0 : Fin 1) (binDims N M wf).scatterDimsToOperandDims,
      List.idxOf_lt_length_iff.2 (List.mem_singleton.mpr rfl)⟩ = binIdx j := by
    funext b; refine Fin.ext ?_
    match b with
    | ⟨0, _⟩ => rfl
    | ⟨1, _⟩ => rfl
  rw [hsi]

theorem binDims_window : (binDims N M wf).window j 0 = 0 := by
  unfold ScatterDims.window
  rw [dif_neg]
  simp [ScatterDims.sKept, Shape.kept]

/-- Update `k` lands on operand element `i` exactly when its index, read signed, is `i`: an index outside the operand
    lands nowhere. -/
theorem binDims_resultIdx?_iff (i : (⟨1, ![N]⟩ : Shape).Idx) :
    (binDims N M wf).resultIdx? j idx = some i ↔ (idx (binIdx j)).toInt = ((i 0).val : Int) := by
  have hi : (i 0).val < N := (i 0).isLt
  unfold ScatterDims.resultIdx?
  split_ifs with h
  · rw [Option.some.injEq]
    have h0 := h 0
    rw [binDims_start, binDims_window] at h0
    constructor
    · intro he
      have := congrArg Fin.val (congrFun he 0)
      simp only [binDims_start, binDims_window] at this
      omega
    · intro he
      funext a
      obtain rfl : a = 0 := Subsingleton.elim _ _
      refine Fin.ext ?_
      simp only [binDims_start, binDims_window]
      omega
  · constructor
    · intro he; cases he
    · intro he
      exfalso; apply h
      intro a
      obtain rfl : a = 0 := Subsingleton.elim _ _
      rw [binDims_start, binDims_window]
      constructor
      · omega
      · show _ < ((N : Nat) : Int)
        omega

/-- THE SCATTER-ADD READ AT `i`, at the ideal instance: the operand's element plus the sum, over every update, of the
    update where its index is `i`. -/
theorem scatterAdd_bin_apply (x : (⟨1, ![N]⟩ : Shape).Idx → EReal) (upd : (⟨1, ![M]⟩ : Shape).Idx → EReal)
    (i : (⟨1, ![N]⟩ : Shape).Idx) :
    Ideal.hostScatterAdd (binDims N M wf) x idx upd i
      = x i + ∑ k : (⟨1, ![M]⟩ : Shape).Idx, if (idx (binIdx k)).toInt = ((i 0).val : Int) then upd k else 0 := by
  unfold Ideal.hostScatterAdd
  rw [Finset.sum_filter]
  congr 1
  refine Finset.sum_congr rfl (fun k _ => ?_)
  simp only [binDims_resultIdx?_iff]

end BinScatter

end Cert.LibScatterAddSum

end
-- ==== Proof.Ref.Counts.lean ====
/- The reference program's first stages read at the ideal instance: an element's validity flag and bin are the specification's;
   the sum of the flags, capped below by 1, is `TOT`; the scatter-add of the flags by bin into ten zeros is the per-bin count. -/
import proofs.«128471_j21895743275016_1_alg».proof.Proof.RefReadP
import proofs.«128471_j21895743275016_1_alg».proof.Proof.SpecK
import proofs.«128471_j21895743275016_1_alg».proof.Proof.LibScatterAddSum
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.ReferenceIdeal.Hand

open Idealize.ShloMosaic Idealize.ShloMosaic.TcCoe Idealize.ShloMosaic.ValueIdx
open Idealize.SL.Sem
open Cert.ReferenceIdeal Cert.ReferenceIdeal.Gen Cert.ReferenceIdeal.ReadP Cert.Spec Cert.LibScatterAddSum
open scoped BigOperators

section Flat

/-- The row-major position of element `(r, c)` of a 262144 × 128 array: `r · 128 + c`. -/
def flatOf (i : S262144x128.Idx) : S33554432.Idx :=
  ix1 ⟨(i 0).val * 128 + (i 1).val, by
    have h0 : (i 0).val < 262144 := (i 0).isLt
    have h1 : (i 1).val < 128 := (i 1).isLt
    omega⟩

/-- Flat positions and elements correspond one to one: `k ↦ (k / 128, k % 128)`, with inverse `(r, c) ↦ r · 128 + c`. -/
def flatEquiv : S33554432.Idx ≃ S262144x128.Idx where
  toFun := idx_main_v18
  invFun := flatOf
  left_inv k := by
    funext a
    match a with
    | ⟨0, _⟩ =>
      refine Fin.ext ?_
      show (k 0).val / 128 * 128 + (k 0).val % 128 = (k 0).val
      omega
  right_inv i := by
    have h0 : (i 0).val < 262144 := (i 0).isLt
    have h1 : (i 1).val < 128 := (i 1).isLt
    funext a
    match a with
    | ⟨0, _⟩ =>
      refine Fin.ext ?_
      show ((i 0).val * 128 + (i 1).val) / 128 = (i 0).val
      omega
    | ⟨1, _⟩ =>
      refine Fin.ext ?_
      show ((i 0).val * 128 + (i 1).val) % 128 = (i 1).val
      omega

end Flat

theorem flagf_one : flagf 1#1 = (1 : EReal) := by
  show ((((1#1 : BitVec 1).setWidth 32).toInt : ℝ) : EReal) = 1
  have h : ((1#1 : BitVec 1).setWidth 32).toInt = 1 := by decide
  rw [h]; norm_cast

theorem flagf_zero : flagf 0#1 = (0 : EReal) := by
  show ((((0#1 : BitVec 1).setWidth 32).toInt : ℝ) : EReal) = 0
  have h : ((0#1 : BitVec 1).setWidth 32).toInt = 0 := by decide
  rw [h]; norm_cast

/-- Selecting a value where a 32-bit word, read signed, is `b < 10` is multiplying it by the word's mask for bin `b`. -/
theorem ite_toInt_eq_maskf (b : Fin 10) (x : BitVec 32) (v : EReal) :
    (if x.toInt = ((b.val : Nat) : Int) then v else 0) = (maskf (BitVec.ofNat 32 b.val) x : EReal) * v := by
  have hb : ∀ c : Fin 10, (BitVec.ofNat 32 c.val).toInt = ((c.val : Nat) : Int) := by decide
  unfold maskf
  by_cases h : x = BitVec.ofNat 32 b.val
  · have hc : IntOp.cmpi .eq x (BitVec.ofNat 32 b.val) = 1#1 := by simp [IntOp.cmpi, h]
    rw [hc, flagf_one, one_mul, if_pos (by rw [h]; exact hb b)]
  · have hc : IntOp.cmpi .eq x (BitVec.ofNat 32 b.val) = 0#1 := by
      show BitVec.ofBool (x == BitVec.ofNat 32 b.val) = 0#1
      rw [beq_eq_false_iff_ne.mpr h]; rfl
    rw [hc, flagf_zero, zero_mul, if_neg]
    intro hx
    exact h (BitVec.eq_of_toInt_eq (by rw [hx, hb b]))

variable (P T L : (⟨S262144x128, .f32⟩ : BufTy).Contents (Elt Ideal))

/-- A one-bit flag widened signed through 32 bits is the flag widened unsigned: both are the bit's value 0 or 1. -/
theorem flagf_eq_uitofp (b : BitVec 1) : flagf b = FloatOps.uitofp (F := Ideal) .f32 b := by
  show (((b.setWidth 32).toInt : ℝ) : EReal) = ((b.toNat : ℝ) : EReal)
  have h : ∀ c : BitVec 1, (c.setWidth 32).toInt = (c.toNat : Int) := by decide
  rw [h b]; norm_cast

theorem ref_valid (i : S262144x128.Idx) : (val_main_v10 (F := Ideal) L i : Ideal .f32) = vf (L i) := by
  rw [val_main_v10_apply, val_main_v9_apply, val_main_v8_apply, val_main_cst_1_apply, vf, flagf_eq_uitofp]

theorem ref_bin (i : S262144x128.Idx) : val_main_v17 (F := Ideal) P T i = bin (P i) (T i) := by
  rw [val_main_v17_apply, val_main_v16_apply, val_main_c_apply, val_main_v15_apply, val_main_v14_apply,
    val_main_v13_apply, val_main_cst_4_apply, val_main_v7_apply, val_main_v6_apply, val_main_v5_apply,
    val_main_v4_apply, val_main_cst_0_apply, val_main_v3_apply, val_main_v2_apply, val_main_cst_apply,
    val_main_v1_apply, val_main_v0_apply, bin]
  have h1 : (FloatOps.ofBits (F := Ideal) .f32 0x3F800000#32 : Ideal .f32) = (1 : EReal) := by
    show Ideal.ofBits .f32 0x3F800000#32 = 1
    simp [Ideal.ofBits, Ideal.ieee, -EReal.coe_mul]; norm_num
  rw [h1]
  rfl

theorem ref_tot (i : S_.Idx) : (val_main_v12 (F := Ideal) L i : Ideal .f32) = FloatOps.maximumf (TOTRAW (L : SA.Idx → Ideal .f32)) oneI := by
  rw [val_main_v12_apply, val_main_v11_apply, val_main_cst_2_apply, val_main_cst_3_apply]
  have h0 : (FloatOps.ofBits (F := Ideal) .f32 0x00000000#32 : Ideal .f32) = (0 : EReal) := Ideal.ofBits_zero_f32
  rw [h0]
  have hs : (∑ j : S262144x128.Idx, (val_main_v10 (F := Ideal) L) j : EReal) = TOTRAW (L : SA.Idx → Ideal .f32) := by
    unfold TOTRAW
    exact Finset.sum_congr rfl (fun j _ => ref_valid L j)
  rw [hs]
  show FloatOps.maximumf (F := Ideal) (φ := .f32) ((0 : EReal) + TOTRAW (L : SA.Idx → Ideal .f32)) _ = _
  rw [zero_add]
  rfl

theorem ref_counts (b : Fin 10) :
    (val_main_v22 (F := Ideal) P T L (ix1 b) : Ideal .f32) = CNT (P : SA.Idx → Ideal .f32) T L (BitVec.ofNat 32 b.val) := by
  have h22 : val_main_v22 (F := Ideal) P T L
      = Ideal.hostScatterAdd (binDims 10 33554432 Facts₀.scatter_S10_S33554432x1_S33554432_n_0_0_1_wf)
          (val_main_v20 (F := Ideal)) (val_main_v21 (F := Ideal) P T) (val_main_v18 (F := Ideal) L) := rfl
  rw [h22, scatterAdd_bin_apply, val_main_v20_apply, val_main_cst_5_apply]
  have h0 : (FloatOps.ofBits (F := Ideal) .f32 0x00000000#32 : Ideal .f32) = (0 : EReal) := Ideal.ofBits_zero_f32
  rw [h0, zero_add]
  unfold CNT
  rw [← Equiv.sum_comp flatEquiv
    (fun i : SA.Idx => (maskf (BitVec.ofNat 32 b.val) (bin (P i) (T i)) : EReal) * (vf (L i) : EReal))]
  refine Finset.sum_congr rfl (fun k _ => ?_)
  have hidx : idx_main_v19 (idx_main_v21 (binIdx k)) = flatEquiv k := by
    funext a
    match a with
    | ⟨0, _⟩ => rfl
    | ⟨1, _⟩ => rfl
  rw [val_main_v21_apply, val_main_v19_apply, hidx, ref_bin, val_main_v18_apply, ref_valid]
  exact ite_toInt_eq_maskf b _ _

end Cert.ReferenceIdeal.Hand

end
-- ==== Proof.SpecR.lean ====
/- The reference program's result as mathematics, over the same per-element quantities and the same counts: the number of
   non-empty bins is an INTEGER sum of flags; an element's weight is its bin's weight `TOT / max count 1` (zero for an empty bin)
   looked up at the bin index, zeroed where the element is invalid, and divided by that number (converted to a float) when it is
   positive; the result is the sum of the cross-entropy terms times the weights, divided by `TOT`. -/
import proofs.«128471_j21895743275016_1_alg».proof.Proof.SpecK

noncomputable section

namespace Cert.Spec

open Idealize.ShloMosaic Idealize.ShloMosaic.ValueIdx
open scoped BigOperators

variable (P T L : SA.Idx → Ideal .f32)

/-- The cross-entropy term as the reference spells it (a negation where the kernel subtracts from zero). -/
def bceR (p t : Ideal .f32) : Ideal .f32 :=
  FloatOps.addf (FloatOps.subf (FloatOps.maximumf p zeroI) (FloatOps.mulf p t))
    (FloatOps.hostUnary .log1p (FloatOps.hostUnary .exp (FloatOps.hostNegf (FloatOps.hostAbsf p))))

/-- The number of non-empty bins, as the reference's 32-bit integer sum of ten flags from zero. -/
def nneR : BitVec 32 :=
  (List.finRange 10).foldl (fun acc b => IntOp.addi acc ((FloatOps.cmpf (F := Ideal) .ogt (CNT P T L (BitVec.ofNat 32 b.val)) zeroI).setWidth 32)) 0#32

def totR : Ideal .f32 := FloatOps.maximumf (TOTRAW L) oneI

/-- Bin `b`'s weight before normalisation. -/
def pbwR (b : Fin 10) : Ideal .f32 :=
  Scalar.select (FloatOps.cmpf (F := Ideal) .ogt (CNT P T L (BitVec.ofNat 32 b.val)) zeroI)
    (FloatOps.hostDivf (totR L) (FloatOps.maximumf (CNT P T L (BitVec.ofNat 32 b.val)) oneI)) zeroI

/-- The lookup position of a bin index: a negative index counts from the end, and the result is clamped into 0..9. -/
def lookR (x : BitVec 32) : Fin 10 :=
  let y : BitVec 32 := Scalar.select (IntOp.cmpi .slt x 0#32) (IntOp.addi x 10#32) x
  ⟨(max 0 (min 9 y.toInt)).toNat, by omega⟩

/-- An element's weight. -/
def wR (i : SA.Idx) : Ideal .f32 :=
  let v : Ideal .f32 := Scalar.select (FloatOps.cmpf (F := Ideal) .ogt (L i) zeroI) (pbwR P T L (lookR (bin (P i) (T i)))) zeroI
  Scalar.select (IntOp.cmpi .sgt (nneR P T L) 0#32) (FloatOps.hostDivf v (FloatOps.sitofp (F := Ideal) .f32 (nneR P T L))) v

/-- The reference program's result. -/
def RRES : Ideal .f32 :=
  FloatOps.mulf (FloatOps.hostDivf (zeroI + ∑ i : SA.Idx, (FloatOps.mulf (bceR (P i) (T i)) (wR P T L i) : EReal)) (totR L)) oneI

end Cert.Spec

end
-- ==== Proof.Ref.Value.lean ====
/- The reference program's result read at the ideal instance: the stages after the counts — the integer number of non-empty
   bins, the per-bin weights, the lookup by bin, the masking, the normalisation, the cross-entropy terms and the final sum and
   quotient — are the specification's `RRES`. -/
import proofs.«128471_j21895743275016_1_alg».proof.Proof.Ref.Counts
import proofs.«128471_j21895743275016_1_alg».proof.Proof.SpecR
import Idealize.ShloMosaic.PureOps.Reduce

set_option maxRecDepth 16384

noncomputable section

namespace Cert.ReferenceIdeal.Hand

open Idealize.ShloMosaic Idealize.ShloMosaic.TcCoe Idealize.ShloMosaic.ValueIdx
open Idealize.SL.Sem
open Cert.ReferenceIdeal Cert.ReferenceIdeal.Gen Cert.ReferenceIdeal.ReadP Cert.Spec
open scoped BigOperators

/-- The row-major positions of a rank-1 shape, listed in order, are its coordinates in order. -/
theorem finRange_map_rowMajor_symm_one (N : Nat) :
    (List.finRange (⟨1, ![N]⟩ : Shape).numel).map (⟨1, ![N]⟩ : Shape).rowMajor.symm
      = (List.finRange N).map (fun b => ix1 b) := by
  have hN : (⟨1, ![N]⟩ : Shape).numel = N := by simp [Shape.numel]
  apply List.ext_getElem
  · simp [hN]
  · intro k h1 h2
    simp only [List.getElem_map, List.getElem_finRange]
    rw [Equiv.symm_apply_eq]
    apply Fin.ext
    rw [Shape.rowMajor_val_one]
    rfl

/-- A reduce of a vector of ten over its one axis into a scalar is the left fold over the ten coordinates in order. -/
theorem reduce_S10 {α : Type} (f : α → α → α) (x : S10.Idx → α) (init : S_.Idx → α)
    (h' : S10.ReducesTo [0] S_) (hu : 0 < S_.numel) (j : S_.Idx) :
    Host.reduce f x init h' hu j
      = (List.finRange 10).foldl (fun acc b => f acc (x (ix1 b))) (init (Shape.Idx.first hu)) := by
  rw [Host.reduce_eq_foldl]
  rw [List.filter_eq_self.2 (fun i _ => decide_eq_true (funext fun a => a.elim0))]
  rw [finRange_map_rowMajor_symm_one, List.foldl_map]

variable (P T L : (⟨S262144x128, .f32⟩ : BufTy).Contents (Elt Ideal))

/-- The integer number of non-empty bins. -/
theorem ref_nne (i : S_.Idx) : val_main_v26 (F := Ideal) P T L i = nneR (P : SA.Idx → Ideal .f32) T L := by
  have hf : (fun (acc : BitVec 32) (b : Fin 10) => IntOp.addi acc (val_main_v25 (F := Ideal) P T L (ix1 b)))
      = fun acc b => IntOp.addi acc ((FloatOps.cmpf (F := Ideal) .ogt (CNT (P : SA.Idx → Ideal .f32) T L (BitVec.ofNat 32 b.val)) zeroI).setWidth 32) := by
    funext acc b
    rw [val_main_v25_apply, val_main_v24_apply, ref_counts, val_main_v23_apply]
    rfl
  unfold val_main_v26
  rw [reduce_S10, hf]
  rfl

/-- Bin `b`'s weight before normalisation. -/
theorem ref_pbw (b : Fin 10) :
    (val_main_v33 (F := Ideal) P T L (ix1 b) : Ideal .f32) = pbwR (P : SA.Idx → Ideal .f32) T L b := by
  rw [val_main_v33_apply, val_main_v28_apply, val_main_v32_apply, val_main_v31_apply, val_main_v30_apply, ref_counts, ref_tot,
    val_main_v27_apply, val_main_v29_apply, val_main_call0_v1_apply]
  rfl

/-- The lookup index: the bin, with ten added where it is negative. -/
theorem ref_look (j : S262144x128.Idx) :
    val_main_v38 (F := Ideal) P T j
      = Scalar.select (IntOp.cmpi .slt (bin (P j) (T j)) 0#32) (IntOp.addi (bin (P j) (T j)) 10#32) (bin (P j) (T j)) := by
  rw [val_main_v38_apply, val_main_v35_apply, val_main_v37_apply, ref_bin, val_main_v34_apply, val_main_v36_apply]
  rfl

/-- The gather of a vector of ten at an array of start indices with a trailing unit axis reads the vector at the start
    index, read signed and clamped into 0..9. -/
theorem gather_S10_apply {α : Type} (x : S10.Idx → α) (idx : IVec S262144x128x1 32) (j : S262144x128.Idx) :
    Host.gather gather_S10_S262144x128x1_S262144x128_n_0_n_n_0_2_1 x idx j
      = x (ix1 ⟨min (idx (takeIdx j)).toInt.toNat 9, by omega⟩) :=
  gather_take_apply (N := 10) (R := 262144) (C := 128) (by decide)
    Facts₀.gather_S10_S262144x128x1_S262144x128_n_0_n_n_0_2_1_wf x idx j

/-- The start index the lookup reads at an element. -/
theorem ref_start (j : S262144x128.Idx) :
    val_main_v39 (F := Ideal) P T (takeIdx j)
      = Scalar.select (IntOp.cmpi .slt (bin (P j) (T j)) 0#32) (IntOp.addi (bin (P j) (T j)) 10#32) (bin (P j) (T j)) := by
  have hidx : idx_main_v39 (takeIdx j) = j :=
    funext fun a => Fin.ext (by match a with | ⟨0, _⟩ => rfl | ⟨1, _⟩ => rfl)
  rw [val_main_v39_apply, hidx, ref_look]

/-- The clamped start index is the specification's lookup position. -/
theorem look_eq (x y : BitVec 32)
    (hy : y = Scalar.select (IntOp.cmpi .slt x 0#32) (IntOp.addi x 10#32) x) (h : min y.toInt.toNat 9 < 10) :
    (⟨min y.toInt.toNat 9, h⟩ : Fin 10) = lookR x := by
  refine Fin.ext ?_
  show min y.toInt.toNat 9
    = (max 0 (min 9 (Scalar.select (IntOp.cmpi .slt x 0#32) (IntOp.addi x 10#32) x).toInt)).toNat
  rw [← hy]
  omega

/-- The lookup: the weight of the element's bin. -/
theorem ref_gather (j : S262144x128.Idx) :
    (val_main_v40 (F := Ideal) P T L j : Ideal .f32) = pbwR (P : SA.Idx → Ideal .f32) T L (lookR (bin (P j) (T j))) := by
  unfold val_main_v40
  rw [gather_S10_apply, ref_pbw]
  exact congrArg (pbwR (P : SA.Idx → Ideal .f32) T L) (look_eq _ _ (ref_start P T j) _)

/-- An element's weight. -/
theorem ref_w (j : S262144x128.Idx) :
    (val_main_v46 (F := Ideal) P T L j : Ideal .f32) = wR (P : SA.Idx → Ideal .f32) T L j := by
  unfold val_main_v46
  rw [select_apply,
    broadcastInDim_apply _ bcast_S_S262144x128 (val_main_v42 (F := Ideal) P T L) j (fun a => a.elim0) (fun a => a.elim0)]
  rw [val_main_v45_apply, val_main_v44_apply, val_main_v43_apply, val_main_v42_apply, val_main_v41_apply, ref_nne, ref_gather,
    val_main_v9_apply, val_main_v8_apply, val_main_call1_v1_apply, val_main_c_14_apply]
  rfl

/-- An element's cross-entropy term. -/
theorem ref_bce (j : S262144x128.Idx) :
    (val_main_v55 (F := Ideal) P T j : Ideal .f32) = bceR (P j) (T j) := by
  rw [val_main_v55_apply, val_main_v50_apply, val_main_v48_apply, val_main_v47_apply, val_main_v49_apply, val_main_v54_apply,
    val_main_v53_apply, val_main_v52_apply, val_main_v51_apply]
  rfl

theorem ref_value :
    (val_main_v59 (F := Ideal) P T L : S_.Idx → Ideal .f32) = fun _ => RRES (P : SA.Idx → Ideal .f32) T L := by
  funext i
  have hs : (∑ j : S262144x128.Idx, val_main_v56 (F := Ideal) P T L j)
      = ∑ j : SA.Idx, (FloatOps.mulf (bceR (P j) (T j)) (wR (P : SA.Idx → Ideal .f32) T L j) : EReal) :=
    Finset.sum_congr rfl fun j _ => by rw [val_main_v56_apply, ref_bce, ref_w]
  rw [val_main_v59_apply, val_main_v58_apply, val_main_v57_apply, ref_tot, hs]
  rfl

end Cert.ReferenceIdeal.Hand

end
-- ==== Proof.BridgeLem.lean ====
/- Facts about extended reals, 32-bit integers and one-bit flags used to compare the two results. -/
import Idealize.ShloMosaic.PureOps.Ideal
import Mathlib.Algebra.BigOperators.Fin

noncomputable section

namespace Cert.Spec

open Idealize.ShloMosaic
open scoped BigOperators

/-- The absolute value is never negative. -/
theorem absE_nonneg (x : EReal) : (0 : EReal) ≤ max x (-x) := by
  rcases le_total 0 x with h | h
  · exact le_max_of_le_left h
  · refine le_max_of_le_right ?_
    have := EReal.neg_le_neg_iff.2 h
    simpa using this

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
theorem ofBits_ten : Ideal.ofBits .f32 0x41200000#32 = ((10 : ℝ) : EReal) := by
  simp [Ideal.ofBits, Ideal.ieee, -EReal.coe_mul]; norm_num

/-- Truncating a non-negative number and clamping it into a range around zero gives a non-negative integer. -/
theorem toIntClamped_nonneg {lo hi : ℤ} (hlo : lo ≤ 0) (hhi : 0 ≤ hi) {y : EReal} (hy : 0 ≤ y) :
    0 ≤ Ideal.toIntClamped lo hi y ∧ Ideal.toIntClamped lo hi y ≤ hi := by
  induction y using EReal.rec with
  | bot => exact absurd hy (by simp)
  | top => rw [Ideal.toIntClamped_top]; omega
  | coe r =>
    have hr : 0 ≤ r := EReal.coe_nonneg.1 hy
    have hf : 0 ≤ ⌊r⌋ := Int.floor_nonneg.2 hr
    rw [Ideal.toIntClamped_coe, if_pos hr]
    omega

theorem fptosi_nonneg {y : EReal} (hy : 0 ≤ y) :
    ∃ k : ℕ, k < 2 ^ 31 ∧ Ideal.fptosi 32 y = BitVec.ofNat 32 k := by
  obtain ⟨h0, h1⟩ := toIntClamped_nonneg (lo := -((2 ^ (32 - 1) : ℕ) : ℤ)) (hi := ((2 ^ (32 - 1) : ℕ) : ℤ) - 1)
    (by norm_num) (by norm_num) hy
  obtain ⟨k, hk⟩ := Int.eq_ofNat_of_zero_le h0
  refine ⟨k, ?_, ?_⟩
  · rw [hk] at h1; norm_num at h1; omega
  · rw [Ideal.fptosi, hk, BitVec.ofInt_natCast]

theorem toInt_small {k : ℕ} (hk : k < 2 ^ 31) : (BitVec.ofNat 32 k).toInt = (k : ℤ) := by
  rw [BitVec.toInt_ofNat']
  apply Int.bmod_eq_of_le <;> omega

/-- A non-negative number truncated to a 32-bit integer and capped at 9 is one of 0, …, 9. -/
theorem minsi_fptosi_range {y : EReal} (hy : 0 ≤ y) :
    ∃ j : Fin 10, IntOp.minsi (Ideal.fptosi 32 y) 9#32 = BitVec.ofNat 32 j.val := by
  obtain ⟨k, hk, he⟩ := fptosi_nonneg hy
  rw [he, IntOp.minsi, BitVec.slt_eq_decide, toInt_small hk]
  have h9 : (9#32).toInt = 9 := by decide
  rw [h9]
  by_cases h : k < 9
  · exact ⟨⟨k, by omega⟩, by rw [if_pos (by simpa using h)]⟩
  · exact ⟨⟨9, by omega⟩, by rw [if_neg (by simpa using h)]⟩

theorem bit_cases (b : BitVec 1) : b = 0#1 ∨ b = 1#1 := by
  revert b; decide

/-- A bit widened to 32 bits and read as a signed integer is 0 or 1. -/
theorem sitofp_flag (b : BitVec 1) : (((b.setWidth 32).toInt : ℝ) : EReal) = if b = 1#1 then 1 else 0 := by
  rcases bit_cases b with rfl | rfl
  · have : ((0#1).setWidth 32).toInt = 0 := by decide
    rw [this]; simp
  · have : ((1#1).setWidth 32).toInt = 1 := by decide
    rw [this]; simp

theorem uitofp_flag (b : BitVec 1) : ((b.toNat : ℝ) : EReal) = if b = 1#1 then 1 else 0 := by
  rcases bit_cases b with rfl | rfl <;> simp

/-- The 32-bit sum of a list of widened bits, from `a`, is `a` plus the number of set bits. -/
theorem foldl_flags {α : Type} (f : α → BitVec 1) (l : List α) (a : BitVec 32) :
    l.foldl (fun acc b => IntOp.addi acc ((f b).setWidth 32)) a
      = a + BitVec.ofNat 32 ((l.map fun b => (f b).toNat).sum) := by
  induction l generalizing a with
  | nil => simp
  | cons x xs ih =>
    rw [List.foldl_cons, ih, List.map_cons, List.sum_cons, BitVec.ofNat_add, IntOp.addi, BitVec.add_assoc]
    congr 2
    apply BitVec.eq_of_toNat_eq
    simp

theorem flags_le {n : ℕ} (f : Fin n → BitVec 1) : ∑ b : Fin n, (f b).toNat ≤ n := by
  calc ∑ b : Fin n, (f b).toNat ≤ ∑ _b : Fin n, 1 := Finset.sum_le_sum (fun b _ => by
        rcases bit_cases (f b) with h | h <;> rw [h] <;> decide)
    _ = n := by simp

end Cert.Spec

end
-- ==== Proof.BridgeA.lean ====
/- Facts about a bin index: it is one of 0..9 (the gradient magnitude is not negative and the conversion to an integer clamps), and on
   such an index the kernel's ten-way cascade over the weight row reads the row's lane of that index, and the reference's lookup
   position is that index. -/
import proofs.«128471_j21895743275016_1_alg».proof.Proof.SpecK
import proofs.«128471_j21895743275016_1_alg».proof.Proof.SpecR

noncomputable section

namespace Cert.Spec

open Idealize.ShloMosaic Idealize.ShloMosaic.ValueIdx
open scoped BigOperators

/-- The pattern `0x41200000` is the real ten. -/
theorem ofBits_ten_f32 : Ideal.ofBits .f32 0x41200000#32 = ((10 : ℝ) : EReal) := by
  simp [Ideal.ofBits, Ideal.ieee, -EReal.coe_mul]; norm_num

/-- An absolute value is not negative, at the infinities too. -/
theorem absf_nonneg (y : EReal) : 0 ≤ max y (-y) := by
  rcases le_total 0 y with h | h
  · exact le_max_of_le_left h
  · exact le_max_of_le_right (EReal.neg_nonneg.mpr h)

/-- The clamped integer part of an extended real that is not negative lies between zero and the upper end. -/
theorem toIntClamped_range (x : EReal) (hx : 0 ≤ x) (lo hi : ℤ) (hlo : lo ≤ 0) (hhi : 0 ≤ hi) :
    0 ≤ Ideal.toIntClamped lo hi x ∧ Ideal.toIntClamped lo hi x ≤ hi := by
  induction x using EReal.rec with
  | bot => exact absurd hx (by simp)
  | top => rw [Ideal.toIntClamped_top]; exact ⟨hhi, le_refl _⟩
  | coe r =>
    have hr : 0 ≤ r := by exact_mod_cast hx
    rw [Ideal.toIntClamped_coe, if_pos hr]
    have := Int.floor_nonneg.mpr hr
    omega

/-- The signed minimum with nine of the word of an integer in `[0, 2^31)` is one of the words 0..9. -/
theorem minsi_nine_range (z : ℤ) (h0 : 0 ≤ z) (h1 : z ≤ 2147483647) :
    ∃ k : Fin 10, IntOp.minsi (BitVec.ofInt 32 z) 9#32 = BitVec.ofNat 32 k.val := by
  have hz : (BitVec.ofInt 32 z).toInt = z := by
    rw [BitVec.toInt_ofInt]; unfold Int.bmod; norm_num; omega
  have h9 : (9#32 : BitVec 32).toInt = 9 := by decide
  unfold IntOp.minsi
  by_cases hlt : z < 9
  · rw [if_pos (by rw [BitVec.slt, hz, h9]; exact decide_eq_true hlt)]
    refine ⟨⟨z.toNat, by omega⟩, ?_⟩
    show BitVec.ofInt 32 z = BitVec.ofNat 32 z.toNat
    conv_lhs => rw [← Int.toNat_of_nonneg h0]
    exact BitVec.ofInt_natCast _ _
  · rw [if_neg (by rw [BitVec.slt, hz, h9]; simpa using hlt)]
    exact ⟨9, rfl⟩

/-- Every bin index is one of 0..9. -/
theorem bin_range (p t : Ideal .f32) : ∃ k : Fin 10, bin p t = BitVec.ofNat 32 k.val := by
  have hX : (0 : EReal) ≤ max (Ideal.logistic p - t) (-(Ideal.logistic p - t)) * Ideal.ofBits .f32 0x41200000#32 := by
    refine EReal.mul_nonneg (absf_nonneg _) ?_
    rw [ofBits_ten_f32]; exact_mod_cast (by norm_num : (0 : ℝ) ≤ 10)
  obtain ⟨hz0, hz1⟩ := toIntClamped_range _ hX (-(2 ^ (32 - 1) : ℕ)) ((2 ^ (32 - 1) : ℕ) - 1) (by norm_num) (by norm_num)
  exact minsi_nine_range _ hz0 (by norm_num at hz1 ⊢; exact hz1)

/-- The two flags as floats. -/
theorem flagf_zero : flagf 0#1 = 0 := by
  show ((((0#1 : BitVec 1).setWidth 32).toInt : ℝ) : EReal) = 0
  rw [show ((0#1 : BitVec 1).setWidth 32).toInt = 0 from by decide]; simp
theorem flagf_one : flagf 1#1 = 1 := by
  show ((((1#1 : BitVec 1).setWidth 32).toInt : ℝ) : EReal) = 1
  rw [show ((1#1 : BitVec 1).setWidth 32).toInt = 1 from by decide]; simp

/-- A lane below 10 of the weight row is that bin's normalised weight. -/
theorem wrowOf_lane (h : SR.Idx → Ideal .f32) (k : Fin 10) : wrowOf h (ix2 0 (Fin.castLE (by decide) k)) = normOf h k := by
  unfold wrowOf
  exact dif_pos (show ((ix2 (0 : Fin 1) (Fin.castLE (by decide : 10 ≤ 128) k) : SR.Idx) 1).val < 10 from k.isLt)

/-- The cascade over the weight row of a histogram row, at bin `k`, is bin `k`'s normalised weight. -/
theorem wsel_wrowOf (h : SR.Idx → Ideal .f32) (k : Fin 10) : wsel (wrowOf h) (BitVec.ofNat 32 k.val) = normOf h k := by
  rw [← wrowOf_lane h k]
  fin_cases k <;> simp [wsel, Scalar.select, IntOp.cmpi] <;> rfl

/-- The reference's lookup position of bin `k` is `k`. -/
theorem lookR_ofNat (k : Fin 10) : lookR (BitVec.ofNat 32 k.val) = k := by
  fin_cases k <;> decide

/-- A flag is 0 or 1. -/
theorem flagf_cases (b : BitVec 1) : (flagf b : EReal) = 0 ∨ (flagf b : EReal) = 1 := by
  rcases BitVec.eq_zero_or_eq_one b with h | h <;> subst h
  · exact Or.inl flagf_zero
  · exact Or.inr flagf_one

/-- A lane `k < 10` of the histogram row is bin `k`'s count, lane 10 the number of valid elements. -/
theorem cntOf_histRow (P T L : SA.Idx → Ideal .f32) (k : Fin 10) : cntOf (histRow P T L) k = CNT P T L (BitVec.ofNat 32 k.val) := by
  unfold cntOf histRow
  exact if_pos (show ((ix2 (0 : Fin 1) (Fin.castLE (by decide : 10 ≤ 128) k) : SR.Idx) 1).val < 10 from k.isLt)
theorem totOf_histRow (P T L : SA.Idx → Ideal .f32) : totOf (histRow P T L) = totR L := by
  unfold totOf totR histRow
  rw [if_neg (show ¬ ((ix2 (0 : Fin 1) (10 : Fin 128) : SR.Idx) 1).val < 10 from by decide),
    if_pos (show ((ix2 (0 : Fin 1) (10 : Fin 128) : SR.Idx) 1).val = 10 from by decide)]

end Cert.Spec

end
-- ==== Proof.BridgeB.lean ====
/- The number of non-empty bins two ways: the kernel adds ten 0/1 flags as floats, the reference adds them as 32-bit integers and
   converts; the two are one number, a natural number at most 10, positive together, and at least 1 when positive (so the kernel's
   division by its maximum with 1 is the reference's division by it). -/
import proofs.«128471_j21895743275016_1_alg».proof.Proof.SpecK
import proofs.«128471_j21895743275016_1_alg».proof.Proof.SpecR
import Mathlib.Algebra.BigOperators.Fin
import Mathlib.Tactic.IntervalCases
import Mathlib.Tactic.NormNum

noncomputable section

namespace Cert.Spec

open Idealize.ShloMosaic Idealize.ShloMosaic.ValueIdx
open scoped BigOperators

variable (P T L : SA.Idx → Ideal .f32)

namespace NNE

/-- Bin `b`'s flag: 1 where the bin has a valid element, 0 elsewhere. -/
def flagK (b : Fin 10) : BitVec 1 := FloatOps.cmpf (F := Ideal) .ogt (CNT P T L (BitVec.ofNat 32 b.val)) zeroI

/-- The number of non-empty bins, as a natural number: the ten flags added up. -/
def nneN : ℕ := ((List.finRange 10).map fun b => (flagK P T L b).toNat).sum

theorem zeroI_eq : (zeroI : EReal) = 0 := by
  unfold zeroI; simp [Ideal.ofBits, Ideal.ieee]

theorem oneI_eq : (oneI : EReal) = 1 := by
  unfold oneI; simp [Ideal.ofBits, Ideal.ieee, -EReal.coe_mul]; norm_num

/-- Lane `b < 10` of the histogram row is bin `b`'s count. -/
theorem cntOf_histRow' (b : Fin 10) : cntOf (histRow P T L) b = CNT P T L (BitVec.ofNat 32 b.val) := by
  unfold cntOf histRow
  exact if_pos b.isLt

/-- A float sum of 0/1 flags is the natural-number sum. -/
theorem sum_flags_list (f : Fin 10 → BitVec 1) (l : List (Fin 10)) :
    (l.map fun b => (((f b).toNat : ℝ) : EReal)).sum = ((((l.map fun b => (f b).toNat).sum : ℕ) : ℝ) : EReal) := by
  induction l with
  | nil => simp
  | cons a l ih => rw [List.map_cons, List.sum_cons, List.map_cons, List.sum_cons, ih, Nat.cast_add, EReal.coe_add]

/-- A 32-bit integer sum of 0/1 flags, from `a`, is `a` plus the natural-number sum, as a 32-bit integer. -/
theorem foldl_flags (f : Fin 10 → BitVec 1) (l : List (Fin 10)) (a : BitVec 32) :
    l.foldl (fun acc b => IntOp.addi acc ((f b).setWidth 32)) a = BitVec.ofNat 32 (a.toNat + (l.map fun b => (f b).toNat).sum) := by
  induction l generalizing a with
  | nil => simp
  | cons x l ih =>
    rw [List.foldl_cons, ih, List.map_cons, List.sum_cons]
    apply BitVec.eq_of_toNat_eq
    simp only [BitVec.toNat_ofNat, IntOp.addi, BitVec.toNat_add, BitVec.toNat_setWidth]
    have := (f x).isLt
    omega

/-- A sum of 0/1 flags is at most their number. -/
theorem sum_le_len (f : Fin 10 → BitVec 1) (l : List (Fin 10)) : (l.map fun b => (f b).toNat).sum ≤ l.length := by
  induction l with
  | nil => simp
  | cons a l ih => rw [List.map_cons, List.sum_cons, List.length_cons]; have := (f a).isLt; omega

theorem nneN_le : nneN P T L ≤ 10 := by
  have h := sum_le_len (flagK P T L) (List.finRange 10)
  rw [List.length_finRange] at h
  exact h

/-- Ten 0/1 flags added as floats from zero: the natural-number sum. -/
theorem sum_flags_fin (f : Fin 10 → BitVec 1) :
    (0 : EReal) + ∑ b : Fin 10, (((f b).toNat : ℝ) : EReal) = ((((List.finRange 10).map fun b => (f b).toNat).sum : ℕ) : ℝ) := by
  rw [zero_add, Fin.sum_univ_def]
  exact sum_flags_list f (List.finRange 10)

/-- Bin `b`'s flag as the kernel widens it to a float. -/
theorem uflag_eq (b : Fin 10) :
    (FloatOps.uitofp (F := Ideal) .f32 (FloatOps.cmpf (F := Ideal) .ogt (cntOf (histRow P T L) b) zeroI) : EReal)
      = (((flagK P T L b).toNat : ℝ) : EReal) := by
  rw [cntOf_histRow']; rfl

/-- The kernel's float sum is that natural number. -/
theorem nneOf_nat : (nneOf (histRow P T L) : EReal) = ((nneN P T L : ℝ) : EReal) := by
  unfold nneOf nneN
  simp only [uflag_eq]
  rw [zeroI_eq]
  exact sum_flags_fin (flagK P T L)

/-- The reference's integer sum is that natural number. -/
theorem nneR_nat : nneR P T L = BitVec.ofNat 32 (nneN P T L) := by
  unfold nneR
  refine (foldl_flags (flagK P T L) (List.finRange 10) 0#32).trans ?_
  rw [show (0#32).toNat = 0 from rfl, Nat.zero_add]
  rfl

end NNE

open NNE

/-- The float sum of the flags is the integer sum converted. -/
theorem nneOf_eq : (nneOf (histRow P T L) : EReal) = (FloatOps.sitofp (F := Ideal) .f32 (nneR P T L) : EReal) := by
  rw [nneOf_nat, nneR_nat]
  show _ = (((BitVec.ofNat 32 (nneN P T L)).toInt : ℝ) : EReal)
  have hn := nneN_le P T L
  have h : (BitVec.ofNat 32 (nneN P T L)).toInt = (nneN P T L : ℤ) := by
    generalize nneN P T L = n at hn
    interval_cases n <;> rfl
  rw [h, Int.cast_natCast]

/-- They are positive together. -/
theorem nne_pos_iff : FloatOps.cmpf (F := Ideal) .ogt (nneOf (histRow P T L)) zeroI = IntOp.cmpi .sgt (nneR P T L) 0#32 := by
  rw [nneR_nat]
  show Ideal.cmp .ogt (nneOf (histRow P T L)) zeroI = _
  rw [nneOf_nat, zeroI_eq]
  have hn := nneN_le P T L
  generalize nneN P T L = n at hn
  show BitVec.ofBool (decide ((0 : EReal) < ((n : ℝ) : EReal))) = BitVec.ofBool ((0#32).slt (BitVec.ofNat 32 n))
  have h1 : decide ((0 : EReal) < ((n : ℝ) : EReal)) = decide (0 < n) := by
    simp [EReal.coe_pos]
  have h2 : (0#32).slt (BitVec.ofNat 32 n) = decide (0 < n) := by
    interval_cases n <;> decide
  rw [h1, h2]

/-- When positive the number is at least 1. -/
theorem nne_max (hpos : IntOp.cmpi .sgt (nneR P T L) 0#32 = 1#1) :
    FloatOps.maximumf (nneOf (histRow P T L)) oneI = nneOf (histRow P T L) := by
  show max (nneOf (histRow P T L)) oneI = nneOf (histRow P T L)
  rw [nneR_nat] at hpos
  rw [nneOf_nat, oneI_eq]
  have hn := nneN_le P T L
  generalize nneN P T L = n at hn hpos
  have h1 : 1 ≤ n := by
    rcases Nat.eq_zero_or_pos n with h | h
    · subst h; exact absurd hpos (by decide)
    · exact h
  apply max_eq_left
  rw [← EReal.coe_one]
  exact EReal.coe_le_coe_iff.mpr (by exact_mod_cast h1)

end Cert.Spec

end
-- ==== Proof.Bridge.lean ====
/- The two results are one number. With every bin index in 0..9 (the gradient magnitude is never negative and the conversion
   clamps), the kernel's ten-way cascade over the weight row is the reference's lookup; the float sum of the ten flags is the
   integer sum converted; where that number is positive it is at least 1, so dividing by `max n 1` is dividing by `n`; and a
   weight times a 0/1 validity flag is the weight masked by validity. -/
import proofs.«128471_j21895743275016_1_alg».proof.Proof.SpecK
import proofs.«128471_j21895743275016_1_alg».proof.Proof.SpecR
import proofs.«128471_j21895743275016_1_alg».proof.Proof.BridgeLem
import proofs.«128471_j21895743275016_1_alg».proof.Proof.BridgeA
import proofs.«128471_j21895743275016_1_alg».proof.Proof.BridgeB

noncomputable section

namespace Cert.Spec

open Idealize.ShloMosaic Idealize.ShloMosaic.ValueIdx
open scoped BigOperators

/-- The zero constant is the number 0. -/
private theorem kr_zero : (zeroI : EReal) = 0 := ofBits_zero

/-- A flag is 1 on a set bit and 0 on a clear one. -/
private theorem kr_flag (b : BitVec 1) : (flagf b : EReal) = if b = 1#1 then 1 else 0 := sitofp_flag b

/-- A positive 32-bit integer converts to a non-zero number. -/
private theorem kr_sitofp_ne_zero {x : BitVec 32} (h : IntOp.cmpi .sgt x 0#32 = 1#1) :
    (FloatOps.sitofp (F := Ideal) .f32 x : EReal) ≠ 0 := by
  have hlt : (0#32).slt x = true := by
    change BitVec.ofBool ((0#32).slt x) = 1#1 at h
    cases hb : (0#32).slt x with
    | true => rfl
    | false => rw [hb] at h; exact absurd h (by decide)
  rw [BitVec.slt_eq_decide, decide_eq_true_eq] at hlt
  have h0 : (0#32).toInt = 0 := by decide
  rw [h0] at hlt
  show ((x.toInt : ℝ) : EReal) ≠ 0
  have hr : (x.toInt : ℝ) ≠ 0 := by exact_mod_cast hlt.ne'
  exact_mod_cast hr

/-- The two spellings of the cross-entropy term are one number. -/
private theorem kr_bce (p t : Ideal .f32) : bce p t = bceR p t := by
  have hz : (FloatOps.ofBits (F := Ideal) .f32 0x00000000#32 : EReal) = 0 := ofBits_zero
  unfold bce bceR zeroI
  rw [hz]
  show max p 0 - p * t + Ideal.log1p (Ideal.exp (0 - max p (-p)))
     = max p 0 - p * t + Ideal.log1p (Ideal.exp (-(max p (-p))))
  rw [zero_sub]

/-- An element's weight in the kernel program (its bin's lane of the weight row, times its validity) is its weight in the
    reference. -/
private theorem kr_weight (P T L : SA.Idx → Ideal .f32) (i : SA.Idx) :
    (wsel (wrowOf (histRow P T L)) (bin (P i) (T i)) : EReal) * (vf (L i) : EReal) = wR P T L i := by
  obtain ⟨k, hk⟩ := bin_range (P i) (T i)
  have hpbw : pbwOf (histRow P T L) k = pbwR P T L k := by
    unfold pbwOf pbwR; rw [cntOf_histRow, totOf_histRow]
  unfold wR
  rw [hk, wsel_wrowOf, lookR_ofNat]
  unfold normOf vf
  rw [hpbw, nne_pos_iff, kr_flag]
  unfold zeroI
  rcases bit_cases (FloatOps.cmpf (F := Ideal) .ogt (L i) (FloatOps.ofBits (F := Ideal) .f32 0x00000000#32)) with hc | hc
  · -- an invalid element: both weights are zero
    rw [hc]
    rcases bit_cases (IntOp.cmpi .sgt (nneR P T L) 0#32) with hd | hd
    · rw [hd]; simp [Scalar.select, Ideal.ofBits, Ideal.ieee]
    · have hne := kr_sitofp_ne_zero hd
      rw [hd]
      simp [Scalar.select, Ideal.ofBits, Ideal.ieee, Ideal.div, hne]
  · -- a valid element
    rw [hc]
    rcases bit_cases (IntOp.cmpi .sgt (nneR P T L) 0#32) with hd | hd
    · rw [hd]; simp [Scalar.select]
    · rw [hd, nne_max P T L hd, nneOf_eq]; simp [Scalar.select]

theorem kres_eq_rres (P T L : SA.Idx → Ideal .f32) : KRES P T L = RRES P T L := by
  have hsum : KLOSS P T L (wrowOf (histRow P T L))
      = zeroI + ∑ i : SA.Idx, (FloatOps.mulf (bceR (P i) (T i)) (wR P T L i) : EReal) := by
    rw [kr_zero, zero_add]
    unfold KLOSS
    refine Finset.sum_congr rfl (fun i _ => ?_)
    rw [kr_bce, kr_weight]
    rfl
  unfold KRES RRES
  rw [hsum, totOf_histRow]

end Cert.Spec

end
-- ==== Proof.lean ====
/- The proof of `Cert.Claim`. The kernel computes a histogram-weighted binary cross-entropy in two passes over three
   262144 × 128 arrays (logits, targets, label weights), 64 blocks of 4096 rows each. Pass one accumulates, in a row carried across
   the grid, the number of valid elements in each of ten bins of the gradient magnitude |logistic p − t| and the number of valid
   elements; the host turns the counts into ten per-bin weights `TOT / max count 1`, divided by the number of non-empty bins. Pass
   two accumulates the sum of the cross-entropy terms times each element's bin weight and validity; the result is that sum over
   `TOT`. The reference computes the counts by a scatter-add, looks the weights up by a gather, and sums once.

   The three frames: each kernel region is a pipeline whose body adds one row to a scratch accumulator (reset at the first point,
   copied to the output block at the last), run as two regions among host stretches, at the word-level instance and at the ideal
   one from one text; the reference's frame is its run. The value claim at the ideal instance: both programs end at one function
   of the arguments — the blocks tile the arrays, so the per-point sums add up to the sums over the arrays; every bin index lies
   in 0..9, so the kernel's ten-way select over the weight row is the reference's lookup; the float count of non-empty bins is the
   integer count converted; and a weight times a 0/1 validity flag is the weight masked by validity. -/
import proofs.«128471_j21895743275016_1_alg».proof.Defs
import proofs.«128471_j21895743275016_1_alg».proof.Proof.Gen.Kernel
import proofs.«128471_j21895743275016_1_alg».proof.Proof.Gen.KernelIdeal
import proofs.«128471_j21895743275016_1_alg».proof.Proof.Gen.ReferenceIdeal
import proofs.«128471_j21895743275016_1_alg».proof.Proof.Gen.Pre_finite_inputs
import proofs.«128471_j21895743275016_1_alg».proof.Proof.K.Run
import proofs.«128471_j21895743275016_1_alg».proof.Proof.KI.Value
import proofs.«128471_j21895743275016_1_alg».proof.Proof.Ref.Value
import proofs.«128471_j21895743275016_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end at the specification's result of the arguments: the kernel's run names every buffer after the last host
    stretch, the reference's run its result's term; the two are the kernel's and the reference's formula, which are one number. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W8 m c (Proc.devRef .tc Cert.KernelIdeal.main_v31), ?_, ?_⟩
  · exact (θ_run Cert.KernelIdeal.defs _ _).mono (fun r h c =>
      ⟨h c _ (Cert.KernelIdeal.Hand.mem_uc Cert.KernelIdeal.main_v31 (by decide)),
       (h c _ (Cert.KernelIdeal.Hand.mem_uc Cert.KernelIdeal.main_arg0 (by decide))).trans (Cert.KernelIdeal.Hand.W8_main_arg0 m c),
       (h c _ (Cert.KernelIdeal.Hand.mem_uc Cert.KernelIdeal.main_arg1 (by decide))).trans (Cert.KernelIdeal.Hand.W8_main_arg1 m c),
       (h c _ (Cert.KernelIdeal.Hand.mem_uc Cert.KernelIdeal.main_arg2 (by decide))).trans (Cert.KernelIdeal.Hand.W8_main_arg2 m c)⟩)
      (Cert.KernelIdeal.Hand.run_all (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v59_eq, (hagree c).1, (hagree c).2.1, (hagree c).2.2]
    exact (Cert.ReferenceIdeal.Hand.ref_value _ _ _).trans
      ((congrArg (fun x => fun _ : Cert.ReferenceIdeal.S_.Idx => x) (Cert.Spec.kres_eq_rres _ _ _).symm).trans
        (Cert.KernelIdeal.Hand.result_value m c).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
